-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v242) = v0 c
          ∧ r.2.mem ((c.tc : Thread Cert.ReferenceIdeal.nD Cert.ReferenceIdeal.τ).loc Cert.ReferenceIdeal.main_v243) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S100000x128 : Shape := ⟨2, ![100000, 128]⟩
abbrev S10000x128 : Shape := ⟨2, ![10000, 128]⟩
abbrev S2x128x128 : Shape := ⟨3, ![2, 128, 128]⟩
abbrev S2x128 : Shape := ⟨2, ![2, 128]⟩
abbrev S256x40 : Shape := ⟨2, ![256, 40]⟩
abbrev S40 : Shape := ⟨1, ![40]⟩
abbrev S1500000 : Shape := ⟨1, ![1500000]⟩
abbrev S800000 : Shape := ⟨1, ![800000]⟩
abbrev S200000 : Shape := ⟨1, ![200000]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S10000x128 : S_.BroadcastsInDim S10000x128 (![] : Fin 0 → Fin S10000x128.rank)
  reducesTo_S10000x128_S_d0_1 : S10000x128.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_

variable [Facts]

def fn_part4 {F : FTy → Type} [FloatOps F] (main_arg14 : FVec F S40 .f32) (main_v63 : IVec S_ 1) (main_v67 : IVec S_ 1) : IVec S_ 1 :=
  let main_v68 : IVec S_ 1 := andi main_v63 main_v67
  let main_v69 : FVec F S40 .f32 := Host.absf main_arg14
  let main_cst_26 : FVec F S_ .f32 := constant S_ .f32 0x7F800000#32
  let main_v70 : FVec F S40 .f32 := broadcastInDim S40 ![] bcast_S_S40 main_cst_26
  let main_v71 : IVec S40 1 := cmpf .olt main_v69 main_v70
  let main_c_27 : IVec S_ 1 := constantI S_ 1 1#1
  let main_v72 : IVec S_ 1 := (fun x v => Host.reduce IntOp.andi x v reducesTo_S40_S_d0 h_S_) main_v71 main_c_27
  let main_v73 : IVec S_ 1 := andi main_v68 main_v72
  main_v73

def fn_part3 {F : FTy → Type} [FloatOps F] (main_arg11 : FVec F S2x128 .f32) (main_arg12 : FVec F S2x128 .f32) (main_arg13 : FVec F S256x40 .f32) (main_arg14 : FVec F S40 .f32) (main_v48 : IVec S_ 1) (main_v49 : FVec F S2x128 .f32) (main_v50 : FVec F S2x128 .f32) : IVec S_ 1 :=
  let main_v51 : IVec S2x128 1 := cmpf .olt main_v49 main_v50
  let main_c_19 : IVec S_ 1 := constantI S_ 1 1#1
  let main_v52 : IVec S_ 1 := (fun x v => Host.reduce IntOp.andi x v reducesTo_S2x128_S_d0_1 h_S_) main_v51 main_c_19
  let main_v53 : IVec S_ 1 := andi main_v48 main_v52
  let main_v54 : FVec F S2x128 .f32 := Host.absf main_arg11
  let main_cst_20 : FVec F S_ .f32 := constant S_ .f32 0x7F800000#32
  let main_v55 : FVec F S2x128 .f32 := broadcastInDim S2x128 ![] bcast_S_S2x128 main_cst_20
  let main_v56 : IVec S2x128 1 := cmpf .olt main_v54 main_v55
  let main_c_21 : IVec S_ 1 := constantI S_ 1 1#1
  let main_v57 : IVec S_ 1 := (fun x v => Host.reduce IntOp.andi x v reducesTo_S2x128_S_d0_1 h_S_) main_v56 main_c_21
  let main_v58 : IVec S_ 1 := andi main_v53 main_v57
  let main_v59 : FVec F S2x128 .f32 := Host.absf main_arg12
  let main_cst_22 : FVec F S_ .f32 := constant S_ .f32 0x7F800000#32
  let main_v60 : FVec F S2x128 .f32 := broadcastInDim S2x128 ![] bcast_S_S2x128 main_cst_22
  let main_v61 : IVec S2x128 1 := cmpf .olt main_v59 main_v60
  let main_c_23 : IVec S_ 1 := constantI S_ 1 1#1
  let main_v62 : IVec S_ 1 := (fun x v => Host.reduce IntOp.andi x v reducesTo_S2x128_S_d0_1 h_S_) main_v61 main_c_23
  let main_v63 : IVec S_ 1 := andi main_v58 main_v62
  let main_v64 : FVec F S256x40 .f32 := Host.absf main_arg13
  let main_cst_24 : FVec F S_ .f32 := constant S_ .f32 0x7F800000#32
  let main_v65 : FVec F S256x40 .f32 := broadcastInDim S256x40 ![] bcast_S_S256x40 main_cst_24
  let main_v66 : IVec S256x40 1 := cmpf .olt main_v64 main_v65
  let main_c_25 : IVec S_ 1 := constantI S_ 1 1#1
  let main_v67 : IVec S_ 1 := (fun x v => Host.reduce IntOp.andi x v reducesTo_S256x40_S_d0_1 h_S_) main_v66 main_c_25
  fn_part4 (F := F) main_arg14 main_v63 main_v67

def fn_part2 {F : FTy → Type} [FloatOps F] (main_arg7 : FVec F S2x128x128 .f32) (main_arg8 : FVec F S2x128x128 .f32) (main_arg9 : FVec F S2x128x128 .f32) (main_arg10 : FVec F S2x128 .f32) (main_arg11 : FVec F S2x128 .f32) (main_arg12 : FVec F S2x128 .f32) (main_arg13 : FVec F S256x40 .f32) (main_arg14 : FVec F S40 .f32) (main_v33 : IVec S_ 1) : IVec S_ 1 :=
  let main_v34 : FVec F S2x128x128 .f32 := Host.absf main_arg7
  let main_cst_12 : FVec F S_ .f32 := constant S_ .f32 0x7F800000#32
  let main_v35 : FVec F S2x128x128 .f32 := broadcastInDim S2x128x128 ![] bcast_S_S2x128x128 main_cst_12
  let main_v36 : IVec S2x128x128 1 := cmpf .olt main_v34 main_v35
  let main_c_13 : IVec S_ 1 := constantI S_ 1 1#1
  let main_v37 : IVec S_ 1 := (fun x v => Host.reduce IntOp.andi x v reducesTo_S2x128x128_S_d0_1_2 h_S_) main_v36 main_c_13
  let main_v38 : IVec S_ 1 := andi main_v33 main_v37
  let main_v39 : FVec F S2x128x128 .f32 := Host.absf main_arg8
  let main_cst_14 : FVec F S_ .f32 := constant S_ .f32 0x7F800000#32
  let main_v40 : FVec F S2x128x128 .f32 := broadcastInDim S2x128x128 ![] bcast_S_S2x128x128 main_cst_14
  let main_v41 : IVec S2x128x128 1 := cmpf .olt main_v39 main_v40
  let main_c_15 : IVec S_ 1 := constantI S_ 1 1#1
  let main_v42 : IVec S_ 1 := (fun x v => Host.reduce IntOp.andi x v reducesTo_S2x128x128_S_d0_1_2 h_S_) main_v41 main_c_15
  let main_v43 : IVec S_ 1 := andi main_v38 main_v42
  let main_v44 : FVec F S2x128x128 .f32 := Host.absf main_arg9
  let main_cst_16 : FVec F S_ .f32 := constant S_ .f32 0x7F800000#32
  let main_v45 : FVec F S2x128x128 .f32 := broadcastInDim S2x128x128 ![] bcast_S_S2x128x128 main_cst_16
  let main_v46 : IVec S2x128x128 1 := cmpf .olt main_v44 main_v45
  let main_c_17 : IVec S_ 1 := constantI S_ 1 1#1
  let main_v47 : IVec S_ 1 := (fun x v => Host.reduce IntOp.andi x v reducesTo_S2x128x128_S_d0_1_2 h_S_) main_v46 main_c_17
  let main_v48 : IVec S_ 1 := andi main_v43 main_v47
  let main_v49 : FVec F S2x128 .f32 := Host.absf main_arg10
  let main_cst_18 : FVec F S_ .f32 := constant S_ .f32 0x7F800000#32
  let main_v50 : FVec F S2x128 .f32 := broadcastInDim S2x128 ![] bcast_S_S2x128 main_cst_18
  fn_part3 (F := F) main_arg11 main_arg12 main_arg13 main_arg14 main_v48 main_v49 main_v50

def fn_part1 {F : FTy → Type} [FloatOps F] (main_arg4 : FVec F S2x128x128 .f32) (main_arg5 : FVec F S2x128x128 .f32) (main_arg6 : FVec F S2x128x128 .f32) (main_arg7 : FVec F S2x128x128 .f32) (main_arg8 : FVec F S2x128x128 .f32) (main_arg9 : FVec F S2x128x128 .f32) (main_arg10 : FVec F S2x128 .f32) (main_arg11 : FVec F S2x128 .f32) (main_arg12 : FVec F S2x128 .f32) (main_arg13 : FVec F S256x40 .f32) (main_arg14 : FVec F S40 .f32) (main_v13 : IVec S_ 1) (main_v16 : IVec S2x128x128 1) : IVec S_ 1 :=
  let main_c_5 : IVec S_ 1 := constantI S_ 1 1#1
  let main_v17 : IVec S_ 1 := (fun x v => Host.reduce IntOp.andi x v reducesTo_S2x128x128_S_d0_1_2 h_S_) main_v16 main_c_5
  let main_v18 : IVec S_ 1 := andi main_v13 main_v17
  let main_v19 : FVec F S2x128x128 .f32 := Host.absf main_arg4
  let main_cst_6 : FVec F S_ .f32 := constant S_ .f32 0x7F800000#32
  let main_v20 : FVec F S2x128x128 .f32 := broadcastInDim S2x128x128 ![] bcast_S_S2x128x128 main_cst_6
  let main_v21 : IVec S2x128x128 1 := cmpf .olt main_v19 main_v20
  let main_c_7 : IVec S_ 1 := constantI S_ 1 1#1
  let main_v22 : IVec S_ 1 := (fun x v => Host.reduce IntOp.andi x v reducesTo_S2x128x128_S_d0_1_2 h_S_) main_v21 main_c_7
  let main_v23 : IVec S_ 1 := andi main_v18 main_v22
  let main_v24 : FVec F S2x128x128 .f32 := Host.absf main_arg5
  let main_cst_8 : FVec F S_ .f32 := constant S_ .f32 0x7F800000#32
  let main_v25 : FVec F S2x128x128 .f32 := broadcastInDim S2x128x128 ![] bcast_S_S2x128x128 main_cst_8
  let main_v26 : IVec S2x128x128 1 := cmpf .olt main_v24 main_v25
  let main_c_9 : IVec S_ 1 := constantI S_ 1 1#1
  let main_v27 : IVec S_ 1 := (fun x v => Host.reduce IntOp.andi x v reducesTo_S2x128x128_S_d0_1_2 h_S_) main_v26 main_c_9
  let main_v28 : IVec S_ 1 := andi main_v23 main_v27
  let main_v29 : FVec F S2x128x128 .f32 := Host.absf main_arg6
  let main_cst_10 : FVec F S_ .f32 := constant S_ .f32 0x7F800000#32
  let main_v30 : FVec F S2x128x128 .f32 := broadcastInDim S2x128x128 ![] bcast_S_S2x128x128 main_cst_10
  let main_v31 : IVec S2x128x128 1 := cmpf .olt main_v29 main_v30
  let main_c_11 : IVec S_ 1 := constantI S_ 1 1#1
  let main_v32 : IVec S_ 1 := (fun x v => Host.reduce IntOp.andi x v reducesTo_S2x128x128_S_d0_1_2 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S200000x128 .f32) (main_arg1 : FVec F S100000x128 .f32) (main_arg2 : FVec F S10000x128 .f32) (main_arg3 : FVec F S2x128x128 .f32) (main_arg4 : FVec F S2x128x128 .f32) (main_arg5 : FVec F S2x128x128 .f32) (main_arg6 : FVec F S2x128x128 .f32) (main_arg7 : FVec F S2x128x128 .f32) (main_arg8 : FVec F S2x128x128 .f32) (main_arg9 : FVec F S2x128x128 .f32) (main_arg10 : FVec F S2x128 .f32) (main_arg11 : FVec F S2x128 .f32) (main_arg12 : FVec F S2x128 .f32) (main_arg13 : FVec F S256x40 .f32) (main_arg14 : FVec F S40 .f32) (main_arg15 : IVec S1500000 32) (main_arg16 : IVec S1500000 32) (main_arg17 : IVec S800000 32) (main_arg18 : IVec S800000 32) (main_arg19 : IVec S800000 32) (main_arg20 : IVec S800000 32) (main_arg21 : IVec S200000 32) (main_arg22 : IVec S200000 32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S10000x128 .f32 := Host.absf main_arg2
  let main_cst_2 : FVec F S_ .f32 := constant S_ .f32 0x7F800000#32
  let main_v10 : FVec F S10000x128 .f32 := broadcastInDim S10000x128 ![] bcast_S_S10000x128 main_cst_2
  let main_v11 : IVec S10000x128 1 := cmpf .olt main_v9 main_v10
  let main_c_3 : IVec S_ 1 := constantI S_ 1 1#1
  let main_v12 : IVec S_ 1 := (fun x v => Host.reduce IntOp.andi x v reducesTo_S10000x128_S_d0_1 h_S_) main_v11 main_c_3
  let main_v13 : IVec S_ 1 := andi main_v8 main_v12
  let main_v14 : FVec F S2x128x128 .f32 := Host.absf main_arg3
  let main_cst_4 : FVec F S_ .f32 := constant S_ .f32 0x7F800000#32
  let main_v15 : FVec F S2x128x128 .f32 := broadcastInDim S2x128x128 ![] bcast_S_S2x128x128 main_cst_4
  let main_v16 : IVec S2x128x128 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S200000x128 : Shape := ⟨2, ![200000, 128]⟩
abbrev S100000x128 : Shape := ⟨2, ![100000, 128]⟩
abbrev S10000x128 : Shape := ⟨2, ![10000, 128]⟩
abbrev S2x128x128 : Shape := ⟨3, ![2, 128, 128]⟩
abbrev S2x128 : Shape := ⟨2, ![2, 128]⟩
abbrev S256x40 : Shape := ⟨2, ![256, 40]⟩
abbrev S40 : Shape := ⟨1, ![40]⟩
abbrev S1500000 : Shape := ⟨1, ![1500000]⟩
abbrev S800000 : Shape := ⟨1, ![800000]⟩
abbrev S200000 : Shape := ⟨1, ![200000]⟩
abbrev S_ : Shape := ⟨0, ![]⟩
abbrev S1500000x1 : Shape := ⟨2, ![1500000, 1]⟩
abbrev S200000x1 : Shape := ⟨2, ![200000, 1]⟩
abbrev S800000x1 : Shape := ⟨2, ![800000, 1]⟩
abbrev S100000 : Shape := ⟨1, ![100000]⟩
abbrev S100000x1 : Shape := ⟨2, ![100000, 1]⟩
abbrev S1500000x128 : Shape := ⟨2, ![1500000, 128]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S128x40 : Shape := ⟨2, ![128, 40]⟩
abbrev S1x40 : Shape := ⟨2, ![1, 40]⟩
abbrev S200000x40 : Shape := ⟨2, ![200000, 40]⟩
abbrev S2 : Shape := ⟨1, ![2]⟩
abbrev S4000x128 : Shape := ⟨2, ![4000, 128]⟩
abbrev S4000x1 : Shape := ⟨2, ![4000, 1]⟩
abbrev S4000x40 : Shape := ⟨2, ![4000, 40]⟩

abbrev nBuf : Space → Nat
  | .hbm => 167
  | .vmem => 46
  | .smem => 0
  | _ => 0

abbrev hbmTy0_0 (i : Nat) : BufTy := match i % 128 with
  | 0 => ⟨S200000x128, .f32⟩
  | 1 => ⟨S100000x128, .f32⟩
  | 2 => ⟨S10000x128, .f32⟩
  | 3 => ⟨S2x128x128, .f32⟩
  | 4 => ⟨S2x128x128, .f32⟩
  | 5 => ⟨S2x128x128, .f32⟩
  | 6 => ⟨S2x128x128, .f32⟩
  | 7 => ⟨S2x128x128, .f32⟩
  | 8 => ⟨S2x128x128, .f32⟩
  | 9 => ⟨S2x128x128, .f32⟩
  | 10 => ⟨S2x128, .f32⟩
  | 11 => ⟨S2x128, .f32⟩
  | 12 => ⟨S2x128, .f32⟩
  | 13 => ⟨S256x40, .f32⟩
  | 14 => ⟨S40, .f32⟩
  | 15 => ⟨S1500000, .i32⟩
  | 16 => ⟨S1500000, .i32⟩
  | 17 => ⟨S800000, .i32⟩
  | 18 => ⟨S800000, .i32⟩
  | 19 => ⟨S800000, .i32⟩
  | 20 => ⟨S800000, .i32⟩
  | 21 => ⟨S200000, .i32⟩
  | 22 => ⟨S200000, .i32⟩
  | 23 => ⟨S_, .f32⟩
  | 24 => ⟨S1500000, .f32⟩
  | 25 => ⟨S_, .f32⟩
  | 26 => ⟨S200000, .f32⟩
  | 27 => ⟨S1500000x1, .i32⟩
  | 28 => ⟨S200000, .f32⟩
  | 29 => ⟨S_, .f32⟩
  | 30 => ⟨S200000, .f32⟩
  | 31 => ⟨S200000, .f32⟩
  | 32 => ⟨S_, .f32⟩
  | 33 => ⟨S200000, .f32⟩
  | 34 => ⟨S200000, .f32⟩
  | 35 => ⟨S200000x1, .f32⟩
  | 36 => ⟨S_, .f32⟩
  | 37 => ⟨S800000, .f32⟩
  | 38 => ⟨S_, .f32⟩
  | 39 => ⟨S200000, .f32⟩
  | 40 => ⟨S800000x1, .i32⟩
  | 41 => ⟨S200000, .f32⟩
  | 42 => ⟨S_, .f32⟩
  | 43 => ⟨S200000, .f32⟩
  | 44 => ⟨S200000, .f32⟩
  | 45 => ⟨S_, .f32⟩
  | 46 => ⟨S200000, .f32⟩
  | 47 => ⟨S200000, .f32⟩
  | 48 => ⟨S200000x1, .f32⟩
  | 49 => ⟨S_, .f32⟩
  | 50 => ⟨S800000, .f32⟩
  | 51 => ⟨S_, .f32⟩
  | 52 => ⟨S100000, .f32⟩
  | 53 => ⟨S800000x1, .i32⟩
  | 54 => ⟨S100000, .f32⟩
  | 55 => ⟨S_, .f32⟩
  | 56 => ⟨S100000, .f32⟩
  | 57 => ⟨S100000, .f32⟩
  | 58 => ⟨S_, .f32⟩
  | 59 => ⟨S100000, .f32⟩
  | 60 => ⟨S100000, .f32⟩
  | 61 => ⟨S100000x1, .f32⟩
  | 62 => ⟨S200000x128, .bf16⟩
  | 63 => ⟨S100000x128, .bf16⟩
  | 64 => ⟨S_, .i32⟩
  | 65 => ⟨S1500000, .i32⟩
  | 66 => ⟨S1500000, .i1⟩
  | 67 => ⟨S_, .i32⟩
  | 68 => ⟨S1500000, .i32⟩
  | 69 => ⟨S1500000, .i32⟩
  | 70 => ⟨S1500000, .i32⟩
  | 71 => ⟨S1500000x1, .i32⟩
  | 72 => ⟨S1500000x128, .bf16⟩
  | 73 => ⟨S1500000x128, .f32⟩
  | 74 => ⟨S_, .f32⟩
  | 75 => ⟨S200000x128, .f32⟩
  | 76 => ⟨S1500000x1, .i32⟩
  | 77 => ⟨S200000x128, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x128, .bf16⟩
  | 87 => ⟨S800000x128, .f32⟩
  | 88 => ⟨S_, .f32⟩
  | 89 => ⟨S200000x128, .f32⟩
  | 90 => ⟨S800000x1, .i32⟩
  | 91 => ⟨S200000x128, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000x128, .bf16⟩
  | 101 => ⟨S800000x128, .f32⟩
  | 102 => ⟨S_, .f32⟩
  | 103 => ⟨S100000x128, .f32⟩
  | 104 => ⟨S800000x1, .i32⟩
  | 105 => ⟨S100000x128, .f32⟩
  | 106 => ⟨S1x128x128, .f32⟩
  | 107 => ⟨S128x128, .f32⟩
  | 108 => ⟨S1x128x128, .f32⟩
  | 109 => ⟨S128x128, .f32⟩
  | 110 => ⟨S1x128x128, .f32⟩
  | 111 => ⟨S128x128, .f32⟩
  | 112 => ⟨S1x128, .f32⟩
  | 113 => ⟨S128, .f32⟩
  | 114 => ⟨S1x128, .f32⟩
  | 115 => ⟨S200000x128, .bf16⟩
  | 116 => ⟨S1x128x128, .f32⟩
  | 117 => ⟨S128x128, .f32⟩
  | 118 => ⟨S1x128x128, .f32⟩
  | 119 => ⟨S128x128, .f32⟩
  | 120 => ⟨S1x128, .f32⟩
  | 121 => ⟨S128, .f32⟩
  | 122 => ⟨S1x128, .f32⟩
  | 123 => ⟨S100000x128, .bf16⟩
  | 124 => ⟨S_, .i32⟩
  | 125 => ⟨S1500000, .i32⟩
  | 126 => ⟨S1500000, .i1⟩
  | 127 => ⟨S_, .i32⟩
  | _ => ⟨S200000x128, .f32⟩

abbrev hbmTy0_1 (i : Nat) : BufTy := match i % 128 with
  | 0 => ⟨S1500000, .i32⟩
  | 1 => ⟨S1500000, .i32⟩
  | 2 => ⟨S1500000, .i32⟩
  | 3 => ⟨S1500000x1, .i32⟩
  | 4 => ⟨S1500000x128, .bf16⟩
  | 5 => ⟨S1500000x128, .f32⟩
  | 6 => ⟨S_, .f32⟩
  | 7 => ⟨S200000x128, .f32⟩
  | 8 => ⟨S1500000x1, .i32⟩
  | 9 => ⟨S200000x128, .f32⟩
  | 10 => ⟨S_, .i32⟩
  | 11 => ⟨S800000, .i32⟩
  | 12 => ⟨S800000, .i1⟩
  | 13 => ⟨S_, .i32⟩
  | 14 => ⟨S800000, .i32⟩
  | 15 => ⟨S800000, .i32⟩
  | 16 => ⟨S800000, .i32⟩
  | 17 => ⟨S800000x1, .i32⟩
  | 18 => ⟨S800000x128, .bf16⟩
  | 19 => ⟨S800000x128, .f32⟩
  | 20 => ⟨S_, .f32⟩
  | 21 => ⟨S200000x128, .f32⟩
  | 22 => ⟨S800000x1, .i32⟩
  | 23 => ⟨S200000x128, .f32⟩
  | 24 => ⟨S128x40, .f32⟩
  | 25 => ⟨S128x40, .f32⟩
  | 26 => ⟨S1x128x128, .f32⟩
  | 27 => ⟨S128x128, .f32⟩
  | 28 => ⟨S1x128x128, .f32⟩
  | 29 => ⟨S128x128, .f32⟩
  | 30 => ⟨S1x128x128, .f32⟩
  | 31 => ⟨S128x128, .f32⟩
  | 32 => ⟨S1x128, .f32⟩
  | 33 => ⟨S128, .f32⟩
  | 34 => ⟨S1x128, .f32⟩
  | 35 => ⟨S1x40, .f32⟩
  | 36 => ⟨S200000x40, .f32⟩
  | 37 => ⟨S_, .f32⟩
  | 38 => ⟨S2, .f32⟩
  | _ => ⟨S200000x128, .f32⟩

abbrev hbmTy (i : Nat) : BufTy := match i / 128 with
  | 0 => hbmTy0_0 i
  | 1 => hbmTy0_1 i
  | _ => ⟨S200000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x1, .f32⟩
  | .local _ .vmem, ⟨7, _⟩ => ⟨S4000x1, .f32⟩
  | .local _ .vmem, ⟨8, _⟩ => ⟨S4000x1, .f32⟩
  | .local _ .vmem, ⟨9, _⟩ => ⟨S4000x1, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S1x128, .f32⟩
  | .local _ .vmem, ⟨14, _⟩ => ⟨S4000x128, .bf16⟩
  | .local _ .vmem, ⟨15, _⟩ => ⟨S4000x128, .bf16⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x1, .f32⟩
  | .local _ .vmem, ⟨21, _⟩ => ⟨S4000x1, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S4000x128, .bf16⟩
  | .local _ .vmem, ⟨26, _⟩ => ⟨S4000x128, .bf16⟩
  | .local _ .vmem, ⟨27, _⟩ => ⟨S4000x128, .bf16⟩
  | .local _ .vmem, ⟨28, _⟩ => ⟨S4000x128, .bf16⟩
  | .local _ .vmem, ⟨29, _⟩ => ⟨S4000x128, .f32⟩
  | .local _ .vmem, ⟨30, _⟩ => ⟨S4000x128, .f32⟩
  | .local _ .vmem, ⟨31, _⟩ => ⟨S4000x128, .f32⟩
  | .local _ .vmem, ⟨32, _⟩ => ⟨S4000x128, .f32⟩
  | .local _ .vmem, ⟨33, _⟩ => ⟨S4000x1, .f32⟩
  | .local _ .vmem, ⟨34, _⟩ => ⟨S4000x1, .f32⟩
  | .local _ .vmem, ⟨35, _⟩ => ⟨S4000x1, .f32⟩
  | .local _ .vmem, ⟨36, _⟩ => ⟨S4000x1, .f32⟩
  | .local _ .vmem, ⟨37, _⟩ => ⟨S128x128, .f32⟩
  | .local _ .vmem, ⟨38, _⟩ => ⟨S128x128, .f32⟩
  | .local _ .vmem, ⟨39, _⟩ => ⟨S128x128, .f32⟩
  | .local _ .vmem, ⟨40, _⟩ => ⟨S1x128, .f32⟩
  | .local _ .vmem, ⟨41, _⟩ => ⟨S128x40, .f32⟩
  | .local _ .vmem, ⟨42, _⟩ => ⟨S128x40, .f32⟩
  | .local _ .vmem, ⟨43, _⟩ => ⟨S1x40, .f32⟩
  | .local _ .vmem, ⟨44, _⟩ => ⟨S4000x40, .f32⟩
  | .local _ .vmem, ⟨45, _⟩ => ⟨S4000x40, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_call0_cst : Ref sig .tc := ⟨.hbm, 23, rfl⟩
abbrev main_call0_v0 : Ref sig .tc := ⟨.hbm, 24, rfl⟩
abbrev main_call0_cst_0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_cst_1 : Ref sig .tc := ⟨.hbm, 29, rfl⟩
abbrev main_call0_v4 : Ref sig .tc := ⟨.hbm, 30, rfl⟩
abbrev main_call0_v5 : Ref sig .tc := ⟨.hbm, 31, rfl⟩
abbrev main_call0_cst_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_cst_3 : Ref sig .tc := ⟨.hbm, 36, rfl⟩
abbrev main_call0_v9 : Ref sig .tc := ⟨.hbm, 37, rfl⟩
abbrev main_call0_cst_4 : Ref sig .tc := ⟨.hbm, 38, rfl⟩
abbrev main_call0_v10 : Ref sig .tc := ⟨.hbm, 39, rfl⟩
abbrev main_call0_v11 : Ref sig .tc := ⟨.hbm, 40, rfl⟩
abbrev main_call0_v12 : Ref sig .tc := ⟨.hbm, 41, rfl⟩
abbrev main_call0_cst_5 : Ref sig .tc := ⟨.hbm, 42, rfl⟩
abbrev main_call0_v13 : Ref sig .tc := ⟨.hbm, 43, rfl⟩
abbrev main_call0_v14 : Ref sig .tc := ⟨.hbm, 44, rfl⟩
abbrev main_call0_cst_6 : Ref sig .tc := ⟨.hbm, 45, rfl⟩
abbrev main_call0_v15 : Ref sig .tc := ⟨.hbm, 46, rfl⟩
abbrev main_call0_v16 : Ref sig .tc := ⟨.hbm, 47, rfl⟩
abbrev main_call0_v17 : Ref sig .tc := ⟨.hbm, 48, rfl⟩
abbrev main_call0_cst_7 : Ref sig .tc := ⟨.hbm, 49, rfl⟩
abbrev main_call0_v18 : Ref sig .tc := ⟨.hbm, 50, rfl⟩
abbrev main_call0_cst_8 : Ref sig .tc := ⟨.hbm, 51, rfl⟩
abbrev main_call0_v19 : Ref sig .tc := ⟨.hbm, 52, rfl⟩
abbrev main_call0_v20 : Ref sig .tc := ⟨.hbm, 53, rfl⟩
abbrev main_call0_v21 : Ref sig .tc := ⟨.hbm, 54, rfl⟩
abbrev main_call0_cst_9 : Ref sig .tc := ⟨.hbm, 55, rfl⟩
abbrev main_call0_v22 : Ref sig .tc := ⟨.hbm, 56, rfl⟩
abbrev main_call0_v23 : Ref sig .tc := ⟨.hbm, 57, rfl⟩
abbrev main_call0_cst_10 : Ref sig .tc := ⟨.hbm, 58, rfl⟩
abbrev main_call0_v24 : Ref sig .tc := ⟨.hbm, 59, rfl⟩
abbrev main_call0_v25 : Ref sig .tc := ⟨.hbm, 60, rfl⟩
abbrev main_call0_v26 : Ref sig .tc := ⟨.hbm, 61, rfl⟩
abbrev main_call0_v27 : Ref sig .tc := ⟨.hbm, 62, rfl⟩
abbrev main_call0_v28 : Ref sig .tc := ⟨.hbm, 63, rfl⟩
abbrev main_call0_c : Ref sig .tc := ⟨.hbm, 64, rfl⟩
abbrev main_call0_v29 : Ref sig .tc := ⟨.hbm, 65, rfl⟩
abbrev main_call0_v30 : Ref sig .tc := ⟨.hbm, 66, rfl⟩
abbrev main_call0_c_11 : Ref sig .tc := ⟨.hbm, 67, rfl⟩
abbrev main_call0_v31 : Ref sig .tc := ⟨.hbm, 68, rfl⟩
abbrev main_call0_v32 : Ref sig .tc := ⟨.hbm, 69, rfl⟩
abbrev main_call0_v33 : Ref sig .tc := ⟨.hbm, 70, rfl⟩
abbrev main_call0_v34 : Ref sig .tc := ⟨.hbm, 71, rfl⟩
abbrev main_call0_v35 : Ref sig .tc := ⟨.hbm, 72, rfl⟩
abbrev main_call0_v36 : Ref sig .tc := ⟨.hbm, 73, rfl⟩
abbrev main_call0_cst_12 : Ref sig .tc := ⟨.hbm, 74, rfl⟩
abbrev main_call0_v37 : Ref sig .tc := ⟨.hbm, 75, rfl⟩
abbrev main_call0_v38 : Ref sig .tc := ⟨.hbm, 76, rfl⟩
abbrev main_call0_v39 : Ref sig .tc := ⟨.hbm, 77, rfl⟩
abbrev main_call0_c_13 : Ref sig .tc := ⟨.hbm, 78, rfl⟩
abbrev main_call0_v40 : Ref sig .tc := ⟨.hbm, 79, rfl⟩
abbrev main_call0_v41 : Ref sig .tc := ⟨.hbm, 80, rfl⟩
abbrev main_call0_c_14 : Ref sig .tc := ⟨.hbm, 81, rfl⟩
abbrev main_call0_v42 : Ref sig .tc := ⟨.hbm, 82, rfl⟩
abbrev main_call0_v43 : Ref sig .tc := ⟨.hbm, 83, rfl⟩
abbrev main_call0_v44 : Ref sig .tc := ⟨.hbm, 84, rfl⟩
abbrev main_call0_v45 : Ref sig .tc := ⟨.hbm, 85, rfl⟩
abbrev main_call0_v46 : Ref sig .tc := ⟨.hbm, 86, rfl⟩
abbrev main_call0_v47 : Ref sig .tc := ⟨.hbm, 87, rfl⟩
abbrev main_call0_cst_15 : Ref sig .tc := ⟨.hbm, 88, rfl⟩
abbrev main_call0_v48 : Ref sig .tc := ⟨.hbm, 89, rfl⟩
abbrev main_call0_v49 : Ref sig .tc := ⟨.hbm, 90, rfl⟩
abbrev main_call0_v50 : Ref sig .tc := ⟨.hbm, 91, rfl⟩
abbrev main_call0_c_16 : Ref sig .tc := ⟨.hbm, 92, rfl⟩
abbrev main_call0_v51 : Ref sig .tc := ⟨.hbm, 93, rfl⟩
abbrev main_call0_v52 : Ref sig .tc := ⟨.hbm, 94, rfl⟩
abbrev main_call0_c_17 : Ref sig .tc := ⟨.hbm, 95, rfl⟩
abbrev main_call0_v53 : Ref sig .tc := ⟨.hbm, 96, rfl⟩
abbrev main_call0_v54 : Ref sig .tc := ⟨.hbm, 97, rfl⟩
abbrev main_call0_v55 : Ref sig .tc := ⟨.hbm, 98, rfl⟩
abbrev main_call0_v56 : Ref sig .tc := ⟨.hbm, 99, rfl⟩
abbrev main_call0_v57 : Ref sig .tc := ⟨.hbm, 100, rfl⟩
abbrev main_call0_v58 : Ref sig .tc := ⟨.hbm, 101, rfl⟩
abbrev main_call0_cst_18 : Ref sig .tc := ⟨.hbm, 102, rfl⟩
abbrev main_call0_v59 : Ref sig .tc := ⟨.hbm, 103, rfl⟩
abbrev main_call0_v60 : Ref sig .tc := ⟨.hbm, 104, rfl⟩
abbrev main_call0_v61 : Ref sig .tc := ⟨.hbm, 105, rfl⟩
abbrev main_call0_v62 : Ref sig .tc := ⟨.hbm, 106, rfl⟩
abbrev main_call0_v63 : Ref sig .tc := ⟨.hbm, 107, rfl⟩
abbrev main_call0_v64 : Ref sig .tc := ⟨.hbm, 108, rfl⟩
abbrev main_call0_v65 : Ref sig .tc := ⟨.hbm, 109, rfl⟩
abbrev main_call0_v66 : Ref sig .tc := ⟨.hbm, 110, rfl⟩
abbrev main_call0_v67 : Ref sig .tc := ⟨.hbm, 111, rfl⟩
abbrev main_call0_v68 : Ref sig .tc := ⟨.hbm, 112, rfl⟩
abbrev main_call0_v69 : Ref sig .tc := ⟨.hbm, 113, rfl⟩
abbrev main_call0_v70 : Ref sig .tc := ⟨.hbm, 114, rfl⟩
abbrev main_call0_v71 : Ref sig .tc := ⟨.hbm, 115, rfl⟩
abbrev main_call0_v72 : Ref sig .tc := ⟨.hbm, 116, rfl⟩
abbrev main_call0_v73 : Ref sig .tc := ⟨.hbm, 117, rfl⟩
abbrev main_call0_v74 : Ref sig .tc := ⟨.hbm, 118, rfl⟩
abbrev main_call0_v75 : Ref sig .tc := ⟨.hbm, 119, rfl⟩
abbrev main_call0_v76 : Ref sig .tc := ⟨.hbm, 120, rfl⟩
abbrev main_call0_v77 : Ref sig .tc := ⟨.hbm, 121, rfl⟩
abbrev main_call0_v78 : Ref sig .tc := ⟨.hbm, 122, rfl⟩
abbrev main_call0_v79 : Ref sig .tc := ⟨.hbm, 123, rfl⟩
abbrev main_call0_c_19 : Ref sig .tc := ⟨.hbm, 124, rfl⟩
abbrev main_call0_v80 : Ref sig .tc := ⟨.hbm, 125, rfl⟩
abbrev main_call0_v81 : Ref sig .tc := ⟨.hbm, 126, rfl⟩
abbrev main_call0_c_20 : Ref sig .tc := ⟨.hbm, 127, rfl⟩
abbrev main_call0_v82 : Ref sig .tc := ⟨.hbm, 128, rfl⟩
abbrev main_call0_v83 : Ref sig .tc := ⟨.hbm, 129, rfl⟩
abbrev main_call0_v84 : Ref sig .tc := ⟨.hbm, 130, rfl⟩
abbrev main_call0_v85 : Ref sig .tc := ⟨.hbm, 131, rfl⟩
abbrev main_call0_v86 : Ref sig .tc := ⟨.hbm, 132, rfl⟩
abbrev main_call0_v87 : Ref sig .tc := ⟨.hbm, 133, rfl⟩
abbrev main_call0_cst_21 : Ref sig .tc := ⟨.hbm, 134, rfl⟩
abbrev main_call0_v88 : Ref sig .tc := ⟨.hbm, 135, rfl⟩
abbrev main_call0_v89 : Ref sig .tc := ⟨.hbm, 136, rfl⟩
abbrev main_call0_v90 : Ref sig .tc := ⟨.hbm, 137, rfl⟩
abbrev main_call0_c_22 : Ref sig .tc := ⟨.hbm, 138, rfl⟩
abbrev main_call0_v91 : Ref sig .tc := ⟨.hbm, 139, rfl⟩
abbrev main_call0_v92 : Ref sig .tc := ⟨.hbm, 140, rfl⟩
abbrev main_call0_c_23 : Ref sig .tc := ⟨.hbm, 141, rfl⟩
abbrev main_call0_v93 : Ref sig .tc := ⟨.hbm, 142, rfl⟩
abbrev main_call0_v94 : Ref sig .tc := ⟨.hbm, 143, rfl⟩
abbrev main_call0_v95 : Ref sig .tc := ⟨.hbm, 144, rfl⟩
abbrev main_call0_v96 : Ref sig .tc := ⟨.hbm, 145, rfl⟩
abbrev main_call0_v97 : Ref sig .tc := ⟨.hbm, 146, rfl⟩
abbrev main_call0_v98 : Ref sig .tc := ⟨.hbm, 147, rfl⟩
abbrev main_call0_cst_24 : Ref sig .tc := ⟨.hbm, 148, rfl⟩
abbrev main_call0_v99 : Ref sig .tc := ⟨.hbm, 149, rfl⟩
abbrev main_call0_v100 : Ref sig .tc := ⟨.hbm, 150, rfl⟩
abbrev main_call0_v101 : Ref sig .tc := ⟨.hbm, 151, rfl⟩
abbrev main_call0_v102 : Ref sig .tc := ⟨.hbm, 152, rfl⟩
abbrev main_call0_v103 : Ref sig .tc := ⟨.hbm, 153, rfl⟩
abbrev main_call0_v104 : Ref sig .tc := ⟨.hbm, 154, rfl⟩
abbrev main_call0_v105 : Ref sig .tc := ⟨.hbm, 155, rfl⟩
abbrev main_call0_v106 : Ref sig .tc := ⟨.hbm, 156, rfl⟩
abbrev main_call0_v107 : Ref sig .tc := ⟨.hbm, 157, rfl⟩
abbrev main_call0_v108 : Ref sig .tc := ⟨.hbm, 158, rfl⟩
abbrev main_call0_v109 : Ref sig .tc := ⟨.hbm, 159, rfl⟩
abbrev main_call0_v110 : Ref sig .tc := ⟨.hbm, 160, rfl⟩
abbrev main_call0_v111 : Ref sig .tc := ⟨.hbm, 161, rfl⟩
abbrev main_call0_v112 : Ref sig .tc := ⟨.hbm, 162, rfl⟩
abbrev main_call0_v113 : Ref sig .tc := ⟨.hbm, 163, rfl⟩
abbrev main_v0_0 : Ref sig .tc := ⟨.hbm, 164, rfl⟩
abbrev main_call0_cst_25 : Ref sig .tc := ⟨.hbm, 165, rfl⟩
abbrev main_v0_1 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg6_1 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg1_1 : Ref sig .tc := ⟨.vmem, 30, rfl⟩
abbrev cc2_stg2_0 : Ref sig .tc := ⟨.vmem, 31, rfl⟩
abbrev cc2_stg2_1 : Ref sig .tc := ⟨.vmem, 32, rfl⟩
abbrev cc2_stg3_0 : Ref sig .tc := ⟨.vmem, 33, rfl⟩
abbrev cc2_stg3_1 : Ref sig .tc := ⟨.vmem, 34, rfl⟩
abbrev cc2_stg4_0 : Ref sig .tc := ⟨.vmem, 35, rfl⟩
abbrev cc2_stg4_1 : Ref sig .tc := ⟨.vmem, 36, rfl⟩
abbrev cc2_stg5_0 : Ref sig .tc := ⟨.vmem, 37, rfl⟩
abbrev cc2_stg6_0 : Ref sig .tc := ⟨.vmem, 38, rfl⟩
abbrev cc2_stg7_0 : Ref sig .tc := ⟨.vmem, 39, rfl⟩
abbrev cc2_stg8_0 : Ref sig .tc := ⟨.vmem, 40, rfl⟩
abbrev cc2_stg9_0 : Ref sig .tc := ⟨.vmem, 41, rfl⟩
abbrev cc2_stg10_0 : Ref sig .tc := ⟨.vmem, 42, rfl⟩
abbrev cc2_stg11_0 : Ref sig .tc := ⟨.vmem, 43, rfl⟩
abbrev cc2_stg12_0 : Ref sig .tc := ⟨.vmem, 44, rfl⟩
abbrev cc2_stg12_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem6_1 : DmaSem sig := 26
abbrev cc2_sem0_0 : DmaSem sig := 27
abbrev cc2_sem0_1 : DmaSem sig := 28
abbrev cc2_sem1_0 : DmaSem sig := 29
abbrev cc2_sem1_1 : DmaSem sig := 30
abbrev cc2_sem2_0 : DmaSem sig := 31
abbrev cc2_sem2_1 : DmaSem sig := 32
abbrev cc2_sem3_0 : DmaSem sig := 33
abbrev cc2_sem3_1 : DmaSem sig := 34
abbrev cc2_sem4_0 : DmaSem sig := 35
abbrev cc2_sem4_1 : DmaSem sig := 36
abbrev cc2_sem5_0 : DmaSem sig := 37
abbrev cc2_sem6_0 : DmaSem sig := 38
abbrev cc2_sem7_0 : DmaSem sig := 39
abbrev cc2_sem8_0 : DmaSem sig := 40
abbrev cc2_sem9_0 : DmaSem sig := 41
abbrev cc2_sem10_0 : DmaSem sig := 42
abbrev cc2_sem11_0 : DmaSem sig := 43
abbrev cc2_sem12_0 : DmaSem sig := 44
abbrev cc2_sem12_1 : DmaSem sig := 45

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S4000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128x40 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S128x40 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x40 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 2 → Memref sig .tc .vmem S4000x40 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

class Facts₀ : Prop where
  bcast_S_S1500000 : S_.BroadcastsInDim S1500000 (![] : Fin 0 → Fin S1500000.rank)
  bcast_S_S200000 : S_.BroadcastsInDim S200000 (![] : Fin 0 → Fin S200000.rank)
  bcast_S1500000_S1500000x1_0 : S1500000.BroadcastsInDim S1500000x1 (![0] : Fin 1 → Fin S1500000x1.rank)
  shapeCasts_S200000_S200000x1 : S200000.ShapeCasts S200000x1
  bcast_S_S800000 : S_.BroadcastsInDim S800000 (![] : Fin 0 → Fin S800000.rank)
  bcast_S800000_S800000x1_0 : S800000.BroadcastsInDim S800000x1 (![0] : Fin 1 → Fin S800000x1.rank)
  bcast_S_S100000 : S_.BroadcastsInDim S100000 (![] : Fin 0 → Fin S100000.rank)
  shapeCasts_S100000_S100000x1 : S100000.ShapeCasts S100000x1
  bitsLt_bf16_f32 : FTy.bits .bf16 < FTy.bits .f32
  bcast_S_S200000x128 : S_.BroadcastsInDim S200000x128 (![] : Fin 0 → Fin S200000x128.rank)
  bcast_S_S100000x128 : S_.BroadcastsInDim S100000x128 (![] : Fin 0 → Fin S100000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  shapeCasts_S128_S1x128 : S128.ShapeCasts S1x128
  slices_S256x40_S128x40_0_0 : S256x40.Slices ![0, 0] S128x40
  slices_S256x40_S128x40_128_0 : S256x40.Slices ![128, 0] S128x40
  slices_S2x128x128_S1x128x128_1_0_0 : S2x128x128.Slices ![1, 0, 0] S1x128x128
  slices_S2x128_S1x128_1_0 : S2x128.Slices ![1, 0] S1x128
  shapeCasts_S40_S1x40 : S40.ShapeCasts S1x40
  bcast_S_S2 : S_.BroadcastsInDim S2 (![] : Fin 0 → Fin S2.rank)
  inb_S4000x128_S4000x128_0_0 : ∀ a, (![0, 0] : Fin 2 → Nat) a + S4000x128.size a ≤ S4000x128.size a
  h_S4000x128 : 0 < S4000x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  packedbf16_S4000x128_S4000x128_0_0 : (Rect.unit (s := S4000x128) ![0, 0] S4000x128.size inb_S4000x128_S4000x128_0_0).PackedRows (EltTy.packing .bf16)
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S4000x40 : S1x40.Broadcasts S4000x40
  inb_S4000x40_S4000x40_0_0 : ∀ a, (![0, 0] : Fin 2 → Nat) a + S4000x40.size a ≤ S4000x40.size a
  h_S4000x40 : 0 < S4000x40.numel
  scatter_S200000_S1500000x1_S1500000_n_0_0_1_wf : ScatterDims.WF S200000 S1500000x1 S1500000 [] [0] [0] 1
  scatter_S200000_S800000x1_S800000_n_0_0_1_wf : ScatterDims.WF S200000 S800000x1 S800000 [] [0] [0] 1
  scatter_S100000_S800000x1_S800000_n_0_0_1_wf : ScatterDims.WF S100000 S800000x1 S800000 [] [0] [0] 1
  gather_S200000x128_S1500000x1_S1500000x128_1_0_n_n_0_1_1128_wf : GatherDims.WF S200000x128 S1500000x1 S1500000x128 [1] [0] [] [0] [] 1 ![1, 128]
  scatter_S200000x128_S1500000x1_S1500000x128_1_0_0_1_wf : ScatterDims.WF S200000x128 S1500000x1 S1500000x128 [1] [0] [0] 1
  gather_S100000x128_S800000x1_S800000x128_1_0_n_n_0_1_1128_wf : GatherDims.WF S100000x128 S800000x1 S800000x128 [1] [0] [] [0] [] 1 ![1, 128]
  scatter_S200000x128_S800000x1_S800000x128_1_0_0_1_wf : ScatterDims.WF S200000x128 S800000x1 S800000x128 [1] [0] [0] 1
  gather_S200000x128_S800000x1_S800000x128_1_0_n_n_0_1_1128_wf : GatherDims.WF S200000x128 S800000x1 S800000x128 [1] [0] [] [0] [] 1 ![1, 128]
  scatter_S100000x128_S800000x1_S800000x128_1_0_0_1_wf : ScatterDims.WF S100000x128 S800000x1 S800000x128 [1] [0] [0] 1
  dot_S4000x128_S128x128_S4000x128_1_0_0_1_n_n_wf : DotDims.WF S4000x128 S128x128 S4000x128 [1] [0] [0] [1] [] []
  dot_S4000x128_S128x40_S4000x40_1_0_0_1_n_n_wf : DotDims.WF S4000x128 S128x40 S4000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S200000x128.size a
  hwx0_0 : ∀ i : grid0.Coords, EltTy.bits .f32 = 32 ∨ (Rect.block (s := S200000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S200000x128.size a
  hwx0_1 : ∀ i : grid0.Coords, EltTy.bits .f32 = 32 ∨ (Rect.block (s := S200000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S200000x128.size a
  hwx0_2 : ∀ i : grid0.Coords, EltTy.bits .f32 = 32 ∨ (Rect.block (s := S200000x128) S4000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x1.size a ≤ S200000x1.size a
  hwx0_3 : ∀ i : grid0.Coords, EltTy.bits .f32 = 32 ∨ (Rect.block (s := S200000x1) S4000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x1.size a ≤ S200000x1.size a
  hwx0_4 : ∀ i : grid0.Coords, EltTy.bits .f32 = 32 ∨ (Rect.block (s := S200000x1) S4000x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x128.size a ≤ S200000x128.size a
  hwx0_9 : ∀ i : grid0.Coords, EltTy.bits .bf16 = 32 ∨ (Rect.block (s := S200000x128) S4000x128.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .bf16 = 32 ∨ (Rect.block (s := S100000x128) S4000x128.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S200000x128.size a
  hwx2_0 : ∀ i : grid2.Coords, EltTy.bits .bf16 = 32 ∨ (Rect.block (s := S200000x128) S4000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S200000x128.size a
  hwx2_1 : ∀ i : grid2.Coords, EltTy.bits .f32 = 32 ∨ (Rect.block (s := S200000x128) S4000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S200000x128.size a
  hwx2_2 : ∀ i : grid2.Coords, EltTy.bits .f32 = 32 ∨ (Rect.block (s := S200000x128) S4000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x1.size a ≤ S200000x1.size a
  hwx2_3 : ∀ i : grid2.Coords, EltTy.bits .f32 = 32 ∨ (Rect.block (s := S200000x1) S4000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x1.size a ≤ S200000x1.size a
  hwx2_4 : ∀ i : grid2.Coords, EltTy.bits .f32 = 32 ∨ (Rect.block (s := S200000x1) S4000x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128x40.size a ≤ S128x40.size a
  hwx2_9 : ∀ i : grid2.Coords, EltTy.bits .f32 = 32 ∨ (Rect.block (s := S128x40) S128x40.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S128x40.size a ≤ S128x40.size a
  hwx2_10 : ∀ i : grid2.Coords, EltTy.bits .f32 = 32 ∨ (Rect.block (s := S128x40) S128x40.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x40.size a ≤ S1x40.size a
  hwx2_11 : ∀ i : grid2.Coords, EltTy.bits .f32 = 32 ∨ (Rect.block (s := S1x40) S1x40.size (cc2_transform_11 i) (hinb2_11 i)).WholeWords (EltTy.packing .f32)
  hstage2_12 : ∀ j, (stage2_12 j).IsWhole
  nbuf2_12 : grid2.bufCount reads2_12 false = 2
  hreads2_12 : ∀ i i' : grid2.Coords, (∀ a, reads2_12 a = true → i a = i' a) → cc2_transform_12 i = cc2_transform_12 i'
  hinb2_12 : ∀ (i : grid2.Coords) a, (cc2_transform_12 i a + 1) * S4000x40.size a ≤ S200000x40.size a
  hwx2_12 : ∀ i : grid2.Coords, EltTy.bits .f32 = 32 ∨ (Rect.block (s := S200000x40) S4000x40.size (cc2_transform_12 i) (hinb2_12 i)).WholeWords (EltTy.packing .f32)

variable [Facts₀]

def scatter_S200000_S1500000x1_S1500000_n_0_0_1 : ScatterDims S200000 S1500000x1 S1500000 where
  updateWindowDims := []
  insertedWindowDims := [0]
  scatterDimsToOperandDims := [0]
  indexVectorDim := 1
  wf := scatter_S200000_S1500000x1_S1500000_n_0_0_1_wf
def scatter_S200000_S800000x1_S800000_n_0_0_1 : ScatterDims S200000 S800000x1 S800000 where
  updateWindowDims := []
  insertedWindowDims := [0]
  scatterDimsToOperandDims := [0]
  indexVectorDim := 1
  wf := scatter_S200000_S800000x1_S800000_n_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S200000x128_S1500000x1_S1500000x128_1_0_n_n_0_1_1128 : GatherDims S200000x128 S1500000x1 S1500000x128 where
  offsetDims := [1]
  collapsedSliceDims := [0]
  operandBatchingDims := []
  startIndicesBatchingDims := []
  startIndexMap := [0]
  indexVectorDim := 1
  sliceSizes := ![1, 128]
  wf := gather_S200000x128_S1500000x1_S1500000x128_1_0_n_n_0_1_1128_wf
def scatter_S200000x128_S1500000x1_S1500000x128_1_0_0_1 : ScatterDims S200000x128 S1500000x1 S1500000x128 where
  updateWindowDims := [1]
  insertedWindowDims := [0]
  scatterDimsToOperandDims := [0]
  indexVectorDim := 1
  wf := scatter_S200000x128_S1500000x1_S1500000x128_1_0_0_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S200000x128_S800000x1_S800000x128_1_0_0_1 : ScatterDims S200000x128 S800000x1 S800000x128 where
  updateWindowDims := [1]
  insertedWindowDims := [0]
  scatterDimsToOperandDims := [0]
  indexVectorDim := 1
  wf := scatter_S200000x128_S800000x1_S800000x128_1_0_0_1_wf
def gather_S200000x128_S800000x1_S800000x128_1_0_n_n_0_1_1128 : GatherDims S200000x128 S800000x1 S800000x128 where
  offsetDims := [1]
  collapsedSliceDims := [0]
  operandBatchingDims := []
  startIndicesBatchingDims := []
  startIndexMap := [0]
  indexVectorDim := 1
  sliceSizes := ![1, 128]
  wf := gather_S200000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x40_S4000x40_1_0_0_1_n_n : DotDims S4000x128 S128x40 S4000x40 where
  lhsContracting := [1]
  rhsContracting := [0]
  lhsNonContracting := [0]
  rhsNonContracting := [1]
  lhsBatch := []
  rhsBatch := []
  wf := dot_S4000x128_S128x40_S4000x40_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v39) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v50) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v8) S4000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v17) S4000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v63) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v65) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v67) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v70) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v71) S4000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg1) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v61) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v26) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v73) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v75) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v78) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v79) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_call0_v71) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v90) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v101) S4000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_call0_v8) S4000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_call0_v17) S4000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_call0_v105) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_call0_v107) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_call0_v109) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_call0_v112) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_call0_v102) S128x40.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_call0_v103) S128x40.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_call0_v113) S1x40.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v0_0) S4000x40.size cc2_transform_12 reads2_12 true false 2 stage2_12 sem2_12
    hrank2 hreads2_12 hinb2_12 nbuf2_12 (Memref.isWhole_whole _) hwx2_12 hstage2_12

abbrev win2 : Fin 13 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | ⟨_ + 13, h⟩ => absurd h (Nat.not_lt.2 (Nat.le_add_left _ _))
abbrev spec2 : Fin 13 → Pipeline.WinSpec sig grid2.rank := fun w => (win2 w).toWinSpec

class Facts : Prop extends Facts₀ where

variable [Facts]
-- ==== ReferenceIdeal.lean ====
abbrev S200000x128 : Shape := ⟨2, ![200000, 128]⟩
abbrev S100000x128 : Shape := ⟨2, ![100000, 128]⟩
abbrev S10000x128 : Shape := ⟨2, ![10000, 128]⟩
abbrev S2x128x128 : Shape := ⟨3, ![2, 128, 128]⟩
abbrev S2x128 : Shape := ⟨2, ![2, 128]⟩
abbrev S256x40 : Shape := ⟨2, ![256, 40]⟩
abbrev S40 : Shape := ⟨1, ![40]⟩
abbrev S1500000 : Shape := ⟨1, ![1500000]⟩
abbrev S800000 : Shape := ⟨1, ![800000]⟩
abbrev S200000 : Shape := ⟨1, ![200000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S_ : Shape := ⟨0, ![]⟩
abbrev S1500000x1 : Shape := ⟨2, ![1500000, 1]⟩
abbrev S1500000x128 : Shape := ⟨2, ![1500000, 128]⟩
abbrev S200000x1 : Shape := ⟨2, ![200000, 1]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S10000 : Shape := ⟨1, ![10000]⟩
abbrev S10000x1 : Shape := ⟨2, ![10000, 1]⟩
abbrev S200000x256 : Shape := ⟨2, ![200000, 256]⟩
abbrev S200000x40 : Shape := ⟨2, ![200000, 40]⟩
abbrev S1x40 : Shape := ⟨2, ![1, 40]⟩
abbrev S2 : Shape := ⟨1, ![2]⟩

abbrev nBuf : Space → Nat
  | .hbm => 328
  | .vmem => 0
  | .smem => 0
  | _ => 0

abbrev hbmTy0_0 (i : Nat) : BufTy := match i % 128 with
  | 0 => ⟨S200000x128, .f32⟩
  | 1 => ⟨S100000x128, .f32⟩
  | 2 => ⟨S10000x128, .f32⟩
  | 3 => ⟨S2x128x128, .f32⟩
  | 4 => ⟨S2x128x128, .f32⟩
  | 5 => ⟨S2x128x128, .f32⟩
  | 6 => ⟨S2x128x128, .f32⟩
  | 7 => ⟨S2x128x128, .f32⟩
  | 8 => ⟨S2x128x128, .f32⟩
  | 9 => ⟨S2x128x128, .f32⟩
  | 10 => ⟨S2x128, .f32⟩
  | 11 => ⟨S2x128, .f32⟩
  | 12 => ⟨S2x128, .f32⟩
  | 13 => ⟨S256x40, .f32⟩
  | 14 => ⟨S40, .f32⟩
  | 15 => ⟨S1500000, .i32⟩
  | 16 => ⟨S1500000, .i32⟩
  | 17 => ⟨S800000, .i32⟩
  | 18 => ⟨S800000, .i32⟩
  | 19 => ⟨S800000, .i32⟩
  | 20 => ⟨S800000, .i32⟩
  | 21 => ⟨S200000, .i32⟩
  | 22 => ⟨S200000, .i32⟩
  | 23 => ⟨S1x128x128, .f32⟩
  | 24 => ⟨S128x128, .f32⟩
  | 25 => ⟨S200000x128, .f32⟩
  | 26 => ⟨S1x128, .f32⟩
  | 27 => ⟨S128, .f32⟩
  | 28 => ⟨S1x128, .f32⟩
  | 29 => ⟨S200000x128, .f32⟩
  | 30 => ⟨S200000x128, .f32⟩
  | 31 => ⟨S1x128x128, .f32⟩
  | 32 => ⟨S128x128, .f32⟩
  | 33 => ⟨S100000x128, .f32⟩
  | 34 => ⟨S1x128, .f32⟩
  | 35 => ⟨S128, .f32⟩
  | 36 => ⟨S1x128, .f32⟩
  | 37 => ⟨S100000x128, .f32⟩
  | 38 => ⟨S100000x128, .f32⟩
  | 39 => ⟨S1x128x128, .f32⟩
  | 40 => ⟨S128x128, .f32⟩
  | 41 => ⟨S10000x128, .f32⟩
  | 42 => ⟨S1x128, .f32⟩
  | 43 => ⟨S128, .f32⟩
  | 44 => ⟨S1x128, .f32⟩
  | 45 => ⟨S10000x128, .f32⟩
  | 46 => ⟨S10000x128, .f32⟩
  | 47 => ⟨S_, .i32⟩
  | 48 => ⟨S1500000, .i32⟩
  | 49 => ⟨S1500000, .i1⟩
  | 50 => ⟨S_, .i32⟩
  | 51 => ⟨S1500000, .i32⟩
  | 52 => ⟨S1500000, .i32⟩
  | 53 => ⟨S1500000, .i32⟩
  | 54 => ⟨S1500000x1, .i32⟩
  | 55 => ⟨S1500000x128, .f32⟩
  | 56 => ⟨S_, .f32⟩
  | 57 => ⟨S200000x128, .f32⟩
  | 58 => ⟨S1500000x1, .i32⟩
  | 59 => ⟨S200000x128, .f32⟩
  | 60 => ⟨S_, .f32⟩
  | 61 => ⟨S1500000, .f32⟩
  | 62 => ⟨S_, .f32⟩
  | 63 => ⟨S200000, .f32⟩
  | 64 => ⟨S1500000x1, .i32⟩
  | 65 => ⟨S200000, .f32⟩
  | 66 => ⟨S_, .f32⟩
  | 67 => ⟨S200000, .f32⟩
  | 68 => ⟨S200000, .f32⟩
  | 69 => ⟨S200000x1, .f32⟩
  | 70 => ⟨S200000x128, .f32⟩
  | 71 => ⟨S200000x128, .f32⟩
  | 72 => ⟨S1x128x128, .f32⟩
  | 73 => ⟨S128x128, .f32⟩
  | 74 => ⟨S200000x128, .f32⟩
  | 75 => ⟨S200000x128, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x128, .f32⟩
  | 85 => ⟨S_, .f32⟩
  | 86 => ⟨S200000x128, .f32⟩
  | 87 => ⟨S800000x1, .i32⟩
  | 88 => ⟨S200000x128, .f32⟩
  | 89 => ⟨S_, .f32⟩
  | 90 => ⟨S800000, .f32⟩
  | 91 => ⟨S_, .f32⟩
  | 92 => ⟨S200000, .f32⟩
  | 93 => ⟨S800000x1, .i32⟩
  | 94 => ⟨S200000, .f32⟩
  | 95 => ⟨S_, .f32⟩
  | 96 => ⟨S200000, .f32⟩
  | 97 => ⟨S200000, .f32⟩
  | 98 => ⟨S200000x1, .f32⟩
  | 99 => ⟨S200000x128, .f32⟩
  | 100 => ⟨S200000x128, .f32⟩
  | 101 => ⟨S1x128x128, .f32⟩
  | 102 => ⟨S128x128, .f32⟩
  | 103 => ⟨S200000x128, .f32⟩
  | 104 => ⟨S200000x128, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000x128, .f32⟩
  | 114 => ⟨S_, .f32⟩
  | 115 => ⟨S100000x128, .f32⟩
  | 116 => ⟨S800000x1, .i32⟩
  | 117 => ⟨S100000x128, .f32⟩
  | 118 => ⟨S_, .f32⟩
  | 119 => ⟨S800000, .f32⟩
  | 120 => ⟨S_, .f32⟩
  | 121 => ⟨S100000, .f32⟩
  | 122 => ⟨S800000x1, .i32⟩
  | 123 => ⟨S100000, .f32⟩
  | 124 => ⟨S_, .f32⟩
  | 125 => ⟨S100000, .f32⟩
  | 126 => ⟨S100000, .f32⟩
  | 127 => ⟨S100000x1, .f32⟩
  | _ => ⟨S200000x128, .f32⟩

abbrev hbmTy0_1 (i : Nat) : BufTy := match i % 128 with
  | 0 => ⟨S100000x128, .f32⟩
  | 1 => ⟨S100000x128, .f32⟩
  | 2 => ⟨S1x128x128, .f32⟩
  | 3 => ⟨S128x128, .f32⟩
  | 4 => ⟨S100000x128, .f32⟩
  | 5 => ⟨S100000x128, .f32⟩
  | 6 => ⟨S_, .i32⟩
  | 7 => ⟨S200000, .i32⟩
  | 8 => ⟨S200000, .i1⟩
  | 9 => ⟨S_, .i32⟩
  | 10 => ⟨S200000, .i32⟩
  | 11 => ⟨S200000, .i32⟩
  | 12 => ⟨S200000, .i32⟩
  | 13 => ⟨S200000x1, .i32⟩
  | 14 => ⟨S200000x128, .f32⟩
  | 15 => ⟨S_, .f32⟩
  | 16 => ⟨S10000x128, .f32⟩
  | 17 => ⟨S200000x1, .i32⟩
  | 18 => ⟨S10000x128, .f32⟩
  | 19 => ⟨S_, .f32⟩
  | 20 => ⟨S200000, .f32⟩
  | 21 => ⟨S_, .f32⟩
  | 22 => ⟨S10000, .f32⟩
  | 23 => ⟨S200000x1, .i32⟩
  | 24 => ⟨S10000, .f32⟩
  | 25 => ⟨S_, .f32⟩
  | 26 => ⟨S10000, .f32⟩
  | 27 => ⟨S10000, .f32⟩
  | 28 => ⟨S10000x1, .f32⟩
  | 29 => ⟨S10000x128, .f32⟩
  | 30 => ⟨S10000x128, .f32⟩
  | 31 => ⟨S1x128x128, .f32⟩
  | 32 => ⟨S128x128, .f32⟩
  | 33 => ⟨S10000x128, .f32⟩
  | 34 => ⟨S10000x128, .f32⟩
  | 35 => ⟨S_, .f32⟩
  | 36 => ⟨S200000x128, .f32⟩
  | 37 => ⟨S200000x128, .f32⟩
  | 38 => ⟨S_, .f32⟩
  | 39 => ⟨S100000x128, .f32⟩
  | 40 => ⟨S100000x128, .f32⟩
  | 41 => ⟨S_, .f32⟩
  | 42 => ⟨S10000x128, .f32⟩
  | 43 => ⟨S10000x128, .f32⟩
  | 44 => ⟨S1x128x128, .f32⟩
  | 45 => ⟨S128x128, .f32⟩
  | 46 => ⟨S200000x128, .f32⟩
  | 47 => ⟨S1x128, .f32⟩
  | 48 => ⟨S128, .f32⟩
  | 49 => ⟨S1x128, .f32⟩
  | 50 => ⟨S200000x128, .f32⟩
  | 51 => ⟨S200000x128, .f32⟩
  | 52 => ⟨S1x128x128, .f32⟩
  | 53 => ⟨S128x128, .f32⟩
  | 54 => ⟨S100000x128, .f32⟩
  | 55 => ⟨S1x128, .f32⟩
  | 56 => ⟨S128, .f32⟩
  | 57 => ⟨S1x128, .f32⟩
  | 58 => ⟨S100000x128, .f32⟩
  | 59 => ⟨S100000x128, .f32⟩
  | 60 => ⟨S1x128x128, .f32⟩
  | 61 => ⟨S128x128, .f32⟩
  | 62 => ⟨S10000x128, .f32⟩
  | 63 => ⟨S1x128, .f32⟩
  | 64 => ⟨S128, .f32⟩
  | 65 => ⟨S1x128, .f32⟩
  | 66 => ⟨S10000x128, .f32⟩
  | 67 => ⟨S10000x128, .f32⟩
  | 68 => ⟨S_, .i32⟩
  | 69 => ⟨S1500000, .i32⟩
  | 70 => ⟨S1500000, .i1⟩
  | 71 => ⟨S_, .i32⟩
  | 72 => ⟨S1500000, .i32⟩
  | 73 => ⟨S1500000, .i32⟩
  | 74 => ⟨S1500000, .i32⟩
  | 75 => ⟨S1500000x1, .i32⟩
  | 76 => ⟨S1500000x128, .f32⟩
  | 77 => ⟨S_, .f32⟩
  | 78 => ⟨S200000x128, .f32⟩
  | 79 => ⟨S1500000x1, .i32⟩
  | 80 => ⟨S200000x128, .f32⟩
  | 81 => ⟨S_, .f32⟩
  | 82 => ⟨S1500000, .f32⟩
  | 83 => ⟨S_, .f32⟩
  | 84 => ⟨S200000, .f32⟩
  | 85 => ⟨S1500000x1, .i32⟩
  | 86 => ⟨S200000, .f32⟩
  | 87 => ⟨S_, .f32⟩
  | 88 => ⟨S200000, .f32⟩
  | 89 => ⟨S200000, .f32⟩
  | 90 => ⟨S200000x1, .f32⟩
  | 91 => ⟨S200000x128, .f32⟩
  | 92 => ⟨S200000x128, .f32⟩
  | 93 => ⟨S1x128x128, .f32⟩
  | 94 => ⟨S128x128, .f32⟩
  | 95 => ⟨S200000x128, .f32⟩
  | 96 => ⟨S200000x128, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x128, .f32⟩
  | 106 => ⟨S_, .f32⟩
  | 107 => ⟨S200000x128, .f32⟩
  | 108 => ⟨S800000x1, .i32⟩
  | 109 => ⟨S200000x128, .f32⟩
  | 110 => ⟨S_, .f32⟩
  | 111 => ⟨S800000, .f32⟩
  | 112 => ⟨S_, .f32⟩
  | 113 => ⟨S200000, .f32⟩
  | 114 => ⟨S800000x1, .i32⟩
  | 115 => ⟨S200000, .f32⟩
  | 116 => ⟨S_, .f32⟩
  | 117 => ⟨S200000, .f32⟩
  | 118 => ⟨S200000, .f32⟩
  | 119 => ⟨S200000x1, .f32⟩
  | 120 => ⟨S200000x128, .f32⟩
  | 121 => ⟨S200000x128, .f32⟩
  | 122 => ⟨S1x128x128, .f32⟩
  | 123 => ⟨S128x128, .f32⟩
  | 124 => ⟨S200000x128, .f32⟩
  | 125 => ⟨S200000x128, .f32⟩
  | 126 => ⟨S_, .i32⟩
  | 127 => ⟨S800000, .i32⟩
  | _ => ⟨S200000x128, .f32⟩

abbrev hbmTy0_2 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S800000x128, .f32⟩
  | 7 => ⟨S_, .f32⟩
  | 8 => ⟨S100000x128, .f32⟩
  | 9 => ⟨S800000x1, .i32⟩
  | 10 => ⟨S100000x128, .f32⟩
  | 11 => ⟨S_, .f32⟩
  | 12 => ⟨S800000, .f32⟩
  | 13 => ⟨S_, .f32⟩
  | 14 => ⟨S100000, .f32⟩
  | 15 => ⟨S800000x1, .i32⟩
  | 16 => ⟨S100000, .f32⟩
  | 17 => ⟨S_, .f32⟩
  | 18 => ⟨S100000, .f32⟩
  | 19 => ⟨S100000, .f32⟩
  | 20 => ⟨S100000x1, .f32⟩
  | 21 => ⟨S100000x128, .f32⟩
  | 22 => ⟨S100000x128, .f32⟩
  | 23 => ⟨S1x128x128, .f32⟩
  | 24 => ⟨S128x128, .f32⟩
  | 25 => ⟨S100000x128, .f32⟩
  | 26 => ⟨S100000x128, .f32⟩
  | 27 => ⟨S_, .i32⟩
  | 28 => ⟨S200000, .i32⟩
  | 29 => ⟨S200000, .i1⟩
  | 30 => ⟨S_, .i32⟩
  | 31 => ⟨S200000, .i32⟩
  | 32 => ⟨S200000, .i32⟩
  | 33 => ⟨S200000, .i32⟩
  | 34 => ⟨S200000x1, .i32⟩
  | 35 => ⟨S200000x128, .f32⟩
  | 36 => ⟨S_, .f32⟩
  | 37 => ⟨S10000x128, .f32⟩
  | 38 => ⟨S200000x1, .i32⟩
  | 39 => ⟨S10000x128, .f32⟩
  | 40 => ⟨S_, .f32⟩
  | 41 => ⟨S200000, .f32⟩
  | 42 => ⟨S_, .f32⟩
  | 43 => ⟨S10000, .f32⟩
  | 44 => ⟨S200000x1, .i32⟩
  | 45 => ⟨S10000, .f32⟩
  | 46 => ⟨S_, .f32⟩
  | 47 => ⟨S10000, .f32⟩
  | 48 => ⟨S10000, .f32⟩
  | 49 => ⟨S10000x1, .f32⟩
  | 50 => ⟨S10000x128, .f32⟩
  | 51 => ⟨S10000x128, .f32⟩
  | 52 => ⟨S1x128x128, .f32⟩
  | 53 => ⟨S128x128, .f32⟩
  | 54 => ⟨S10000x128, .f32⟩
  | 55 => ⟨S10000x128, .f32⟩
  | 56 => ⟨S_, .f32⟩
  | 57 => ⟨S200000x128, .f32⟩
  | 58 => ⟨S200000x128, .f32⟩
  | 59 => ⟨S_, .f32⟩
  | 60 => ⟨S100000x128, .f32⟩
  | 61 => ⟨S100000x128, .f32⟩
  | 62 => ⟨S_, .f32⟩
  | 63 => ⟨S10000x128, .f32⟩
  | 64 => ⟨S10000x128, .f32⟩
  | 65 => ⟨S200000x256, .f32⟩
  | 66 => ⟨S200000x40, .f32⟩
  | 67 => ⟨S1x40, .f32⟩
  | 68 => ⟨S200000x40, .f32⟩
  | 69 => ⟨S200000x40, .f32⟩
  | 70 => ⟨S_, .f32⟩
  | 71 => ⟨S2, .f32⟩
  | _ => ⟨S200000x128, .f32⟩

abbrev hbmTy (i : Nat) : BufTy := match i / 128 with
  | 0 => hbmTy0_0 i
  | 1 => hbmTy0_1 i
  | 2 => hbmTy0_2 i
  | _ => ⟨S200000x128, .f32⟩

abbrev bufTy : (tb : Table) → Fin (tcTables nBuf tb) → BufTy
  | .hbm, ⟨i, _⟩ => hbmTy i
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c : Ref sig .tc := ⟨.hbm, 47, rfl⟩
abbrev main_v24 : Ref sig .tc := ⟨.hbm, 48, rfl⟩
abbrev main_v25 : Ref sig .tc := ⟨.hbm, 49, rfl⟩
abbrev main_c_0 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_1 : Ref sig .tc := ⟨.hbm, 60, rfl⟩
abbrev main_v34 : Ref sig .tc := ⟨.hbm, 61, rfl⟩
abbrev main_cst_2 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_3 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_c_4 : Ref sig .tc := ⟨.hbm, 76, rfl⟩
abbrev main_v47 : Ref sig .tc := ⟨.hbm, 77, rfl⟩
abbrev main_v48 : Ref sig .tc := ⟨.hbm, 78, rfl⟩
abbrev main_c_5 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_6 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_7 : Ref sig .tc := ⟨.hbm, 89, rfl⟩
abbrev main_v57 : Ref sig .tc := ⟨.hbm, 90, rfl⟩
abbrev main_cst_8 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_9 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_c_10 : Ref sig .tc := ⟨.hbm, 105, rfl⟩
abbrev main_v70 : Ref sig .tc := ⟨.hbm, 106, rfl⟩
abbrev main_v71 : Ref sig .tc := ⟨.hbm, 107, rfl⟩
abbrev main_c_11 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_12 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_13 : Ref sig .tc := ⟨.hbm, 118, rfl⟩
abbrev main_v80 : Ref sig .tc := ⟨.hbm, 119, rfl⟩
abbrev main_cst_14 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_cst_15 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_c_16 : Ref sig .tc := ⟨.hbm, 134, rfl⟩
abbrev main_v93 : Ref sig .tc := ⟨.hbm, 135, rfl⟩
abbrev main_v94 : Ref sig .tc := ⟨.hbm, 136, rfl⟩
abbrev main_c_17 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_cst_18 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_19 : Ref sig .tc := ⟨.hbm, 147, rfl⟩
abbrev main_v103 : Ref sig .tc := ⟨.hbm, 148, rfl⟩
abbrev main_cst_20 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_cst_21 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_call0_cst : Ref sig .tc := ⟨.hbm, 163, rfl⟩
abbrev main_call0_v0 : Ref sig .tc := ⟨.hbm, 164, rfl⟩
abbrev main_v116 : Ref sig .tc := ⟨.hbm, 165, rfl⟩
abbrev main_call1_cst : Ref sig .tc := ⟨.hbm, 166, rfl⟩
abbrev main_call1_v0 : Ref sig .tc := ⟨.hbm, 167, rfl⟩
abbrev main_v117 : Ref sig .tc := ⟨.hbm, 168, rfl⟩
abbrev main_call2_cst : Ref sig .tc := ⟨.hbm, 169, rfl⟩
abbrev main_call2_v0 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_c_22 : Ref sig .tc := ⟨.hbm, 196, rfl⟩
abbrev main_v143 : Ref sig .tc := ⟨.hbm, 197, rfl⟩
abbrev main_v144 : Ref sig .tc := ⟨.hbm, 198, rfl⟩
abbrev main_c_23 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_cst_24 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_cst_25 : Ref sig .tc := ⟨.hbm, 209, rfl⟩
abbrev main_v153 : Ref sig .tc := ⟨.hbm, 210, rfl⟩
abbrev main_cst_26 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_cst_27 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_c_28 : Ref sig .tc := ⟨.hbm, 225, rfl⟩
abbrev main_v166 : Ref sig .tc := ⟨.hbm, 226, rfl⟩
abbrev main_v167 : Ref sig .tc := ⟨.hbm, 227, rfl⟩
abbrev main_c_29 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_cst_30 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_cst_31 : Ref sig .tc := ⟨.hbm, 238, rfl⟩
abbrev main_v176 : Ref sig .tc := ⟨.hbm, 239, rfl⟩
abbrev main_cst_32 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_cst_33 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_v187 : Ref sig .tc := ⟨.hbm, 252, rfl⟩
abbrev main_v188 : Ref sig .tc := ⟨.hbm, 253, rfl⟩
abbrev main_c_34 : Ref sig .tc := ⟨.hbm, 254, rfl⟩
abbrev main_v189 : Ref sig .tc := ⟨.hbm, 255, rfl⟩
abbrev main_v190 : Ref sig .tc := ⟨.hbm, 256, rfl⟩
abbrev main_c_35 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_cst_36 : Ref sig .tc := ⟨.hbm, 263, rfl⟩
abbrev main_v196 : Ref sig .tc := ⟨.hbm, 264, rfl⟩
abbrev main_v197 : Ref sig .tc := ⟨.hbm, 265, rfl⟩
abbrev main_v198 : Ref sig .tc := ⟨.hbm, 266, rfl⟩
abbrev main_cst_37 : Ref sig .tc := ⟨.hbm, 267, rfl⟩
abbrev main_v199 : Ref sig .tc := ⟨.hbm, 268, rfl⟩
abbrev main_cst_38 : Ref sig .tc := ⟨.hbm, 269, rfl⟩
abbrev main_v200 : Ref sig .tc := ⟨.hbm, 270, rfl⟩
abbrev main_v201 : Ref sig .tc := ⟨.hbm, 271, rfl⟩
abbrev main_v202 : Ref sig .tc := ⟨.hbm, 272, rfl⟩
abbrev main_cst_39 : Ref sig .tc := ⟨.hbm, 273, rfl⟩
abbrev main_v203 : Ref sig .tc := ⟨.hbm, 274, rfl⟩
abbrev main_v204 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_v208 : Ref sig .tc := ⟨.hbm, 279, rfl⟩
abbrev main_v209 : Ref sig .tc := ⟨.hbm, 280, rfl⟩
abbrev main_v210 : Ref sig .tc := ⟨.hbm, 281, rfl⟩
abbrev main_v211 : Ref sig .tc := ⟨.hbm, 282, rfl⟩
abbrev main_c_40 : Ref sig .tc := ⟨.hbm, 283, rfl⟩
abbrev main_v212 : Ref sig .tc := ⟨.hbm, 284, rfl⟩
abbrev main_v213 : Ref sig .tc := ⟨.hbm, 285, rfl⟩
abbrev main_c_41 : Ref sig .tc := ⟨.hbm, 286, rfl⟩
abbrev main_v214 : Ref sig .tc := ⟨.hbm, 287, rfl⟩
abbrev main_v215 : Ref sig .tc := ⟨.hbm, 288, rfl⟩
abbrev main_v216 : Ref sig .tc := ⟨.hbm, 289, rfl⟩
abbrev main_v217 : Ref sig .tc := ⟨.hbm, 290, rfl⟩
abbrev main_v218 : Ref sig .tc := ⟨.hbm, 291, rfl⟩
abbrev main_cst_42 : Ref sig .tc := ⟨.hbm, 292, rfl⟩
abbrev main_v219 : Ref sig .tc := ⟨.hbm, 293, rfl⟩
abbrev main_v220 : Ref sig .tc := ⟨.hbm, 294, rfl⟩
abbrev main_v221 : Ref sig .tc := ⟨.hbm, 295, rfl⟩
abbrev main_cst_43 : Ref sig .tc := ⟨.hbm, 296, rfl⟩
abbrev main_v222 : Ref sig .tc := ⟨.hbm, 297, rfl⟩
abbrev main_cst_44 : Ref sig .tc := ⟨.hbm, 298, rfl⟩
abbrev main_v223 : Ref sig .tc := ⟨.hbm, 299, rfl⟩
abbrev main_v224 : Ref sig .tc := ⟨.hbm, 300, rfl⟩
abbrev main_v225 : Ref sig .tc := ⟨.hbm, 301, rfl⟩
abbrev main_cst_45 : Ref sig .tc := ⟨.hbm, 302, rfl⟩
abbrev main_v226 : Ref sig .tc := ⟨.hbm, 303, rfl⟩
abbrev main_v227 : Ref sig .tc := ⟨.hbm, 304, rfl⟩
abbrev main_v228 : Ref sig .tc := ⟨.hbm, 305, rfl⟩
abbrev main_v229 : Ref sig .tc := ⟨.hbm, 306, rfl⟩
abbrev main_v230 : Ref sig .tc := ⟨.hbm, 307, rfl⟩
abbrev main_v231 : Ref sig .tc := ⟨.hbm, 308, rfl⟩
abbrev main_v232 : Ref sig .tc := ⟨.hbm, 309, rfl⟩
abbrev main_v233 : Ref sig .tc := ⟨.hbm, 310, rfl⟩
abbrev main_v234 : Ref sig .tc := ⟨.hbm, 311, rfl⟩
abbrev main_call3_cst : Ref sig .tc := ⟨.hbm, 312, rfl⟩
abbrev main_call3_v0 : Ref sig .tc := ⟨.hbm, 313, rfl⟩
abbrev main_v235 : Ref sig .tc := ⟨.hbm, 314, rfl⟩
abbrev main_call4_cst : Ref sig .tc := ⟨.hbm, 315, rfl⟩
abbrev main_call4_v0 : Ref sig .tc := ⟨.hbm, 316, rfl⟩
abbrev main_v236 : Ref sig .tc := ⟨.hbm, 317, rfl⟩
abbrev main_call5_cst : Ref sig .tc := ⟨.hbm, 318, rfl⟩
abbrev main_call5_v0 : Ref sig .tc := ⟨.hbm, 319, rfl⟩
abbrev main_v237 : Ref sig .tc := ⟨.hbm, 320, rfl⟩
abbrev main_v238 : Ref sig .tc := ⟨.hbm, 321, rfl⟩
abbrev main_v239 : Ref sig .tc := ⟨.hbm, 322, rfl⟩
abbrev main_v240 : Ref sig .tc := ⟨.hbm, 323, rfl⟩
abbrev main_v241 : Ref sig .tc := ⟨.hbm, 324, rfl⟩
abbrev main_v242 : Ref sig .tc := ⟨.hbm, 325, rfl⟩
abbrev main_cst_46 : Ref sig .tc := ⟨.hbm, 326, rfl⟩
abbrev main_v243 : Ref sig .tc := ⟨.hbm, 327, rfl⟩

abbrev nD : Nat := 1
abbrev τ : Topo := Topo.v7x

variable {F : FTy → Type} [FloatOps F]

class Facts₀ : Prop where
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S1x128_S100000x128_0_1 : S1x128.BroadcastsInDim S100000x128 (![0, 1] : Fin 2 → Fin S100000x128.rank)
  bcast_S1x128_S10000x128_0_1 : S1x128.BroadcastsInDim S10000x128 (![0, 1] : Fin 2 → Fin S10000x128.rank)
  bcast_S_S1500000 : S_.BroadcastsInDim S1500000 (![] : Fin 0 → Fin S1500000.rank)
  bcast_S1500000_S1500000x1_0 : S1500000.BroadcastsInDim S1500000x1 (![0] : Fin 1 → Fin S1500000x1.rank)
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  slices_S2x128x128_S1x128x128_1_0_0 : S2x128x128.Slices ![1, 0, 0] S1x128x128
  slices_S2x128_S1x128_1_0 : S2x128.Slices ![1, 0] S1x128
  concatenates_S200000x128_S200000x128_S200000x256_d1 : Shape.Concatenates [S200000x128, S200000x128] S200000x256 1
  bcast_S40_S1x40_1 : S40.BroadcastsInDim S1x40 (![1] : Fin 1 → Fin S1x40.rank)
  bcast_S1x40_S200000x40_0_1 : S1x40.BroadcastsInDim S200000x40 (![0, 1] : Fin 2 → Fin S200000x40.rank)
  bcast_S_S2 : S_.BroadcastsInDim S2 (![] : Fin 0 → Fin S2.rank)
  dot_S200000x128_S128x128_S200000x128_1_0_0_1_n_n_wf : DotDims.WF S200000x128 S128x128 S200000x128 [1] [0] [0] [1] [] []
  dot_S100000x128_S128x128_S100000x128_1_0_0_1_n_n_wf : DotDims.WF S100000x128 S128x128 S100000x128 [1] [0] [0] [1] [] []
  dot_S10000x128_S128x128_S10000x128_1_0_0_1_n_n_wf : DotDims.WF S10000x128 S128x128 S10000x128 [1] [0] [0] [1] [] []
  gather_S200000x128_S1500000x1_S1500000x128_1_0_n_n_0_1_1128_wf : GatherDims.WF S200000x128 S1500000x1 S1500000x128 [1] [0] [] [0] [] 1 ![1, 128]
  scatter_S200000x128_S1500000x1_S1500000x128_1_0_0_1_wf : ScatterDims.WF S200000x128 S1500000x1 S1500000x128 [1] [0] [0] 1
  scatter_S200000_S1500000x1_S1500000_n_0_0_1_wf : ScatterDims.WF S200000 S1500000x1 S1500000 [] [0] [0] 1
  gather_S100000x128_S800000x1_S800000x128_1_0_n_n_0_1_1128_wf : GatherDims.WF S100000x128 S800000x1 S800000x128 [1] [0] [] [0] [] 1 ![1, 128]
  scatter_S200000x128_S800000x1_S800000x128_1_0_0_1_wf : ScatterDims.WF S200000x128 S800000x1 S800000x128 [1] [0] [0] 1
  scatter_S200000_S800000x1_S800000_n_0_0_1_wf : ScatterDims.WF S200000 S800000x1 S800000 [] [0] [0] 1
  gather_S200000x128_S800000x1_S800000x128_1_0_n_n_0_1_1128_wf : GatherDims.WF S200000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  gather_S100000x128_S200000x1_S200000x128_1_0_n_n_0_1_1128_wf : GatherDims.WF S100000x128 S200000x1 S200000x128 [1] [0] [] [0] [] 1 ![1, 128]
  scatter_S10000x128_S200000x1_S200000x128_1_0_0_1_wf : ScatterDims.WF S10000x128 S200000x1 S200000x128 [1] [0] [0] 1
  scatter_S10000_S200000x1_S200000_n_0_0_1_wf : ScatterDims.WF S10000 S200000x1 S200000 [] [0] [0] 1
  dot_S200000x256_S256x40_S200000x40_1_0_0_1_n_n_wf : DotDims.WF S200000x256 S256x40 S200000x40 [1] [0] [0] [1] [] []

variable [Facts₀]

def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S200000x128_S1500000x1_S1500000x128_1_0_n_n_0_1_1128 : GatherDims S200000x128 S1500000x1 S1500000x128 where
  offsetDims := [1]
  collapsedSliceDims := [0]
  operandBatchingDims := []
  startIndicesBatchingDims := []
  startIndexMap := [0]
  indexVectorDim := 1
  sliceSizes := ![1, 128]
  wf := gather_S200000x128_S1500000x1_S1500000x128_1_0_n_n_0_1_1128_wf
def scatter_S200000x128_S1500000x1_S1500000x128_1_0_0_1 : ScatterDims S200000x128 S1500000x1 S1500000x128 where
  updateWindowDims := [1]
  insertedWindowDims := [0]
  scatterDimsToOperandDims := [0]
  indexVectorDim := 1
  wf := scatter_S200000x128_S1500000x1_S1500000x128_1_0_0_1_wf
def scatter_S200000_S1500000x1_S1500000_n_0_0_1 : ScatterDims S200000 S1500000x1 S1500000 where
  updateWindowDims := []
  insertedWindowDims := [0]
  scatterDimsToOperandDims := [0]
  indexVectorDim := 1
  wf := scatter_S200000_S1500000x1_S1500000_n_0_0_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S200000x128_S800000x1_S800000x128_1_0_0_1 : ScatterDims S200000x128 S800000x1 S800000x128 where
  updateWindowDims := [1]
  insertedWindowDims := [0]
  scatterDimsToOperandDims := [0]
  indexVectorDim := 1
  wf := scatter_S200000x128_S800000x1_S800000x128_1_0_0_1_wf
def scatter_S200000_S800000x1_S800000_n_0_0_1 : ScatterDims S200000 S800000x1 S800000 where
  updateWindowDims := []
  insertedWindowDims := [0]
  scatterDimsToOperandDims := [0]
  indexVectorDim := 1
  wf := scatter_S200000_S800000x1_S800000_n_0_0_1_wf
def gather_S200000x128_S800000x1_S800000x128_1_0_n_n_0_1_1128 : GatherDims S200000x128 S800000x1 S800000x128 where
  offsetDims := [1]
  collapsedSliceDims := [0]
  operandBatchingDims := []
  startIndicesBatchingDims := []
  startIndexMap := [0]
  indexVectorDim := 1
  sliceSizes := ![1, 128]
  wf := gather_S200000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def scatter_S10000x128_S200000x1_S200000x128_1_0_0_1 : ScatterDims S10000x128 S200000x1 S200000x128 where
  updateWindowDims := [1]
  insertedWindowDims := [0]
  scatterDimsToOperandDims := [0]
  indexVectorDim := 1
  wf := scatter_S10000x128_S200000x1_S200000x128_1_0_0_1_wf
def scatter_S10000_S200000x1_S200000_n_0_0_1 : ScatterDims S10000 S200000x1 S200000 where
  updateWindowDims := []
  insertedWindowDims := [0]
  scatterDimsToOperandDims := [0]
  indexVectorDim := 1
  wf := scatter_S10000_S200000x1_S200000_n_0_0_1_wf
def dot_S200000x256_S256x40_S200000x40_1_0_0_1_n_n : DotDims S200000x256 S256x40 S200000x40 where
  lhsContracting := [1]
  rhsContracting := [0]
  lhsNonContracting := [0]
  rhsNonContracting := [1]
  lhsBatch := []
  rhsBatch := []
  wf := dot_S200000x256_S256x40_S200000x40_1_0_0_1_n_n_wf

class Facts : Prop extends Facts₀ where

variable [Facts]
-- ==== Proof.KTerms.lean ====
/-
  The host-side pieces of the message-passing program, each as a function of the argument arrays it reads.

  For a relation with source and destination index arrays, the aggregate of a feature array is the scatter-add, over
  the destination indices, of the feature rows gathered at the (wrapped) source indices; the reciprocal capped degree
  is one over the larger of one and the scatter-add of ones over the destination indices, as a column. A layer's weight
  matrices, bias rows and the two halves of the head matrix are slices of the stacked parameter arrays.
-/
import proofs.«404806_j34548716929227_3_alg».proof.KernelIdeal
import proofs.«404806_j34548716929227_3_alg».proof.Proof.Gen.KernelIdeal

noncomputable section

namespace Cert.KernelIdeal.Val

open Cert.KernelIdeal Idealize.ShloMosaic
open Cert.KernelIdeal.Facts₀

variable {F : FTy → Type} [FloatOps F]

/-- A source index column over the paper-paper edges: negative indices wrapped by the number of papers. -/
def srcPP (s : (⟨S1500000, .i32⟩ : BufTy).Contents (Elt F)) : (⟨S1500000x1, .i32⟩ : BufTy).Contents (Elt F) :=
  broadcastInDim S1500000x1 ![0] bcast_S1500000_S1500000x1_0
    (select (cmpi .slt s (broadcastInDim S1500000 ![] bcast_S_S1500000 (constantI S_ 32 0#32)))
      (addi s (broadcastInDim S1500000 ![] bcast_S_S1500000 (constantI S_ 32 200000#32))) s)

/-- A source index column over the author-paper edges: negative indices wrapped by the number of authors. -/
def srcAP (s : (⟨S800000, .i32⟩ : BufTy).Contents (Elt F)) : (⟨S800000x1, .i32⟩ : BufTy).Contents (Elt F) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 100000#32))) s)

/-- A source index column over the paper-author edges: negative indices wrapped by the number of papers. -/
def srcPA (s : (⟨S800000, .i32⟩ : BufTy).Contents (Elt F)) : (⟨S800000x1, .i32⟩ : BufTy).Contents (Elt F) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 200000#32))) s)

/-- Paper features summed into papers along the paper-paper edges. -/
def aggPP (src dst : (⟨S1500000, .i32⟩ : BufTy).Contents (Elt F)) (x : FVec F S200000x128 .bf16) : FVec F S200000x128 .f32 :=
  Host.scatterAdd scatter_S200000x128_S1500000x1_S1500000x128_1_0_0_1
    (broadcastInDim S200000x128 ![] bcast_S_S200000x128 (constant S_ .f32 0x00000000#32))
    (broadcastInDim S1500000x1 ![0] bcast_S1500000_S1500000x1_0 dst)
    (extf .f32 (Host.gather gather_S200000x128_S1500000x1_S1500000x128_1_0_n_n_0_1_1128 x (srcPP src)) bitsLt_bf16_f32)

/-- Author features summed into papers along the author-paper edges. -/
def aggAP (src dst : (⟨S800000, .i32⟩ : BufTy).Contents (Elt F)) (x : FVec F S100000x128 .bf16) : FVec F S200000x128 .f32 :=
  Host.scatterAdd scatter_S200000x128_S800000x1_S800000x128_1_0_0_1
    (broadcastInDim S200000x128 ![] bcast_S_S200000x128 (constant S_ .f32 0x00000000#32))
    (broadcastInDim S800000x1 ![0] bcast_S800000_S800000x1_0 dst)
    (extf .f32 (Host.gather gather_S100000x128_S800000x1_S800000x128_1_0_n_n_0_1_1128 x (srcAP src)) bitsLt_bf16_f32)

/-- Paper features summed into authors along the paper-author edges. -/
def aggPA (src dst : (⟨S800000, .i32⟩ : BufTy).Contents (Elt F)) (x : FVec F S200000x128 .bf16) : FVec F S100000x128 .f32 :=
  Host.scatterAdd scatter_S100000x128_S800000x1_S800000x128_1_0_0_1
    (broadcastInDim S100000x128 ![] bcast_S_S100000x128 (constant S_ .f32 0x00000000#32))
    (broadcastInDim S800000x1 ![0] bcast_S800000_S800000x1_0 dst)
    (extf .f32 (Host.gather gather_S200000x128_S800000x1_S800000x128_1_0_n_n_0_1_1128 x (srcPA src)) bitsLt_bf16_f32)

/-- The capped in-degree of every paper along the paper-paper edges. -/
def capPP (dst : (⟨S1500000, .i32⟩ : BufTy).Contents (Elt F)) : FVec F S200000 .f32 :=
  maximumf (Host.scatterAdd scatter_S200000_S1500000x1_S1500000_n_0_0_1
      (broadcastInDim S200000 ![] bcast_S_S200000 (constant S_ .f32 0x00000000#32))
      (broadcastInDim S1500000x1 ![0] bcast_S1500000_S1500000x1_0 dst)
      (broadcastInDim S1500000 ![] bcast_S_S1500000 (constant S_ .f32 0x3F800000#32)))
    (broadcastInDim S200000 ![] bcast_S_S200000 (constant S_ .f32 0x3F800000#32))

/-- The capped in-degree of every paper along the author-paper edges. -/
def capAP (dst : (⟨S800000, .i32⟩ : BufTy).Contents (Elt F)) : FVec F S200000 .f32 :=
  maximumf (Host.scatterAdd scatter_S200000_S800000x1_S800000_n_0_0_1
      (broadcastInDim S200000 ![] bcast_S_S200000 (constant S_ .f32 0x00000000#32))
      (broadcastInDim S800000x1 ![0] bcast_S800000_S800000x1_0 dst)
      (broadcastInDim S800000 ![] bcast_S_S800000 (constant S_ .f32 0x3F800000#32)))
    (broadcastInDim S200000 ![] bcast_S_S200000 (constant S_ .f32 0x3F800000#32))

/-- The capped in-degree of every author along the paper-author edges. -/
def capPA (dst : (⟨S800000, .i32⟩ : BufTy).Contents (Elt F)) : FVec F S100000 .f32 :=
  maximumf (Host.scatterAdd scatter_S100000_S800000x1_S800000_n_0_0_1
      (broadcastInDim S100000 ![] bcast_S_S100000 (constant S_ .f32 0x00000000#32))
      (broadcastInDim S800000x1 ![0] bcast_S800000_S800000x1_0 dst)
      (broadcastInDim S800000 ![] bcast_S_S800000 (constant S_ .f32 0x3F800000#32)))
    (broadcastInDim S100000 ![] bcast_S_S100000 (constant S_ .f32 0x3F800000#32))

/-- One over a capped degree, as a column over the papers. -/
def invP (cap : FVec F S200000 .f32) : FVec F S200000x1 .f32 :=
  shapeCast S200000x1 (Host.divf (broadcastInDim S200000 ![] bcast_S_S200000 (constant S_ .f32 0x3F800000#32)) cap) shapeCasts_S200000_S200000x1

/-- One over a capped degree, as a column over the authors. -/
def invA (cap : FVec F S100000 .f32) : FVec F S100000x1 .f32 :=
  shapeCast S100000x1 (Host.divf (broadcastInDim S100000 ![] bcast_S_S100000 (constant S_ .f32 0x3F800000#32)) cap) shapeCasts_S100000_S100000x1

/-- Layer 0's matrix of a stacked pair of weight matrices. -/
def wmat0 (W : FVec F S2x128x128 .f32) : FVec F S128x128 .f32 :=
  shapeCast S128x128 (extractStridedSlice S1x128x128 ![0, 0, 0] W slices_S2x128x128_S1x128x128_0_0_0) shapeCasts_S1x128x128_S128x128

/-- Layer 1's matrix of a stacked pair of weight matrices. -/
def wmat1 (W : FVec F S2x128x128 .f32) : FVec F S128x128 .f32 :=
  shapeCast S128x128 (extractStridedSlice S1x128x128 ![1, 0, 0] W slices_S2x128x128_S1x128x128_1_0_0) shapeCasts_S1x128x128_S128x128

/-- Layer 0's bias of a stacked pair of biases, as a vector. -/
def bvec0 (b : FVec F S2x128 .f32) : FVec F S128 .f32 :=
  shapeCast S128 (extractStridedSlice S1x128 ![0, 0] b slices_S2x128_S1x128_0_0) shapeCasts_S1x128_S128

/-- Layer 1's bias of a stacked pair of biases, as a vector. -/
def bvec1 (b : FVec F S2x128 .f32) : FVec F S128 .f32 :=
  shapeCast S128 (extractStridedSlice S1x128 ![1, 0] b slices_S2x128_S1x128_1_0) shapeCasts_S1x128_S128

/-- A bias vector as a row. -/
def brow (b : FVec F S128 .f32) : FVec F S1x128 .f32 := shapeCast S1x128 b shapeCasts_S128_S1x128

/-- The head matrix's upper half (rows 0 to 127). -/
def headW0 (W : FVec F S256x40 .f32) : FVec F S128x40 .f32 := extractStridedSlice S128x40 ![0, 0] W slices_S256x40_S128x40_0_0

/-- The head matrix's lower half (rows 128 to 255). -/
def headW1 (W : FVec F S256x40 .f32) : FVec F S128x40 .f32 := extractStridedSlice S128x40 ![128, 0] W slices_S256x40_S128x40_128_0

/-- The head bias as a row. -/
def headB (b : FVec F S40 .f32) : FVec F S1x40 .f32 := shapeCast S1x40 b shapeCasts_S40_S1x40

end Cert.KernelIdeal.Val

end
-- ==== Proof.LibPlainMatmul.lean ====
/-
  A plain matrix product read at an index.

  `DotDims.plain M K N` contracts axis 1 of an `M × K` operand with axis 0 of a `K × N` operand, with no batch
  axis. At the ideal values a `tpu.matmul` with these dimension numbers into the zero accumulator is, at
  `(i, j)`, the sum over `k : Fin K` of `l (i, k) * r (k, j)` on the extended reals: the library's sum over the
  contraction shape's indices (`Ideal.matmul_constant_zero_apply`) re-indexed by the one coordinate of that shape
  (`ValueIdx.contrEquiv1`), the operand indices read off the dimension numbers.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The left operand's index at result `j` and contraction coordinate `k` is `(j 0, k)`. -/
theorem plain_lhsIdx (M K N : ℕ) (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at result `j` and contraction coordinate `k` is `(k, j 1)`. -/
theorem plain_rhsIdx (M K N : ℕ) (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- A plain matmul into the zero accumulator, at an index: the sum of the products along the contracted axis. -/
theorem matmul_plain_zero_apply {φ₁ φ₂ : FTy} (M K N : ℕ) (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) := by
  rw [Ideal.matmul_constant_zero_apply, ← Equiv.sum_comp (contrEquiv1 (DotDims.plain M K N) K rfl rfl).symm]
  refine Finset.sum_congr rfl fun k _ => ?_
  rw [plain_lhsIdx, plain_rhsIdx]
  rfl

end Cert.Lib

end
-- ==== Proof.LibRowOps.lean ====
/-
  Rows of dense layers read at an index, at the ideal values.

  A dense layer acts on each row of its input by itself: a bias row is added to the row and the positive part taken
  (`reluRow`), and the row is multiplied into a weight matrix (`projRow`). The lemmas here read each of these steps
  at an entry `(r, j)` as one of the two row functions of row `r`: the host's `dot_general` with the plain dimension
  numbers and a `tpu.matmul` into the zero accumulator are the same sum along the contracted axis, a `[1, K]` row
  broadcast down an `[M, K]` array reads the row's entry, and the fused `max (x + b) z` forms are the ones a kernel
  body spells with a shape cast of the block and of the bias row.
-/
import Idealize.ShloMosaic.PureOps.Ideal
import Idealize.ShloMosaic.PureOps.Ideal.Laws
import Idealize.ShloMosaic.Lib.ValueIdx
import Idealize.ShloMosaic.Lib.Pipeline.Value
import proofs.«404806_j34548716929227_3_alg».proof.Proof.LibPlainMatmul

noncomputable section

namespace Cert.Lib

open Idealize.ShloMosaic Idealize.ShloMosaic.ValueIdx

/-- A row `x` of length `K` against the columns of a `[K, N]` matrix: entry `j` is the sum of the products along `k`. -/
def projRow {K N : ℕ} (x : Fin K → EReal) (W : (⟨2, ![K, N]⟩ : Shape).Idx → EReal) : Fin N → EReal :=
  fun j => ∑ k : Fin K, x k * W (ix2 k j)

/-- A row `x` plus the bias row `B` (an array of shape `[1, K]`), each entry then capped below by `z`. -/
def reluRow {K : ℕ} (x : Fin K → EReal) (B : (⟨2, ![1, K]⟩ : Shape).Idx → EReal) (z : EReal) : Fin K → EReal :=
  fun k => max (x k + B (ix2 (0 : Fin 1) k)) z

/-- The host's `dot_general` with the plain dimension numbers, at an index: the same sum along the contracted axis. -/
theorem dotGeneral_plain_apply {φ₁ φ₂ : FTy} (M K N : ℕ) (prec : Option ContractPrecision)
    (l : FVec Ideal ⟨2, ![M, K]⟩ φ₁) (r : FVec Ideal ⟨2, ![K, N]⟩ φ₂) (j : (⟨2, ![M, N]⟩ : Shape).Idx) :
    Host.dotGeneral (DotDims.plain M K N) prec l r j = ∑ k : Fin K, l (ix2 (j 0) k) * r (ix2 k (j 1)) := by
  simp only [Host.dotGeneral]
  rw [Ideal.dotGeneral_apply, ← Equiv.sum_comp (contrEquiv1 (DotDims.plain M K N) K rfl rfl).symm]
  refine Finset.sum_congr rfl fun k _ => ?_
  rw [plain_lhsIdx, plain_rhsIdx]
  rfl

/-- The host's plain `dot_general` at `(i, j)`: row `i` of the left operand against the right operand's columns. -/
theorem dotGeneral_rows_apply {M K N : ℕ} (prec : Option ContractPrecision)
    (l : FVec Ideal ⟨2, ![M, K]⟩ .f32) (w : FVec Ideal ⟨2, ![K, N]⟩ .f32) (i : Fin M) (j : Fin N) :
    Host.dotGeneral (DotDims.plain M K N) prec l w (ix2 i j) = projRow (fun k => l (ix2 i k)) w j :=
  dotGeneral_plain_apply M K N prec l w (ix2 i j)

/-- A `[1, K]` row broadcast down the rows of an `[M, K]` array reads, at `(r, k)`, the row's entry `k`. -/
theorem broadcastTo_row_apply {α : Type} {M K : ℕ} (b : (⟨2, ![1, K]⟩ : Shape).Idx → α)
    (h : (⟨2, ![1, K]⟩ : Shape).Broadcasts ⟨2, ![M, K]⟩) (r : Fin M) (k : Fin K) :
    broadcastTo ⟨2, ![M, K]⟩ b h (ix2 r k) = b (ix2 (0 : Fin 1) k) := by
  refine broadcastTo_apply b h (ix2 r k) (ix2 (0 : Fin 1) k) fun ax => ?_
  match ax with
  | ⟨0, _⟩ => rfl
  | ⟨1, _⟩ =>
    show k.val = if K = 1 then 0 else k.val
    split
    · have := k.isLt; omega
    · rfl

/-- A bias row added to every row of a block, then the positive part against the splat `z`, at `(r, k)`. -/
theorem biasRelu_apply {M K : ℕ} (x : FVec Ideal ⟨2, ![M, K]⟩ .f32) (b : FVec Ideal ⟨2, ![1, K]⟩ .f32)
    (h1 : (⟨2, ![M, K]⟩ : Shape).ShapeCasts ⟨2, ![M, K]⟩) (h2 : (⟨2, ![1, K]⟩ : Shape).ShapeCasts ⟨2, ![1, K]⟩)
    (h3 : (⟨2, ![1, K]⟩ : Shape).Broadcasts ⟨2, ![M, K]⟩) (z : Ideal .f32) (r : Fin M) (k : Fin K) :
    maximumf (addf (shapeCast ⟨2, ![M, K]⟩ x h1) (broadcastTo ⟨2, ![M, K]⟩ (shapeCast ⟨2, ![1, K]⟩ b h2) h3))
        (broadcast ⟨2, ![M, K]⟩ z) (ix2 r k)
      = reluRow (fun k => x (ix2 r k)) b z k := by
  rw [maximumf_apply, addf_apply, shapeCast_self, shapeCast_self, broadcast_apply, broadcastTo_row_apply]
  rfl

/-- A matrix product's entry plus the bias row's, then the positive part against the splat `z`, at `(r, j)`. -/
theorem addBiasRelu_apply {M N : ℕ} (y : FVec Ideal ⟨2, ![M, N]⟩ .f32) (b : FVec Ideal ⟨2, ![1, N]⟩ .f32)
    (h2 : (⟨2, ![1, N]⟩ : Shape).ShapeCasts ⟨2, ![1, N]⟩)
    (h3 : (⟨2, ![1, N]⟩ : Shape).Broadcasts ⟨2, ![M, N]⟩) (z : Ideal .f32) (r : Fin M) (j : Fin N) :
    maximumf (addf y (broadcastTo ⟨2, ![M, N]⟩ (shapeCast ⟨2, ![1, N]⟩ b h2) h3))
        (broadcast ⟨2, ![M, N]⟩ z) (ix2 r j)
      = reluRow (fun j => y (ix2 r j)) b z j := by
  rw [maximumf_apply, addf_apply, shapeCast_self, broadcast_apply, broadcastTo_row_apply]
  rfl

/-- A plain matmul into the zero accumulator at `(r, j)`: the row `r` of the left operand against column `j`. -/
theorem matmul_rows_apply {M K N : ℕ} (prec : Option ContractPrecision)
    (l : FVec Ideal ⟨2, ![M, K]⟩ .f32) (w : FVec Ideal ⟨2, ![K, N]⟩ .f32) (r : Fin M) (j : Fin N) :
    FloatOps.matmul (DotDims.plain M K N) prec l w (constant ⟨2, ![M, N]⟩ .f32 0x00000000#32) (ix2 r j)
      = projRow (fun k => l (ix2 r k)) w j :=
  matmul_plain_zero_apply M K N prec l w (ix2 r j)

/-! ## The same steps on whole arrays -/

/-- Every row of an `[M, K]` array plus the bias row, capped below by `z`. -/
def reluArr {M K : ℕ} (A : (⟨2, ![M, K]⟩ : Shape).Idx → EReal) (B : (⟨2, ![1, K]⟩ : Shape).Idx → EReal) (z : EReal) :
    (⟨2, ![M, K]⟩ : Shape).Idx → EReal :=
  fun i => reluRow (fun k => A (ix2 (i 0) k)) B z (i 1)

/-- Every row of an `[M, K]` array against the columns of a `[K, N]` matrix. -/
def projArr {M K N : ℕ} (X : (⟨2, ![M, K]⟩ : Shape).Idx → EReal) (W : (⟨2, ![K, N]⟩ : Shape).Idx → EReal) :
    (⟨2, ![M, N]⟩ : Shape).Idx → EReal :=
  fun i => projRow (fun k => X (ix2 (i 0) k)) W (i 1)

theorem reluArr_apply {M K : ℕ} (A : (⟨2, ![M, K]⟩ : Shape).Idx → EReal) (B : (⟨2, ![1, K]⟩ : Shape).Idx → EReal) (z : EReal)
    (r : Fin M) (k : Fin K) : reluArr A B z (ix2 r k) = reluRow (fun k => A (ix2 r k)) B z k := rfl

theorem projArr_apply {M K N : ℕ} (X : (⟨2, ![M, K]⟩ : Shape).Idx → EReal) (W : (⟨2, ![K, N]⟩ : Shape).Idx → EReal)
    (r : Fin M) (j : Fin N) : projArr X W (ix2 r j) = projRow (fun k => X (ix2 r k)) W j := rfl

/-- A kernel body's fused bias and positive part of a loaded block, as a whole-block function. -/
theorem kernel_biasRelu_eq {M K : ℕ} (x : FVec Ideal ⟨2, ![M, K]⟩ .f32) (b : FVec Ideal ⟨2, ![1, K]⟩ .f32)
    (h1 : (⟨2, ![M, K]⟩ : Shape).ShapeCasts ⟨2, ![M, K]⟩) (h2 : (⟨2, ![1, K]⟩ : Shape).ShapeCasts ⟨2, ![1, K]⟩)
    (h3 : (⟨2, ![1, K]⟩ : Shape).Broadcasts ⟨2, ![M, K]⟩) (z : Ideal .f32) :
    maximumf (addf (shapeCast ⟨2, ![M, K]⟩ x h1) (broadcastTo ⟨2, ![M, K]⟩ (shapeCast ⟨2, ![1, K]⟩ b h2) h3))
        (broadcast ⟨2, ![M, K]⟩ z) = reluArr x b z := by
  funext i
  obtain ⟨r, k, rfl⟩ : ∃ (r : Fin M) (k : Fin K), i = ix2 r k := ⟨i 0, i 1, eq_ix2 i⟩
  exact biasRelu_apply x b h1 h2 h3 z r k

/-- The same on a computed block (a matrix product), which the body does not shape-cast. -/
theorem kernel_addBiasRelu_eq {M N : ℕ} (y : FVec Ideal ⟨2, ![M, N]⟩ .f32) (b : FVec Ideal ⟨2, ![1, N]⟩ .f32)
    (h2 : (⟨2, ![1, N]⟩ : Shape).ShapeCasts ⟨2, ![1, N]⟩)
    (h3 : (⟨2, ![1, N]⟩ : Shape).Broadcasts ⟨2, ![M, N]⟩) (z : Ideal .f32) :
    maximumf (addf y (broadcastTo ⟨2, ![M, N]⟩ (shapeCast ⟨2, ![1, N]⟩ b h2) h3))
        (broadcast ⟨2, ![M, N]⟩ z) = reluArr y b z := by
  funext i
  obtain ⟨r, j, rfl⟩ : ∃ (r : Fin M) (j : Fin N), i = ix2 r j := ⟨i 0, i 1, eq_ix2 i⟩
  exact addBiasRelu_apply y b h2 h3 z r j

/-- A plain matmul into the zero accumulator, as a whole-block function. -/
theorem kernel_matmul_eq {M K N : ℕ} (prec : Option ContractPrecision)
    (l : FVec Ideal ⟨2, ![M, K]⟩ .f32) (w : FVec Ideal ⟨2, ![K, N]⟩ .f32) :
    FloatOps.matmul (DotDims.plain M K N) prec l w (constant ⟨2, ![M, N]⟩ .f32 0x00000000#32) = projArr l w := by
  funext i
  obtain ⟨r, j, rfl⟩ : ∃ (r : Fin M) (j : Fin N), i = ix2 r j := ⟨i 0, i 1, eq_ix2 i⟩
  exact matmul_rows_apply prec l w r j

/-- The host's plain `dot_general`, as a whole-array function. -/
theorem host_dot_eq {M K N : ℕ} (prec : Option ContractPrecision)
    (l : FVec Ideal ⟨2, ![M, K]⟩ .f32) (w : FVec Ideal ⟨2, ![K, N]⟩ .f32) :
    Host.dotGeneral (DotDims.plain M K N) prec l w = projArr l w := by
  funext i
  obtain ⟨r, j, rfl⟩ : ∃ (r : Fin M) (j : Fin N), i = ix2 r j := ⟨i 0, i 1, eq_ix2 i⟩
  exact dotGeneral_rows_apply prec l w r j

/-- The host's bias and positive part: a length-`K` bias broadcast to a row, then down the rows; the positive part
    against the broadcast zero word. The bias row is the bias vector viewed as a `[1, K]` array. -/
theorem host_biasRelu_eq {M K : ℕ} (A : FVec Ideal ⟨2, ![M, K]⟩ .f32) (b : FVec Ideal ⟨1, ![K]⟩ .f32)
    (h1 : (⟨2, ![1, K]⟩ : Shape).BroadcastsInDim ⟨2, ![M, K]⟩ ![0, 1])
    (h2 : (⟨1, ![K]⟩ : Shape).BroadcastsInDim ⟨2, ![1, K]⟩ ![1])
    (h3 : (⟨0, ![]⟩ : Shape).BroadcastsInDim ⟨2, ![M, K]⟩ ![])
    (h4 : (⟨1, ![K]⟩ : Shape).ShapeCasts ⟨2, ![1, K]⟩) (w : BitVec 32) :
    maximumf (addf A (broadcastInDim ⟨2, ![M, K]⟩ ![0, 1] h1 (broadcastInDim ⟨2, ![1, K]⟩ ![1] h2 b)))
        (broadcastInDim ⟨2, ![M, K]⟩ ![] h3 (constant ⟨0, ![]⟩ .f32 w))
      = reluArr A (shapeCast ⟨2, ![1, K]⟩ b h4) (Ideal.ofBits .f32 w) := by
  funext i
  obtain ⟨r, k, rfl⟩ : ∃ (r : Fin M) (k : Fin K), i = ix2 r k := ⟨i 0, i 1, eq_ix2 i⟩
  rw [maximumf_apply, addf_apply, reluArr_apply]
  have e1 : broadcastInDim ⟨2, ![M, K]⟩ ![0, 1] h1 (broadcastInDim ⟨2, ![1, K]⟩ ![1] h2 b) (ix2 r k) = b (ix1 k) := by
    rw [broadcastInDim_apply ![0, 1] h1 _ (ix2 r k) (ix2 (0 : Fin 1) k) (fun ax => by
      match ax with
      | ⟨0, _⟩ => rfl
      | ⟨1, _⟩ =>
        show k.val = if K = 1 then 0 else k.val
        split
        · have := k.isLt; omega
        · rfl)]
    exact broadcastInDim_apply ![1] h2 b (ix2 (0 : Fin 1) k) (ix1 k) (fun ax => by
      match ax with
      | ⟨0, _⟩ =>
        show k.val = if K = 1 then 0 else k.val
        split
        · have := k.isLt; omega
        · rfl)
  have e2 : broadcastInDim ⟨2, ![M, K]⟩ ![] h3 (constant ⟨0, ![]⟩ .f32 w) (ix2 r k) = Ideal.ofBits .f32 w :=
    broadcastInDim_apply ![] h3 _ (ix2 r k) ix0 (fun ax => ax.elim0)
  have e3 : shapeCast ⟨2, ![1, K]⟩ b h4 (ix2 (0 : Fin 1) k) = b (ix1 k) :=
    shapeCast_apply b h4 _ _ (by
      rw [Shape.rowMajor_val_two, Shape.rowMajor_val_one]
      show k.val = 0 * K + k.val
      omega)
  rw [e1, e2]
  show max (A (ix2 r k) + b (ix1 k)) (Ideal.ofBits .f32 w) = max (A (ix2 r k) + shapeCast ⟨2, ![1, K]⟩ b h4 (ix2 (0 : Fin 1) k)) (Ideal.ofBits .f32 w)
  rw [e3]

end Cert.Lib

end
-- ==== Proof.LibKeepdims.lean ====
/-
  Column vectors made by `keepdims`: a length-`a` vector viewed as an `[a, 1]` column, and such a column broadcast along
  the rows of an `[a, b]` array. Read at an index by coordinates, the column holds the vector's entry of its row, and the
  broadcast holds the column's entry of its row at every position of the row.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.Spec.lean ====
/-
  The layer functions of the two-layer message-passing network, as whole-array functions over the extended reals.

  A node's new feature row is the positive part of a sum of row products: its own row against a root matrix, plus, for
  each relation, the relation's aggregated row against the relation's matrix, plus a bias row. The kernel multiplies an
  aggregated row by the reciprocal of the node's capped in-degree before the product; the reference divides the row by
  the capped in-degree and adds the bias first. Off a zero divisor the quotient by `d` is the product with `1 / d`, and
  a capped degree `max x 1` is never zero, so the two rows agree entry by entry; the order of the summands is immaterial
  because addition of extended reals is commutative and associative.
-/
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value
import proofs.«404806_j34548716929227_3_alg».proof.Proof.LibRowOps
import proofs.«404806_j34548716929227_3_alg».proof.Proof.LibKeepdims

noncomputable section

namespace Cert.Spec

open Idealize.ShloMosaic Idealize.ShloMosaic.ValueIdx Cert.Lib

/-- An `[M, K]` array of extended reals. -/
abbrev Arr (M K : ℕ) : Type := (⟨2, ![M, K]⟩ : Shape).Idx → EReal

/-- Every row `r` of `A` multiplied by the entry of row `r` of the column `s`. -/
def scaleRows {M K : ℕ} (A : Arr M K) (s : Arr M 1) : Arr M K :=
  fun i => A i * s (ix2 (i 0) (0 : Fin 1))

theorem scaleRows_apply {M K : ℕ} (A : Arr M K) (s : Arr M 1) (r : Fin M) (k : Fin K) :
    scaleRows A s (ix2 r k) = A (ix2 r k) * s (ix2 r (0 : Fin 1)) := rfl

/-- A layer with a root term and two scaled relation terms: `max (((X·W0 + (A1⊙s1)·W1) + (A2⊙s2)·W2) + B) z`. -/
def fused3 {M K N : ℕ} (X A1 A2 : Arr M K) (s1 s2 : Arr M 1) (W0 W1 W2 : Arr K N) (B : Arr 1 N) (z : EReal) : Arr M N :=
  reluArr (fun i => (projArr X W0 i + projArr (scaleRows A1 s1) W1 i) + projArr (scaleRows A2 s2) W2 i) B z

/-- A layer with a root term and one scaled relation term: `max ((X·W0 + (A1⊙s1)·W1) + B) z`. -/
def fused2 {M K N : ℕ} (X A1 : Arr M K) (s1 : Arr M 1) (W0 W1 : Arr K N) (B : Arr 1 N) (z : EReal) : Arr M N :=
  reluArr (fun i => projArr X W0 i + projArr (scaleRows A1 s1) W1 i) B z

/-- The output head on two feature arrays: `(X·Wh0 + H·Wh1) + Bh`. -/
def headArr {M K C : ℕ} (X H : Arr M K) (Wh0 Wh1 : Arr K C) (Bh : Arr 1 C) : Arr M C :=
  fun i => (projArr X Wh0 i + projArr H Wh1 i) + Bh (ix2 (0 : Fin 1) (i 1))

theorem fused3_apply {M K N : ℕ} (X A1 A2 : Arr M K) (s1 s2 : Arr M 1) (W0 W1 W2 : Arr K N) (B : Arr 1 N) (z : EReal)
    (r : Fin M) (j : Fin N) :
    fused3 X A1 A2 s1 s2 W0 W1 W2 B z (ix2 r j)
      = max ((((∑ k : Fin K, X (ix2 r k) * W0 (ix2 k j))
          + ∑ k : Fin K, (A1 (ix2 r k) * s1 (ix2 r (0 : Fin 1))) * W1 (ix2 k j))
          + ∑ k : Fin K, (A2 (ix2 r k) * s2 (ix2 r (0 : Fin 1))) * W2 (ix2 k j)) + B (ix2 (0 : Fin 1) j)) z := rfl

theorem fused2_apply {M K N : ℕ} (X A1 : Arr M K) (s1 : Arr M 1) (W0 W1 : Arr K N) (B : Arr 1 N) (z : EReal)
    (r : Fin M) (j : Fin N) :
    fused2 X A1 s1 W0 W1 B z (ix2 r j)
      = max (((∑ k : Fin K, X (ix2 r k) * W0 (ix2 k j))
          + ∑ k : Fin K, (A1 (ix2 r k) * s1 (ix2 r (0 : Fin 1))) * W1 (ix2 k j)) + B (ix2 (0 : Fin 1) j)) z := rfl

theorem headArr_apply {M K C : ℕ} (X H : Arr M K) (Wh0 Wh1 : Arr K C) (Bh : Arr 1 C) (r : Fin M) (j : Fin C) :
    headArr X H Wh0 Wh1 Bh (ix2 r j)
      = ((∑ k : Fin K, X (ix2 r k) * Wh0 (ix2 k j)) + ∑ k : Fin K, H (ix2 r k) * Wh1 (ix2 k j)) + Bh (ix2 (0 : Fin 1) j) := rfl

/-! ## Rows depend on rows: a block of rows of a layer is the layer of the blocks -/

/-- Row `r` of `fused3` depends only on row `r` of its row arguments. -/
theorem fused3_row {M M' K N : ℕ} (X A1 A2 : Arr M K) (s1 s2 : Arr M 1) (X' A1' A2' : Arr M' K) (s1' s2' : Arr M' 1)
    (W0 W1 W2 : Arr K N) (B : Arr 1 N) (z : EReal) (r : Fin M) (r' : Fin M')
    (hX : ∀ k, X (ix2 r k) = X' (ix2 r' k)) (hA1 : ∀ k, A1 (ix2 r k) = A1' (ix2 r' k))
    (hA2 : ∀ k, A2 (ix2 r k) = A2' (ix2 r' k)) (hs1 : s1 (ix2 r (0 : Fin 1)) = s1' (ix2 r' (0 : Fin 1)))
    (hs2 : s2 (ix2 r (0 : Fin 1)) = s2' (ix2 r' (0 : Fin 1))) (j : Fin N) :
    fused3 X A1 A2 s1 s2 W0 W1 W2 B z (ix2 r j) = fused3 X' A1' A2' s1' s2' W0 W1 W2 B z (ix2 r' j) := by
  rw [fused3_apply, fused3_apply, hs1, hs2]
  simp only [hX, hA1, hA2]

/-- Row `r` of `fused2` depends only on row `r` of its row arguments. -/
theorem fused2_row {M M' K N : ℕ} (X A1 : Arr M K) (s1 : Arr M 1) (X' A1' : Arr M' K) (s1' : Arr M' 1)
    (W0 W1 : Arr K N) (B : Arr 1 N) (z : EReal) (r : Fin M) (r' : Fin M')
    (hX : ∀ k, X (ix2 r k) = X' (ix2 r' k)) (hA1 : ∀ k, A1 (ix2 r k) = A1' (ix2 r' k))
    (hs1 : s1 (ix2 r (0 : Fin 1)) = s1' (ix2 r' (0 : Fin 1))) (j : Fin N) :
    fused2 X A1 s1 W0 W1 B z (ix2 r j) = fused2 X' A1' s1' W0 W1 B z (ix2 r' j) := by
  rw [fused2_apply, fused2_apply, hs1]
  simp only [hX, hA1]

/-- Row `r` of the head depends only on row `r` of its two feature arrays. -/
theorem headArr_row {M M' K C : ℕ} (X H : Arr M K) (X' H' : Arr M' K) (Wh0 Wh1 : Arr K C) (Bh : Arr 1 C)
    (r : Fin M) (r' : Fin M') (hX : ∀ k, X (ix2 r k) = X' (ix2 r' k)) (hH : ∀ k, H (ix2 r k) = H' (ix2 r' k)) (j : Fin C) :
    headArr X H Wh0 Wh1 Bh (ix2 r j) = headArr X' H' Wh0 Wh1 Bh (ix2 r' j) := by
  rw [headArr_apply, headArr_apply]
  simp only [hX, hH]

/-! ## The quotient by a capped degree is the product with its reciprocal -/

/-- A degree capped below by one is not zero. -/
theorem max_one_ne_zero (x : EReal) : max x (1 : EReal) ≠ 0 :=
  ne_of_gt (lt_of_lt_of_le zero_lt_one (le_max_right x 1))

/-- Off a zero divisor, the quotient is the product with the reciprocal. -/
theorem div_eq_mul_one_div (a d : EReal) (hd : d ≠ 0) : Ideal.div a d = a * Ideal.div 1 d := by
  rw [Ideal.div, if_neg hd, Ideal.div, if_neg hd, one_mul]

/-- The quotient by a capped degree is the product with the capped degree's reciprocal. -/
theorem div_capped (a x : EReal) : Ideal.div a (max x 1) = a * Ideal.div 1 (max x 1) :=
  div_eq_mul_one_div a _ (max_one_ne_zero x)

/-- The bias summand may be added last. -/
theorem add_bias_last3 (a b c d : EReal) : ((a + b) + c) + d = ((a + c) + d) + b := by
  rw [add_right_comm a b c, add_right_comm (a + c) b d]

theorem add_bias_last2 (a b c : EReal) : (a + b) + c = (a + c) + b := add_right_comm a b c

end Cert.Spec

end
-- ==== Proof.KOut.lean ====
/-
  The kernel program's result as one function of the argument arrays, at the ideal values.

  Layer 0 makes the papers' features from the papers' own rows and the two aggregates into papers, and the authors'
  features from the authors' own rows and the aggregate into authors, each aggregate scaled by the reciprocal capped
  degree. Layer 1 makes the papers' second features the same way from layer 0's features, and the head multiplies the
  two paper feature arrays into the two halves of the head matrix and adds the head bias.
-/
import proofs.«404806_j34548716929227_3_alg».proof.Proof.KTerms
import proofs.«404806_j34548716929227_3_alg».proof.Proof.Spec

noncomputable section

namespace Cert.KernelIdeal.Val

open Cert.KernelIdeal Idealize.ShloMosaic Cert.Spec
open Cert.KernelIdeal.Facts₀

/-- The zero every positive part is taken against. -/
abbrev zeroE : EReal := Ideal.ofBits .f32 0x00000000#32

/-- Layer 0's paper features. -/
def hs0 (x0 : FVec Ideal S200000x128 .f32) (x1 : FVec Ideal S100000x128 .f32) (w3 w4 w7 : FVec Ideal S2x128x128 .f32)
    (b10 : FVec Ideal S2x128 .f32) (i15 i16 : (⟨S1500000, .i32⟩ : BufTy).Contents (Elt Ideal))
    (i17 i18 : (⟨S800000, .i32⟩ : BufTy).Contents (Elt Ideal)) : Arr 200000 128 :=
  fused3 x0 (aggPP i15 i16 (truncf .bf16 x0 bitsLt_bf16_f32)) (aggAP i17 i18 (truncf .bf16 x1 bitsLt_bf16_f32))
    (invP (capPP i16)) (invP (capAP i18)) (wmat0 w7) (wmat0 w3) (wmat0 w4) (brow (bvec0 b10)) zeroE

/-- Layer 0's author features. -/
def xa1 (x0 : FVec Ideal S200000x128 .f32) (x1 : FVec Ideal S100000x128 .f32) (w5 w8 : FVec Ideal S2x128x128 .f32)
    (b11 : FVec Ideal S2x128 .f32) (i19 i20 : (⟨S800000, .i32⟩ : BufTy).Contents (Elt Ideal)) : Arr 100000 128 :=
  fused2 x1 (aggPA i19 i20 (truncf .bf16 x0 bitsLt_bf16_f32)) (invA (capPA i20)) (wmat0 w8) (wmat0 w5) (brow (bvec0 b11)) zeroE

/-- The program's first result: the head over layer 0's and layer 1's paper features. -/
def Kout (x0 : FVec Ideal S200000x128 .f32) (x1 : FVec Ideal S100000x128 .f32) (w3 w4 w5 w7 w8 : FVec Ideal S2x128x128 .f32)
    (b10 b11 : FVec Ideal S2x128 .f32) (w13 : FVec Ideal S256x40 .f32) (b14 : FVec Ideal S40 .f32)
    (i15 i16 : (⟨S1500000, .i32⟩ : BufTy).Contents (Elt Ideal))
    (i17 i18 i19 i20 : (⟨S800000, .i32⟩ : BufTy).Contents (Elt Ideal)) : Arr 200000 40 :=
  headArr (hs0 x0 x1 w3 w4 w7 b10 i15 i16 i17 i18)
    (fused3 (hs0 x0 x1 w3 w4 w7 b10 i15 i16 i17 i18)
      (aggPP i15 i16 (hs0 x0 x1 w3 w4 w7 b10 i15 i16 i17 i18)) (aggAP i17 i18 (xa1 x0 x1 w5 w8 b11 i19 i20))
      (invP (capPP i16)) (invP (capAP i18)) (wmat1 w7) (wmat1 w3) (wmat1 w4) (brow (bvec1 b10)) zeroE)
    (headW0 w13) (headW1 w13) (headB b14)

end Cert.KernelIdeal.Val

end
-- ==== Proof.RefLayer.lean ====
/-
  The reference's way of writing a layer and the head, as the layer functions.

  The reference adds the bias to the root product first, divides each aggregated row by the capped in-degree, and takes
  the positive part at the end; the head multiplies the two feature arrays, joined side by side, into the whole head
  matrix. Entry by entry these are the layer functions `fused3`, `fused2` and `headArr`: a quotient by a capped degree
  is the product with its reciprocal, a sum of extended reals may be taken in any order, and a sum over the joined axis
  of length 256 is the sum over its two halves.
-/
import Idealize.ShloMosaic.PureOps.Ideal
import Idealize.ShloMosaic.PureOps.Ideal.Laws
import Idealize.ShloMosaic.Lib.ValueIdx
import Idealize.ShloMosaic.Lib.Pipeline.Value
import proofs.«404806_j34548716929227_3_alg».proof.Proof.Spec

noncomputable section

namespace Cert.Spec

open Idealize.ShloMosaic Idealize.ShloMosaic.ValueIdx Cert.Lib

/-! ## Entries of the reference's pieces -/

/-- The quotient of an aggregated row's entry by the row's capped degree is the product with the row's reciprocal. -/
theorem divf_capped_apply {M : ℕ} (A Dv : FVec Ideal ⟨2, ![M, 128]⟩ .f32) (s : Arr M 1)
    (hD : ∀ (r : Fin M) (k : Fin 128), ∃ x : EReal, Dv (ix2 r k) = max x 1 ∧ s (ix2 r (0 : Fin 1)) = Ideal.div 1 (max x 1))
    (r : Fin M) (k : Fin 128) :
    Host.divf A Dv (ix2 r k) = A (ix2 r k) * s (ix2 r (0 : Fin 1)) := by
  obtain ⟨x, hx, hs⟩ := hD r k
  show Ideal.div (A (ix2 r k)) (Dv (ix2 r k)) = A (ix2 r k) * s (ix2 r (0 : Fin 1))
  rw [hx, hs]
  exact div_capped _ x

/-- The product of the divided rows with a matrix, at an entry: the sum of the scaled row's products. -/
theorem dot_divf_apply {M : ℕ} (A Dv : FVec Ideal ⟨2, ![M, 128]⟩ .f32) (s : Arr M 1)
    (hD : ∀ (r : Fin M) (k : Fin 128), ∃ x : EReal, Dv (ix2 r k) = max x 1 ∧ s (ix2 r (0 : Fin 1)) = Ideal.div 1 (max x 1))
    (W : FVec Ideal ⟨2, ![128, 128]⟩ .f32) (r : Fin M) (j : Fin 128) :
    Host.dotGeneral (DotDims.plain M 128 128) none (Host.divf A Dv) W (ix2 r j)
      = ∑ k : Fin 128, (A (ix2 r k) * s (ix2 r (0 : Fin 1))) * W (ix2 k j) := by
  refine (dotGeneral_plain_apply M 128 128 none (Host.divf A Dv) W (ix2 r j)).trans ?_
  refine Finset.sum_congr rfl fun k _ => ?_
  show Host.divf A Dv (ix2 r k) * W (ix2 k j) = (A (ix2 r k) * s (ix2 r (0 : Fin 1))) * W (ix2 k j)
  rw [divf_capped_apply A Dv s hD r k]

/-- The product of the rows with a matrix, at an entry. -/
theorem dot_apply {M K N : ℕ} (X : FVec Ideal ⟨2, ![M, K]⟩ .f32) (W : FVec Ideal ⟨2, ![K, N]⟩ .f32) (r : Fin M) (j : Fin N) :
    Host.dotGeneral (DotDims.plain M K N) none X W (ix2 r j) = ∑ k : Fin K, X (ix2 r k) * W (ix2 k j) :=
  dotGeneral_plain_apply M K N none X W (ix2 r j)

/-- The reference's three-term layer is `fused3`: `Dv1`, `Dv2` hold in every row a capped degree `max x 1` whose
    reciprocal is the row's entry of the column `s1`, `s2`; `Bfull` repeats the bias row and `Zfull` the constant `z`. -/
theorem ref_layer3 {M : ℕ} (X A1 A2 Dv1 Dv2 Bfull Zfull : FVec Ideal ⟨2, ![M, 128]⟩ .f32) (s1 s2 : Arr M 1)
    (W0 W1 W2 : FVec Ideal ⟨2, ![128, 128]⟩ .f32) (B : Arr 1 128) (z : EReal)
    (hD1 : ∀ (r : Fin M) (k : Fin 128), ∃ x : EReal, Dv1 (ix2 r k) = max x 1 ∧ s1 (ix2 r (0 : Fin 1)) = Ideal.div 1 (max x 1))
    (hD2 : ∀ (r : Fin M) (k : Fin 128), ∃ x : EReal, Dv2 (ix2 r k) = max x 1 ∧ s2 (ix2 r (0 : Fin 1)) = Ideal.div 1 (max x 1))
    (hB : ∀ (r : Fin M) (j : Fin 128), Bfull (ix2 r j) = B (ix2 (0 : Fin 1) j)) (hZ : ∀ i, Zfull i = z) :
    maximumf (addf (addf (addf (Host.dotGeneral (DotDims.plain M 128 128) none X W0) Bfull)
        (Host.dotGeneral (DotDims.plain M 128 128) none (Host.divf A1 Dv1) W1))
        (Host.dotGeneral (DotDims.plain M 128 128) none (Host.divf A2 Dv2) W2)) Zfull
      = fused3 X A1 A2 s1 s2 W0 W1 W2 B z := by
  funext i
  obtain ⟨r, j, rfl⟩ : ∃ (r : Fin M) (j : Fin 128), i = ix2 r j := ⟨i 0, i 1, eq_ix2 i⟩
  rw [fused3_apply, maximumf_apply, addf_apply, addf_apply, addf_apply, dot_apply X W0 r j,
    dot_divf_apply A1 Dv1 s1 hD1 W1 r j, dot_divf_apply A2 Dv2 s2 hD2 W2 r j, hB r j, hZ (ix2 r j)]
  -- the bias summand, added second by the reference, is added last by the layer function
  exact congrArg (fun t => max t z) (add_bias_last3 _ _ _ _)

/-- The reference's two-term layer is `fused2`. -/
theorem ref_layer2 {M : ℕ} (X A1 Dv1 Bfull Zfull : FVec Ideal ⟨2, ![M, 128]⟩ .f32) (s1 : Arr M 1)
    (W0 W1 : FVec Ideal ⟨2, ![128, 128]⟩ .f32) (B : Arr 1 128) (z : EReal)
    (hD1 : ∀ (r : Fin M) (k : Fin 128), ∃ x : EReal, Dv1 (ix2 r k) = max x 1 ∧ s1 (ix2 r (0 : Fin 1)) = Ideal.div 1 (max x 1))
    (hB : ∀ (r : Fin M) (j : Fin 128), Bfull (ix2 r j) = B (ix2 (0 : Fin 1) j)) (hZ : ∀ i, Zfull i = z) :
    maximumf (addf (addf (Host.dotGeneral (DotDims.plain M 128 128) none X W0) Bfull)
        (Host.dotGeneral (DotDims.plain M 128 128) none (Host.divf A1 Dv1) W1)) Zfull
      = fused2 X A1 s1 W0 W1 B z := by
  funext i
  obtain ⟨r, j, rfl⟩ : ∃ (r : Fin M) (j : Fin 128), i = ix2 r j := ⟨i 0, i 1, eq_ix2 i⟩
  rw [fused2_apply, maximumf_apply, addf_apply, addf_apply, dot_apply X W0 r j,
    dot_divf_apply A1 Dv1 s1 hD1 W1 r j, hB r j, hZ (ix2 r j)]
  -- the bias summand, added second by the reference, is added last by the layer function
  exact congrArg (fun t => max t z) (add_bias_last2 _ _ _)

/-! ## The joined feature arrays -/

/-- The two feature arrays joined along the columns, at a column of the left half: the first array's entry. -/
theorem concat_left_apply {M : ℕ} (H0 H1 : FVec Ideal ⟨2, ![M, 128]⟩ .f32)
    (hc : Shape.Concatenates [(⟨2, ![M, 128]⟩ : Shape), ⟨2, ![M, 128]⟩] ⟨2, ![M, 256]⟩ 1) (r : Fin M) (k : Fin 128) :
    concatenate ⟨2, ![M, 256]⟩ 1 [⟨⟨2, ![M, 128]⟩, H0⟩, ⟨⟨2, ![M, 128]⟩, H1⟩] hc (ix2 r (⟨k.val, by omega⟩ : Fin 256))
      = H0 (ix2 r k) :=
  concatenate_pair_apply_left (t := ⟨2, ![M, 256]⟩) (s₁ := ⟨2, ![M, 128]⟩) (s₂ := ⟨2, ![M, 128]⟩) (1 : Fin 2) H0 H1 hc _ rfl
    (ix2 r k) (by
      intro b
      match b with
      | ⟨0, _⟩ => rfl
      | ⟨1, _⟩ => rfl)

/-- The two feature arrays joined along the columns, at a column of the right half: the second array's entry, 128
    columns to the left. -/
theorem concat_right_apply {M : ℕ} (H0 H1 : FVec Ideal ⟨2, ![M, 128]⟩ .f32)
    (hc : Shape.Concatenates [(⟨2, ![M, 128]⟩ : Shape), ⟨2, ![M, 128]⟩] ⟨2, ![M, 256]⟩ 1) (r : Fin M) (k : Fin 128) :
    concatenate ⟨2, ![M, 256]⟩ 1 [⟨⟨2, ![M, 128]⟩, H0⟩, ⟨⟨2, ![M, 128]⟩, H1⟩] hc (ix2 r (⟨128 + k.val, by omega⟩ : Fin 256))
      = H1 (ix2 r k) :=
  concatenate_pair_apply_right (t := ⟨2, ![M, 256]⟩) (s₁ := ⟨2, ![M, 128]⟩) (s₂ := ⟨2, ![M, 128]⟩) (1 : Fin 2) H0 H1 hc _ rfl rfl
    (ix2 r k) (by
      intro b hb
      match b with
      | ⟨0, _⟩ => rfl
      | ⟨1, _⟩ => exact absurd rfl hb) (by
      show k.val + 128 = 128 + k.val
      omega)

/-- A sum over 256 terms is the sum over the first 128 plus the sum over the last 128. -/
theorem sum_fin256_split (f : Fin 256 → EReal) :
    ∑ k : Fin 256, f k = (∑ k : Fin 128, f ⟨k.val, by omega⟩) + ∑ k : Fin 128, f ⟨128 + k.val, by omega⟩ :=
  Fin.sum_univ_add (a := 128) (b := 128) f

/-- The reference's head is `headArr`: the product of the two feature arrays joined along the columns with the whole
    head matrix is the sum of their products with its upper and lower halves `W0h`, `W1h`; `Bfull` repeats the bias row. -/
theorem ref_head {M : ℕ} (H0 H1 : FVec Ideal ⟨2, ![M, 128]⟩ .f32) (W : FVec Ideal ⟨2, ![256, 40]⟩ .f32)
    (Bfull : FVec Ideal ⟨2, ![M, 40]⟩ .f32) (W0h W1h : Arr 128 40) (Bh : Arr 1 40)
    (hc : Shape.Concatenates [(⟨2, ![M, 128]⟩ : Shape), ⟨2, ![M, 128]⟩] ⟨2, ![M, 256]⟩ 1)
    (hW0 : ∀ (k : Fin 128) (j : Fin 40), W0h (ix2 k j) = W (ix2 (⟨k.val, by omega⟩ : Fin 256) j))
    (hW1 : ∀ (k : Fin 128) (j : Fin 40), W1h (ix2 k j) = W (ix2 (⟨128 + k.val, by omega⟩ : Fin 256) j))
    (hB : ∀ (r : Fin M) (j : Fin 40), Bfull (ix2 r j) = Bh (ix2 (0 : Fin 1) j)) :
    addf (Host.dotGeneral (DotDims.plain M 256 40) none
        (concatenate ⟨2, ![M, 256]⟩ 1 [⟨⟨2, ![M, 128]⟩, H0⟩, ⟨⟨2, ![M, 128]⟩, H1⟩] hc) W) Bfull
      = headArr H0 H1 W0h W1h Bh := by
  funext i
  obtain ⟨r, j, rfl⟩ : ∃ (r : Fin M) (j : Fin 40), i = ix2 r j := ⟨i 0, i 1, eq_ix2 i⟩
  rw [headArr_apply, addf_apply, hB r j,
    dot_apply (concatenate ⟨2, ![M, 256]⟩ 1 [⟨⟨2, ![M, 128]⟩, H0⟩, ⟨⟨2, ![M, 128]⟩, H1⟩] hc) W r j,
    sum_fin256_split]
  refine congrArg (fun t => t + Bh (ix2 (0 : Fin 1) j)) ?_
  refine congrArg₂ (fun a b : EReal => a + b) (Finset.sum_congr rfl fun k _ => ?_) (Finset.sum_congr rfl fun k _ => ?_)
  · rw [hW0 k j, concat_left_apply H0 H1 hc r k]
  · rw [hW1 k j, concat_right_apply H0 H1 hc r k]

end Cert.Spec

end
-- ==== Proof.LibBcastRows.lean ====
/-
  Broadcasts, casts and slices of small operands read at an entry.

  A column of per-row numbers broadcast along the rows of an `[M, K]` array holds, in row `r`, the number of row `r`;
  a length-`K` vector broadcast to a row and then down the rows holds, in column `k`, the vector's entry `k`; a
  broadcast scalar constant holds the constant everywhere; a vector viewed as a one-row array holds its entries; and a
  block of consecutive rows sliced out of a matrix holds the matrix's rows from the offset on.
-/
import Idealize.ShloMosaic.PureOps.Ideal
import Idealize.ShloMosaic.Lib.ValueIdx
import Idealize.ShloMosaic.Lib.Pipeline.Value
import Idealize.ShloMosaic.Lib.IdealHost
import proofs.«404806_j34548716929227_3_alg».proof.Proof.LibKeepdims

noncomputable section

namespace Cert.Lib

open Idealize.ShloMosaic Idealize.ShloMosaic.ValueIdx

variable {α : Type}

/-- A per-row vector broadcast to a column and then along the rows reads, at `(r, k)`, the vector's entry `r`. -/
theorem bcast_col_rows_apply {M K : ℕ} (v : (⟨1, ![M]⟩ : Shape).Idx → α)
    (h1 : (⟨1, ![M]⟩ : Shape).BroadcastsInDim ⟨2, ![M, 1]⟩ ![0])
    (h2 : (⟨2, ![M, 1]⟩ : Shape).BroadcastsInDim ⟨2, ![M, K]⟩ ![0, 1]) (r : Fin M) (k : Fin K) :
    broadcastInDim ⟨2, ![M, K]⟩ ![0, 1] h2 (broadcastInDim ⟨2, ![M, 1]⟩ ![0] h1 v) (ix2 r k) = v (ix1 r) := by
  rw [broadcastInDim_apply ![0, 1] h2 _ (ix2 r k) (ix2 r (0 : Fin 1)) (fun ax => by
    match ax with
    | ⟨0, _⟩ =>
      show r.val = if M = 1 then 0 else r.val
      split
      · have := r.isLt; omega
      · rfl
    | ⟨1, _⟩ => rfl)]
  exact broadcastInDim_apply ![0] h1 v (ix2 r (0 : Fin 1)) (ix1 r) (fun ax => by
    match ax with
    | ⟨0, _⟩ =>
      show r.val = if M = 1 then 0 else r.val
      split
      · have := r.isLt; omega
      · rfl)

/-- A length-`K` vector broadcast to a row and then down the rows reads, at `(r, k)`, the vector's entry `k`. -/
theorem bcast_row_rows_apply {M K : ℕ} (b : (⟨1, ![K]⟩ : Shape).Idx → α)
    (h1 : (⟨1, ![K]⟩ : Shape).BroadcastsInDim ⟨2, ![1, K]⟩ ![1])
    (h2 : (⟨2, ![1, K]⟩ : Shape).BroadcastsInDim ⟨2, ![M, K]⟩ ![0, 1]) (r : Fin M) (k : Fin K) :
    broadcastInDim ⟨2, ![M, K]⟩ ![0, 1] h2 (broadcastInDim ⟨2, ![1, K]⟩ ![1] h1 b) (ix2 r k) = b (ix1 k) := by
  rw [broadcastInDim_apply ![0, 1] h2 _ (ix2 r k) (ix2 (0 : Fin 1) k) (fun ax => by
    match ax with
    | ⟨0, _⟩ => rfl
    | ⟨1, _⟩ =>
      show k.val = if K = 1 then 0 else k.val
      split
      · have := k.isLt; omega
      · rfl)]
  exact broadcastInDim_apply ![1] h1 b (ix2 (0 : Fin 1) k) (ix1 k) (fun ax => by
    match ax with
    | ⟨0, _⟩ =>
      show k.val = if K = 1 then 0 else k.val
      split
      · have := k.isLt; omega
      · rfl)

/-- A scalar broadcast to any shape reads the scalar. -/
theorem bcast_scalar_apply {s : Shape} (x : (⟨0, ![]⟩ : Shape).Idx → α) (h : (⟨0, ![]⟩ : Shape).BroadcastsInDim s ![])
    (i : s.Idx) : broadcastInDim s ![] h x i = x ix0 :=
  broadcastInDim_apply ![] h x i ix0 (fun ax => ax.elim0)

/-- A length-`K` vector viewed as a `[1, K]` array reads, at `(0, k)`, its entry `k`. -/
theorem shapeCast_row_apply {K : ℕ} (b : (⟨1, ![K]⟩ : Shape).Idx → α) (h : (⟨1, ![K]⟩ : Shape).ShapeCasts ⟨2, ![1, K]⟩)
    (k : Fin K) : shapeCast ⟨2, ![1, K]⟩ b h (ix2 (0 : Fin 1) k) = b (ix1 k) :=
  shapeCast_apply b h _ _ (by
    rw [Shape.rowMajor_val_two, Shape.rowMajor_val_one]
    show k.val = 0 * K + k.val
    omega)

/-- Rows `o, o+1, …` sliced out of a `[R, N]` matrix read, at `(k, j)`, the matrix at `(o + k, j)`. -/
theorem slice_rows_apply {R Rs N : ℕ} (o : ℕ) (W : (⟨2, ![R, N]⟩ : Shape).Idx → α)
    (h : (⟨2, ![R, N]⟩ : Shape).Slices ![o, 0] ⟨2, ![Rs, N]⟩) (k : Fin Rs) (j : Fin N) (hk : o + k.val < R) :
    extractStridedSlice ⟨2, ![Rs, N]⟩ ![o, 0] W h (ix2 k j) = W (ix2 (⟨o + k.val, hk⟩ : Fin R) j) :=
  extractStridedSlice_apply ![o, 0] W h (ix2 k j) (ix2 (⟨o + k.val, hk⟩ : Fin R) j) (fun a => by
    match a with
    | ⟨0, _⟩ => rfl
    | ⟨1, _⟩ => show j.val = 0 + j.val; omega)

/-- A raw degree `S` capped below by one, spread over the rows' entries, holds `max (S r) 1` in row `r`, and the column of
    reciprocals of the capped degrees holds `1 / max (S r) 1` there. -/
theorem capped_col_fact {M K : ℕ} (S : FVec Ideal ⟨1, ![M]⟩ .f32)
    (h0 : (⟨0, ![]⟩ : Shape).BroadcastsInDim ⟨1, ![M]⟩ ![])
    (h1 : (⟨1, ![M]⟩ : Shape).BroadcastsInDim ⟨2, ![M, 1]⟩ ![0])
    (h2 : (⟨2, ![M, 1]⟩ : Shape).BroadcastsInDim ⟨2, ![M, K]⟩ ![0, 1])
    (hs : (⟨1, ![M]⟩ : Shape).ShapeCasts ⟨2, ![M, 1]⟩) (r : Fin M) (k : Fin K) :
    ∃ x : EReal,
      broadcastInDim ⟨2, ![M, K]⟩ ![0, 1] h2 (broadcastInDim ⟨2, ![M, 1]⟩ ![0] h1
          (maximumf S (broadcastInDim ⟨1, ![M]⟩ ![] h0 (constant (F := Ideal) ⟨0, ![]⟩ .f32 0x3F800000#32)))) (ix2 r k) = max x 1
      ∧ shapeCast ⟨2, ![M, 1]⟩ (Host.divf (broadcastInDim ⟨1, ![M]⟩ ![] h0 (constant (F := Ideal) ⟨0, ![]⟩ .f32 0x3F800000#32))
          (maximumf S (broadcastInDim ⟨1, ![M]⟩ ![] h0 (constant (F := Ideal) ⟨0, ![]⟩ .f32 0x3F800000#32)))) hs (ix2 r (0 : Fin 1))
        = Ideal.div 1 (max x 1) := by
  have hone : broadcastInDim ⟨1, ![M]⟩ ![] h0 (constant (F := Ideal) ⟨0, ![]⟩ .f32 0x3F800000#32) (ix1 r) = (1 : EReal) := by
    rw [bcast_scalar_apply, constant_apply, Ideal.ofBits_one_f32]
  refine ⟨S (ix1 r), ?_, ?_⟩
  · rw [bcast_col_rows_apply, maximumf_apply, hone]
  · rw [shapeCast_a_a1_apply]
    show Ideal.div (broadcastInDim ⟨1, ![M]⟩ ![] h0 (constant (F := Ideal) ⟨0, ![]⟩ .f32 0x3F800000#32) (ix1 r))
        (maximumf S (broadcastInDim ⟨1, ![M]⟩ ![] h0 (constant (F := Ideal) ⟨0, ![]⟩ .f32 0x3F800000#32)) (ix1 r)) = _
    rw [maximumf_apply, hone]

end Cert.Lib

end
-- ==== Proof.RefValue.lean ====
/-
  The reference program's result is the kernel program's result function.

  Stage by stage, the reference's run term is the same network: its aggregates and capped degrees are the kernel's
  (the kernel's bf16 round trip around the gather is the identity on extended reals), each of its layers is the layer
  function with the reciprocal capped degrees as the scaling columns, and its head over the two joined feature arrays is
  the head over the two halves of the head matrix.
-/
import proofs.«404806_j34548716929227_3_alg».proof.Proof.RefRead
import proofs.«404806_j34548716929227_3_alg».proof.Proof.KOut
import proofs.«404806_j34548716929227_3_alg».proof.Proof.RefLayer
import proofs.«404806_j34548716929227_3_alg».proof.Proof.LibBcastRows

set_option maxRecDepth 16384

noncomputable section

namespace Cert.ReferenceIdeal.RefValue

open Cert.ReferenceIdeal Cert.ReferenceIdeal.ReadP Idealize.ShloMosaic Idealize.ShloMosaic.ValueIdx Cert.Spec Cert.Lib
open Cert.KernelIdeal.Val (Kout hs0 xa1 aggPP aggAP aggPA capPP capAP capPA invP invA wmat0 wmat1 bvec0 bvec1 brow headW0 headW1 headB zeroE)

variable (x0 : FVec Ideal S200000x128 .f32) (x1 : FVec Ideal S100000x128 .f32) (x3 x4 x5 x7 x8 : FVec Ideal S2x128x128 .f32)
  (x10 x11 : FVec Ideal S2x128 .f32) (x13 : FVec Ideal S256x40 .f32) (x14 : FVec Ideal S40 .f32)
  (x15 x16 : (⟨S1500000, .i32⟩ : BufTy).Contents (Elt Ideal)) (x17 x18 x19 x20 : (⟨S800000, .i32⟩ : BufTy).Contents (Elt Ideal))

/-! ## The bias rows, the zero and the capped degrees, entry by entry -/

/-- Layer 0's paper bias, spread over the papers' rows, is the bias row's entry. -/
theorem bias_p0 (r : Fin 200000) (j : Fin 128) :
    val_main_v6 (F := Ideal) x10 (ix2 r j) = brow (bvec0 x10) (ix2 (0 : Fin 1) j) :=
  (bcast_row_rows_apply (val_main_v4 (F := Ideal) x10) _ _ r j).trans (shapeCast_row_apply (bvec0 x10) _ j).symm

/-- Layer 0's author bias, spread over the authors' rows, is the bias row's entry. -/
theorem bias_a0 (r : Fin 100000) (j : Fin 128) :
    val_main_v14 (F := Ideal) x11 (ix2 r j) = brow (bvec0 x11) (ix2 (0 : Fin 1) j) :=
  (bcast_row_rows_apply (val_main_v12 (F := Ideal) x11) _ _ r j).trans (shapeCast_row_apply (bvec0 x11) _ j).symm

/-- Layer 1's paper bias, spread over the papers' rows, is the bias row's entry. -/
theorem bias_p1 (r : Fin 200000) (j : Fin 128) :
    val_main_v125 (F := Ideal) x10 (ix2 r j) = brow (bvec1 x10) (ix2 (0 : Fin 1) j) :=
  (bcast_row_rows_apply (val_main_v123 (F := Ideal) x10) _ _ r j).trans (shapeCast_row_apply (bvec1 x10) _ j).symm

/-- The head bias, spread over the papers' rows, is the head bias row's entry. -/
theorem bias_h (r : Fin 200000) (j : Fin 40) :
    val_main_v241 (F := Ideal) x14 (ix2 r j) = headB x14 (ix2 (0 : Fin 1) j) :=
  (bcast_row_rows_apply x14 _ _ r j).trans (shapeCast_row_apply x14 _ j).symm

/-- The head matrix's upper half holds its rows 0 to 127. -/
theorem headW0_apply (k : Fin 128) (j : Fin 40) :
    headW0 x13 (ix2 k j) = x13 (ix2 (⟨k.val, by omega⟩ : Fin 256) j) :=
  (slice_rows_apply 0 x13 _ k j (by omega)).trans (congrArg (fun i : Fin 256 => x13 (ix2 i j)) (Fin.ext (Nat.zero_add k.val)))

/-- The head matrix's lower half holds its rows 128 to 255. -/
theorem headW1_apply (k : Fin 128) (j : Fin 40) :
    headW1 x13 (ix2 k j) = x13 (ix2 (⟨128 + k.val, by omega⟩ : Fin 256) j) :=
  slice_rows_apply 128 x13 _ k j (by omega)

/-! ## Layer 0 -/

/-- Layer 0's paper features. -/
theorem hs0_eq : val_main_v116 (F := Ideal) x0 x1 x3 x4 x7 x10 x15 x16 x17 x18 = hs0 x0 x1 x3 x4 x7 x10 x15 x16 x17 x18 :=
  ref_layer3 (M := 200000) x0 (val_main_v33 (F := Ideal) x0 x15 x16) (val_main_v56 (F := Ideal) x1 x17 x18)
    (val_main_v41 (F := Ideal) x16) (val_main_v64 (F := Ideal) x18) (val_main_v6 (F := Ideal) x10) (val_main_call0_v0 (F := Ideal))
    (invP (capPP x16)) (invP (capAP x18)) (val_main_v1 (F := Ideal) x7) (val_main_v44 (F := Ideal) x3) (val_main_v67 (F := Ideal) x4)
    (brow (bvec0 x10)) zeroE
    (fun r k => capped_col_fact (val_main_v37 (F := Ideal) x16) _ _ _ _ r k)
    (fun r k => capped_col_fact (val_main_v60 (F := Ideal) x18) _ _ _ _ r k)
    (bias_p0 x10) (fun i => bcast_scalar_apply _ _ i)

/-- Layer 0's author features. -/
theorem xa1_eq : val_main_v117 (F := Ideal) x0 x1 x5 x8 x11 x19 x20 = xa1 x0 x1 x5 x8 x11 x19 x20 :=
  ref_layer2 (M := 100000) x1 (val_main_v79 (F := Ideal) x0 x19 x20) (val_main_v87 (F := Ideal) x20) (val_main_v14 (F := Ideal) x11)
    (val_main_call1_v0 (F := Ideal)) (invA (capPA x20)) (val_main_v9 (F := Ideal) x8) (val_main_v90 (F := Ideal) x5)
    (brow (bvec0 x11)) zeroE
    (fun r k => capped_col_fact (val_main_v83 (F := Ideal) x20) _ _ _ _ r k)
    (bias_a0 x11) (fun i => bcast_scalar_apply _ _ i)

/-! ## Layer 1 and the head -/

/-- Layer 1's paper features, over layer 0's features as the reference's stages name them. -/
theorem hs1_stage : val_main_v235 (F := Ideal) x0 x1 x3 x4 x5 x7 x8 x10 x11 x15 x16 x17 x18 x19 x20
    = fused3 (val_main_v116 (F := Ideal) x0 x1 x3 x4 x7 x10 x15 x16 x17 x18) (aggPP x15 x16 (val_main_v116 (F := Ideal) x0 x1 x3 x4 x7 x10 x15 x16 x17 x18))
        (aggAP x17 x18 (val_main_v117 (F := Ideal) x0 x1 x5 x8 x11 x19 x20)) (invP (capPP x16)) (invP (capAP x18))
        (wmat1 x7) (wmat1 x3) (wmat1 x4) (brow (bvec1 x10)) zeroE :=
  ref_layer3 (M := 200000) (val_main_v116 (F := Ideal) x0 x1 x3 x4 x7 x10 x15 x16 x17 x18)
    (val_main_v152 (F := Ideal) x0 x1 x3 x4 x7 x10 x15 x16 x17 x18) (val_main_v175 (F := Ideal) x0 x1 x5 x8 x11 x17 x18 x19 x20)
    (val_main_v160 (F := Ideal) x16) (val_main_v183 (F := Ideal) x18) (val_main_v125 (F := Ideal) x10) (val_main_call3_v0 (F := Ideal))
    (invP (capPP x16)) (invP (capAP x18)) (val_main_v120 (F := Ideal) x7) (val_main_v163 (F := Ideal) x3) (val_main_v186 (F := Ideal) x4)
    (brow (bvec1 x10)) zeroE
    (fun r k => capped_col_fact (val_main_v156 (F := Ideal) x16) _ _ _ _ r k)
    (fun r k => capped_col_fact (val_main_v179 (F := Ideal) x18) _ _ _ _ r k)
    (bias_p1 x10) (fun i => bcast_scalar_apply _ _ i)

/-- The reference's result is the kernel program's result function of the same arguments. -/
theorem ref_value : val_main_v242 (F := Ideal) x0 x1 x3 x4 x5 x7 x8 x10 x11 x13 x14 x15 x16 x17 x18 x19 x20 = Kout x0 x1 x3 x4 x5 x7 x8 x10 x11 x13 x14 x15 x16 x17 x18 x19 x20 := by
  refine (ref_head (M := 200000) (val_main_v116 (F := Ideal) x0 x1 x3 x4 x7 x10 x15 x16 x17 x18) (val_main_v235 (F := Ideal) x0 x1 x3 x4 x5 x7 x8 x10 x11 x15 x16 x17 x18 x19 x20) x13
    (val_main_v241 (F := Ideal) x14) (headW0 x13) (headW1 x13) (headB x14)
    Cert.ReferenceIdeal.Facts₀.concatenates_S200000x128_S200000x128_S200000x256_d1
    (headW0_apply x13) (headW1_apply x13) (bias_h x14)).trans ?_
  rw [hs1_stage, xa1_eq, hs0_eq]
  rfl

end Cert.ReferenceIdeal.RefValue

end
-- ==== Proof.KHost.lean ====
/-
  What each stretch of host operations between the Pallas calls leaves in the buffers the calls read.

  From any contents `W` of the buffers at a stretch's entry, each buffer the stretch writes ends at the named host-side
  function (an aggregate, a reciprocal capped degree, a weight matrix, a bias row, a half of the head matrix) of the
  entry contents of the buffers it reads, and a buffer no operation of the stretch writes keeps its entry contents.
-/
import proofs.«404806_j34548716929227_3_alg».proof.Proof.Gen.KernelIdeal.Launch
import proofs.«404806_j34548716929227_3_alg».proof.Proof.KTerms
import Idealize.ShloMosaic.Lib.StableHlo.Run

set_option maxRecDepth 16384

noncomputable section

namespace Cert.KernelIdeal.Val

open Cert.KernelIdeal Cert.KernelIdeal.Gen Idealize.ShloMosaic Idealize.ShloMosaic.TcCoe Idealize.ShloMosaic.StableHlo
open Idealize.SL.Sem

variable {F : FTy → Type} [FloatOps F] (W : Valuation τ sig (Elt F))

/-! ## Stretch 0 -/

set_option maxHeartbeats 40000000 in
/-- Stretch 0 leaves `main_call0_v8` at its function of the entry contents. -/
theorem h0_v8 : StableHlo.after (hostOps0 (F := F)) W (Proc.devRef .tc main_call0_v8)
    = invP (capPP (W (Proc.devRef .tc main_arg16))) := by
  after_results_simp
  all_goals (try simp only [StableHlo.TRef.ofBuf, StableHlo.TRef.toBuf, cast_eq])
  all_goals rfl

set_option maxHeartbeats 40000000 in
/-- Stretch 0 leaves `main_call0_v17` at its function of the entry contents. -/
theorem h0_v17 : StableHlo.after (hostOps0 (F := F)) W (Proc.devRef .tc main_call0_v17)
    = invP (capAP (W (Proc.devRef .tc main_arg18))) := by
  after_results_simp
  all_goals (try simp only [StableHlo.TRef.ofBuf, StableHlo.TRef.toBuf, cast_eq])
  all_goals rfl

set_option maxHeartbeats 40000000 in
/-- Stretch 0 leaves `main_call0_v26` at its function of the entry contents. -/
theorem h0_v26 : StableHlo.after (hostOps0 (F := F)) W (Proc.devRef .tc main_call0_v26)
    = invA (capPA (W (Proc.devRef .tc main_arg20))) := by
  after_results_simp
  all_goals (try simp only [StableHlo.TRef.ofBuf, StableHlo.TRef.toBuf, cast_eq])
  all_goals rfl

set_option maxHeartbeats 40000000 in
/-- Stretch 0 leaves `main_call0_v39` at its function of the entry contents. -/
theorem h0_v39 : StableHlo.after (hostOps0 (F := F)) W (Proc.devRef .tc main_call0_v39)
    = aggPP (W (Proc.devRef .tc main_arg15)) (W (Proc.devRef .tc main_arg16)) (truncf .bf16 (W (Proc.devRef .tc main_arg0)) Cert.KernelIdeal.Facts₀.bitsLt_bf16_f32) := by
  after_results_simp
  all_goals (try simp only [StableHlo.TRef.ofBuf, StableHlo.TRef.toBuf, cast_eq])
  all_goals rfl

set_option maxHeartbeats 40000000 in
/-- Stretch 0 leaves `main_call0_v50` at its function of the entry contents. -/
theorem h0_v50 : StableHlo.after (hostOps0 (F := F)) W (Proc.devRef .tc main_call0_v50)
    = aggAP (W (Proc.devRef .tc main_arg17)) (W (Proc.devRef .tc main_arg18)) (truncf .bf16 (W (Proc.devRef .tc main_arg1)) Cert.KernelIdeal.Facts₀.bitsLt_bf16_f32) := by
  after_results_simp
  all_goals (try simp only [StableHlo.TRef.ofBuf, StableHlo.TRef.toBuf, cast_eq])
  all_goals rfl

set_option maxHeartbeats 40000000 in
/-- Stretch 0 leaves `main_call0_v61` at its function of the entry contents. -/
theorem h0_v61 : StableHlo.after (hostOps0 (F := F)) W (Proc.devRef .tc main_call0_v61)
    = aggPA (W (Proc.devRef .tc main_arg19)) (W (Proc.devRef .tc main_arg20)) (truncf .bf16 (W (Proc.devRef .tc main_arg0)) Cert.KernelIdeal.Facts₀.bitsLt_bf16_f32) := by
  after_results_simp
  all_goals (try simp only [StableHlo.TRef.ofBuf, StableHlo.TRef.toBuf, cast_eq])
  all_goals rfl

set_option maxHeartbeats 40000000 in
/-- Stretch 0 leaves `main_call0_v63` at its function of the entry contents. -/
theorem h0_v63 : StableHlo.after (hostOps0 (F := F)) W (Proc.devRef .tc main_call0_v63)
    = wmat0 (W (Proc.devRef .tc main_arg7)) := by
  after_results_simp
  all_goals (try simp only [StableHlo.TRef.ofBuf, StableHlo.TRef.toBuf, cast_eq])
  all_goals rfl

set_option maxHeartbeats 40000000 in
/-- Stretch 0 leaves `main_call0_v65` at its function of the entry contents. -/
theorem h0_v65 : StableHlo.after (hostOps0 (F := F)) W (Proc.devRef .tc main_call0_v65)
    = wmat0 (W (Proc.devRef .tc main_arg3)) := by
  after_results_simp
  all_goals (try simp only [StableHlo.TRef.ofBuf, StableHlo.TRef.toBuf, cast_eq])
  all_goals rfl

set_option maxHeartbeats 40000000 in
/-- Stretch 0 leaves `main_call0_v67` at its function of the entry contents. -/
theorem h0_v67 : StableHlo.after (hostOps0 (F := F)) W (Proc.devRef .tc main_call0_v67)
    = wmat0 (W (Proc.devRef .tc main_arg4)) := by
  after_results_simp
  all_goals (try simp only [StableHlo.TRef.ofBuf, StableHlo.TRef.toBuf, cast_eq])
  all_goals rfl

set_option maxHeartbeats 40000000 in
/-- Stretch 0 leaves `main_call0_v70` at its function of the entry contents. -/
theorem h0_v70 : StableHlo.after (hostOps0 (F := F)) W (Proc.devRef .tc main_call0_v70)
    = brow (bvec0 (W (Proc.devRef .tc main_arg10))) := by
  after_results_simp
  all_goals (try simp only [StableHlo.TRef.ofBuf, StableHlo.TRef.toBuf, cast_eq])
  all_goals rfl

/-! ## Stretch 1 -/

set_option maxHeartbeats 40000000 in
/-- Stretch 1 leaves `main_call0_v73` at its function of the entry contents. -/
theorem h1_v73 : StableHlo.after (hostOps1 (F := F)) W (Proc.devRef .tc main_call0_v73)
    = wmat0 (W (Proc.devRef .tc main_arg8)) := by
  after_results_simp
  all_goals (try simp only [StableHlo.TRef.ofBuf, StableHlo.TRef.toBuf, cast_eq])
  all_goals rfl

set_option maxHeartbeats 40000000 in
/-- Stretch 1 leaves `main_call0_v75` at its function of the entry contents. -/
theorem h1_v75 : StableHlo.after (hostOps1 (F := F)) W (Proc.devRef .tc main_call0_v75)
    = wmat0 (W (Proc.devRef .tc main_arg5)) := by
  after_results_simp
  all_goals (try simp only [StableHlo.TRef.ofBuf, StableHlo.TRef.toBuf, cast_eq])
  all_goals rfl

set_option maxHeartbeats 40000000 in
/-- Stretch 1 leaves `main_call0_v78` at its function of the entry contents. -/
theorem h1_v78 : StableHlo.after (hostOps1 (F := F)) W (Proc.devRef .tc main_call0_v78)
    = brow (bvec0 (W (Proc.devRef .tc main_arg11))) := by
  after_results_simp
  all_goals (try simp only [StableHlo.TRef.ofBuf, StableHlo.TRef.toBuf, cast_eq])
  all_goals rfl

/-! ## Stretch 2 -/

set_option maxHeartbeats 40000000 in
/-- Stretch 2 leaves `main_call0_v90` at its function of the entry contents. -/
theorem h2_v90 : StableHlo.after (hostOps2 (F := F)) W (Proc.devRef .tc main_call0_v90)
    = aggPP (W (Proc.devRef .tc main_arg15)) (W (Proc.devRef .tc main_arg16)) (W (Proc.devRef .tc main_call0_v71)) := by
  after_results_simp
  all_goals (try simp only [StableHlo.TRef.ofBuf, StableHlo.TRef.toBuf, cast_eq])
  all_goals rfl

set_option maxHeartbeats 40000000 in
/-- Stretch 2 leaves `main_call0_v101` at its function of the entry contents. -/
theorem h2_v101 : StableHlo.after (hostOps2 (F := F)) W (Proc.devRef .tc main_call0_v101)
    = aggAP (W (Proc.devRef .tc main_arg17)) (W (Proc.devRef .tc main_arg18)) (W (Proc.devRef .tc main_call0_v79)) := by
  after_results_simp
  all_goals (try simp only [StableHlo.TRef.ofBuf, StableHlo.TRef.toBuf, cast_eq])
  all_goals rfl

set_option maxHeartbeats 40000000 in
/-- Stretch 2 leaves `main_call0_v105` at its function of the entry contents. -/
theorem h2_v105 : StableHlo.after (hostOps2 (F := F)) W (Proc.devRef .tc main_call0_v105)
    = wmat1 (W (Proc.devRef .tc main_arg7)) := by
  after_results_simp
  all_goals (try simp only [StableHlo.TRef.ofBuf, StableHlo.TRef.toBuf, cast_eq])
  all_goals rfl

set_option maxHeartbeats 40000000 in
/-- Stretch 2 leaves `main_call0_v107` at its function of the entry contents. -/
theorem h2_v107 : StableHlo.after (hostOps2 (F := F)) W (Proc.devRef .tc main_call0_v107)
    = wmat1 (W (Proc.devRef .tc main_arg3)) := by
  after_results_simp
  all_goals (try simp only [StableHlo.TRef.ofBuf, StableHlo.TRef.toBuf, cast_eq])
  all_goals rfl

set_option maxHeartbeats 40000000 in
/-- Stretch 2 leaves `main_call0_v109` at its function of the entry contents. -/
theorem h2_v109 : StableHlo.after (hostOps2 (F := F)) W (Proc.devRef .tc main_call0_v109)
    = wmat1 (W (Proc.devRef .tc main_arg4)) := by
  after_results_simp
  all_goals (try simp only [StableHlo.TRef.ofBuf, StableHlo.TRef.toBuf, cast_eq])
  all_goals rfl

set_option maxHeartbeats 40000000 in
/-- Stretch 2 leaves `main_call0_v112` at its function of the entry contents. -/
theorem h2_v112 : StableHlo.after (hostOps2 (F := F)) W (Proc.devRef .tc main_call0_v112)
    = brow (bvec1 (W (Proc.devRef .tc main_arg10))) := by
  after_results_simp
  all_goals (try simp only [StableHlo.TRef.ofBuf, StableHlo.TRef.toBuf, cast_eq])
  all_goals rfl

set_option maxHeartbeats 40000000 in
/-- Stretch 2 leaves `main_call0_v102` at its function of the entry contents. -/
theorem h2_v102 : StableHlo.after (hostOps2 (F := F)) W (Proc.devRef .tc main_call0_v102)
    = headW0 (W (Proc.devRef .tc main_arg13)) := by
  after_results_simp
  all_goals (try simp only [StableHlo.TRef.ofBuf, StableHlo.TRef.toBuf, cast_eq])
  all_goals rfl

set_option maxHeartbeats 40000000 in
/-- Stretch 2 leaves `main_call0_v103` at its function of the entry contents. -/
theorem h2_v103 : StableHlo.after (hostOps2 (F := F)) W (Proc.devRef .tc main_call0_v103)
    = headW1 (W (Proc.devRef .tc main_arg13)) := by
  after_results_simp
  all_goals (try simp only [StableHlo.TRef.ofBuf, StableHlo.TRef.toBuf, cast_eq])
  all_goals rfl

set_option maxHeartbeats 40000000 in
/-- Stretch 2 leaves `main_call0_v113` at its function of the entry contents. -/
theorem h2_v113 : StableHlo.after (hostOps2 (F := F)) W (Proc.devRef .tc main_call0_v113)
    = headB (W (Proc.devRef .tc main_arg14)) := by
  after_results_simp
  all_goals (try simp only [StableHlo.TRef.ofBuf, StableHlo.TRef.toBuf, cast_eq])
  all_goals rfl

set_option maxHeartbeats 40000000 in
/-- No operation of stretch 0 writes `main_arg0`. -/
theorem h0_keep_arg0 : StableHlo.after (hostOps0 (F := F)) W (Proc.devRef .tc main_arg0) = W (Proc.devRef .tc main_arg0) := by
  after_results_simp
  all_goals (try simp only [StableHlo.TRef.ofBuf, StableHlo.TRef.toBuf, cast_eq])
  all_goals rfl

set_option maxHeartbeats 40000000 in
/-- No operation of stretch 0 writes `main_arg1`. -/
theorem h0_keep_arg1 : StableHlo.after (hostOps0 (F := F)) W (Proc.devRef .tc main_arg1) = W (Proc.devRef .tc main_arg1) := by
  after_results_simp
  all_goals (try simp only [StableHlo.TRef.ofBuf, StableHlo.TRef.toBuf, cast_eq])
  all_goals rfl

set_option maxHeartbeats 40000000 in
/-- No operation of stretch 0 writes `main_arg3`. -/
theorem h0_keep_arg3 : StableHlo.after (hostOps0 (F := F)) W (Proc.devRef .tc main_arg3) = W (Proc.devRef .tc main_arg3) := by
  after_results_simp
  all_goals (try simp only [StableHlo.TRef.ofBuf, StableHlo.TRef.toBuf, cast_eq])
  all_goals rfl

set_option maxHeartbeats 40000000 in
/-- No operation of stretch 0 writes `main_arg4`. -/
theorem h0_keep_arg4 : StableHlo.after (hostOps0 (F := F)) W (Proc.devRef .tc main_arg4) = W (Proc.devRef .tc main_arg4) := by
  after_results_simp
  all_goals (try simp only [StableHlo.TRef.ofBuf, StableHlo.TRef.toBuf, cast_eq])
  all_goals rfl

set_option maxHeartbeats 40000000 in
/-- No operation of stretch 0 writes `main_arg5`. -/
theorem h0_keep_arg5 : StableHlo.after (hostOps0 (F := F)) W (Proc.devRef .tc main_arg5) = W (Proc.devRef .tc main_arg5) := by
  after_results_simp
  all_goals (try simp only [StableHlo.TRef.ofBuf, StableHlo.TRef.toBuf, cast_eq])
  all_goals rfl

set_option maxHeartbeats 40000000 in
/-- No operation of stretch 0 writes `main_arg7`. -/
theorem h0_keep_arg7 : StableHlo.after (hostOps0 (F := F)) W (Proc.devRef .tc main_arg7) = W (Proc.devRef .tc main_arg7) := by
  after_results_simp
  all_goals (try simp only [StableHlo.TRef.ofBuf, StableHlo.TRef.toBuf, cast_eq])
  all_goals rfl

set_option maxHeartbeats 40000000 in
/-- No operation of stretch 0 writes `main_arg8`. -/
theorem h0_keep_arg8 : StableHlo.after (hostOps0 (F := F)) W (Proc.devRef .tc main_arg8) = W (Proc.devRef .tc main_arg8) := by
  after_results_simp
  all_goals (try simp only [StableHlo.TRef.ofBuf, StableHlo.TRef.toBuf, cast_eq])
  all_goals rfl

set_option maxHeartbeats 40000000 in
/-- No operation of stretch 0 writes `main_arg10`. -/
theorem h0_keep_arg10 : StableHlo.after (hostOps0 (F := F)) W (Proc.devRef .tc main_arg10) = W (Proc.devRef .tc main_arg10) := by
  after_results_simp
  all_goals (try simp only [StableHlo.TRef.ofBuf, StableHlo.TRef.toBuf, cast_eq])
  all_goals rfl

set_option maxHeartbeats 40000000 in
/-- No operation of stretch 0 writes `main_arg11`. -/
theorem h0_keep_arg11 : StableHlo.after (hostOps0 (F := F)) W (Proc.devRef .tc main_arg11) = W (Proc.devRef .tc main_arg11) := by
  after_results_simp
  all_goals (try simp only [StableHlo.TRef.ofBuf, StableHlo.TRef.toBuf, cast_eq])
  all_goals rfl

set_option maxHeartbeats 40000000 in
/-- No operation of stretch 0 writes `main_arg13`. -/
theorem h0_keep_arg13 : StableHlo.after (hostOps0 (F := F)) W (Proc.devRef .tc main_arg13) = W (Proc.devRef .tc main_arg13) := by
  after_results_simp
  all_goals (try simp only [StableHlo.TRef.ofBuf, StableHlo.TRef.toBuf, cast_eq])
  all_goals rfl

set_option maxHeartbeats 40000000 in
/-- No operation of stretch 0 writes `main_arg14`. -/
theorem h0_keep_arg14 : StableHlo.after (hostOps0 (F := F)) W (Proc.devRef .tc main_arg14) = W (Proc.devRef .tc main_arg14) := by
  after_results_simp
  all_goals (try simp only [StableHlo.TRef.ofBuf, StableHlo.TRef.toBuf, cast_eq])
  all_goals rfl

set_option maxHeartbeats 40000000 in
/-- No operation of stretch 0 writes `main_arg15`. -/
theorem h0_keep_arg15 : StableHlo.after (hostOps0 (F := F)) W (Proc.devRef .tc main_arg15) = W (Proc.devRef .tc main_arg15) := by
  after_results_simp
  all_goals (try simp only [StableHlo.TRef.ofBuf, StableHlo.TRef.toBuf, cast_eq])
  all_goals rfl

set_option maxHeartbeats 40000000 in
/-- No operation of stretch 0 writes `main_arg16`. -/
theorem h0_keep_arg16 : StableHlo.after (hostOps0 (F := F)) W (Proc.devRef .tc main_arg16) = W (Proc.devRef .tc main_arg16) := by
  after_results_simp
  all_goals (try simp only [StableHlo.TRef.ofBuf, StableHlo.TRef.toBuf, cast_eq])
  all_goals rfl

set_option maxHeartbeats 40000000 in
/-- No operation of stretch 0 writes `main_arg17`. -/
theorem h0_keep_arg17 : StableHlo.after (hostOps0 (F := F)) W (Proc.devRef .tc main_arg17) = W (Proc.devRef .tc main_arg17) := by
  after_results_simp
  all_goals (try simp only [StableHlo.TRef.ofBuf, StableHlo.TRef.toBuf, cast_eq])
  all_goals rfl

set_option maxHeartbeats 40000000 in
/-- No operation of stretch 0 writes `main_arg18`. -/
theorem h0_keep_arg18 : StableHlo.after (hostOps0 (F := F)) W (Proc.devRef .tc main_arg18) = W (Proc.devRef .tc main_arg18) := by
  after_results_simp
  all_goals (try simp only [StableHlo.TRef.ofBuf, StableHlo.TRef.toBuf, cast_eq])
  all_goals rfl

set_option maxHeartbeats 40000000 in
/-- No operation of stretch 0 writes `main_arg19`. -/
theorem h0_keep_arg19 : StableHlo.after (hostOps0 (F := F)) W (Proc.devRef .tc main_arg19) = W (Proc.devRef .tc main_arg19) := by
  after_results_simp
  all_goals (try simp only [StableHlo.TRef.ofBuf, StableHlo.TRef.toBuf, cast_eq])
  all_goals rfl

set_option maxHeartbeats 40000000 in
/-- No operation of stretch 0 writes `main_arg20`. -/
theorem h0_keep_arg20 : StableHlo.after (hostOps0 (F := F)) W (Proc.devRef .tc main_arg20) = W (Proc.devRef .tc main_arg20) := by
  after_results_simp
  all_goals (try simp only [StableHlo.TRef.ofBuf, StableHlo.TRef.toBuf, cast_eq])
  all_goals rfl

set_option maxHeartbeats 40000000 in
/-- No operation of stretch 1 writes `main_call0_v71`. -/
theorem h1_keep_v71 : StableHlo.after (hostOps1 (F := F)) W (Proc.devRef .tc main_call0_v71) = W (Proc.devRef .tc main_call0_v71) := by
  after_results_simp
  all_goals (try simp only [StableHlo.TRef.ofBuf, StableHlo.TRef.toBuf, cast_eq])
  all_goals rfl

set_option maxHeartbeats 40000000 in
/-- No operation of stretch 1 writes `main_call0_v8`. -/
theorem h1_keep_v8 : StableHlo.after (hostOps1 (F := F)) W (Proc.devRef .tc main_call0_v8) = W (Proc.devRef .tc main_call0_v8) := by
  after_results_simp
  all_goals (try simp only [StableHlo.TRef.ofBuf, StableHlo.TRef.toBuf, cast_eq])
  all_goals rfl

set_option maxHeartbeats 40000000 in
/-- No operation of stretch 1 writes `main_call0_v17`. -/
theorem h1_keep_v17 : StableHlo.after (hostOps1 (F := F)) W (Proc.devRef .tc main_call0_v17) = W (Proc.devRef .tc main_call0_v17) := by
  after_results_simp
  all_goals (try simp only [StableHlo.TRef.ofBuf, StableHlo.TRef.toBuf, cast_eq])
  all_goals rfl

set_option maxHeartbeats 40000000 in
/-- No operation of stretch 1 writes `main_call0_v61`. -/
theorem h1_keep_v61 : StableHlo.after (hostOps1 (F := F)) W (Proc.devRef .tc main_call0_v61) = W (Proc.devRef .tc main_call0_v61) := by
  after_results_simp
  all_goals (try simp only [StableHlo.TRef.ofBuf, StableHlo.TRef.toBuf, cast_eq])
  all_goals rfl

set_option maxHeartbeats 40000000 in
/-- No operation of stretch 1 writes `main_call0_v26`. -/
theorem h1_keep_v26 : StableHlo.after (hostOps1 (F := F)) W (Proc.devRef .tc main_call0_v26) = W (Proc.devRef .tc main_call0_v26) := by
  after_results_simp
  all_goals (try simp only [StableHlo.TRef.ofBuf, StableHlo.TRef.toBuf, cast_eq])
  all_goals rfl

set_option maxHeartbeats 40000000 in
/-- No operation of stretch 1 writes `main_arg1`. -/
theorem h1_keep_arg1 : StableHlo.after (hostOps1 (F := F)) W (Proc.devRef .tc main_arg1) = W (Proc.devRef .tc main_arg1) := by
  after_results_simp
  all_goals (try simp only [StableHlo.TRef.ofBuf, StableHlo.TRef.toBuf, cast_eq])
  all_goals rfl

set_option maxHeartbeats 40000000 in
/-- No operation of stretch 1 writes `main_arg3`. -/
theorem h1_keep_arg3 : StableHlo.after (hostOps1 (F := F)) W (Proc.devRef .tc main_arg3) = W (Proc.devRef .tc main_arg3) := by
  after_results_simp
  all_goals (try simp only [StableHlo.TRef.ofBuf, StableHlo.TRef.toBuf, cast_eq])
  all_goals rfl

set_option maxHeartbeats 40000000 in
/-- No operation of stretch 1 writes `main_arg4`. -/
theorem h1_keep_arg4 : StableHlo.after (hostOps1 (F := F)) W (Proc.devRef .tc main_arg4) = W (Proc.devRef .tc main_arg4) := by
  after_results_simp
  all_goals (try simp only [StableHlo.TRef.ofBuf, StableHlo.TRef.toBuf, cast_eq])
  all_goals rfl

set_option maxHeartbeats 40000000 in
/-- No operation of stretch 1 writes `main_arg7`. -/
theorem h1_keep_arg7 : StableHlo.after (hostOps1 (F := F)) W (Proc.devRef .tc main_arg7) = W (Proc.devRef .tc main_arg7) := by
  after_results_simp
  all_goals (try simp only [StableHlo.TRef.ofBuf, StableHlo.TRef.toBuf, cast_eq])
  all_goals rfl

set_option maxHeartbeats 40000000 in
/-- No operation of stretch 1 writes `main_arg10`. -/
theorem h1_keep_arg10 : StableHlo.after (hostOps1 (F := F)) W (Proc.devRef .tc main_arg10) = W (Proc.devRef .tc main_arg10) := by
  after_results_simp
  all_goals (try simp only [StableHlo.TRef.ofBuf, StableHlo.TRef.toBuf, cast_eq])
  all_goals rfl

set_option maxHeartbeats 40000000 in
/-- No operation of stretch 1 writes `main_arg13`. -/
theorem h1_keep_arg13 : StableHlo.after (hostOps1 (F := F)) W (Proc.devRef .tc main_arg13) = W (Proc.devRef .tc main_arg13) := by
  after_results_simp
  all_goals (try simp only [StableHlo.TRef.ofBuf, StableHlo.TRef.toBuf, cast_eq])
  all_goals rfl

set_option maxHeartbeats 40000000 in
/-- No operation of stretch 1 writes `main_arg14`. -/
theorem h1_keep_arg14 : StableHlo.after (hostOps1 (F := F)) W (Proc.devRef .tc main_arg14) = W (Proc.devRef .tc main_arg14) := by
  after_results_simp
  all_goals (try simp only [StableHlo.TRef.ofBuf, StableHlo.TRef.toBuf, cast_eq])
  all_goals rfl

set_option maxHeartbeats 40000000 in
/-- No operation of stretch 1 writes `main_arg15`. -/
theorem h1_keep_arg15 : StableHlo.after (hostOps1 (F := F)) W (Proc.devRef .tc main_arg15) = W (Proc.devRef .tc main_arg15) := by
  after_results_simp
  all_goals (try simp only [StableHlo.TRef.ofBuf, StableHlo.TRef.toBuf, cast_eq])
  all_goals rfl

set_option maxHeartbeats 40000000 in
/-- No operation of stretch 1 writes `main_arg16`. -/
theorem h1_keep_arg16 : StableHlo.after (hostOps1 (F := F)) W (Proc.devRef .tc main_arg16) = W (Proc.devRef .tc main_arg16) := by
  after_results_simp
  all_goals (try simp only [StableHlo.TRef.ofBuf, StableHlo.TRef.toBuf, cast_eq])
  all_goals rfl

set_option maxHeartbeats 40000000 in
/-- No operation of stretch 1 writes `main_arg17`. -/
theorem h1_keep_arg17 : StableHlo.after (hostOps1 (F := F)) W (Proc.devRef .tc main_arg17) = W (Proc.devRef .tc main_arg17) := by
  after_results_simp
  all_goals (try simp only [StableHlo.TRef.ofBuf, StableHlo.TRef.toBuf, cast_eq])
  all_goals rfl

set_option maxHeartbeats 40000000 in
/-- No operation of stretch 1 writes `main_arg18`. -/
theorem h1_keep_arg18 : StableHlo.after (hostOps1 (F := F)) W (Proc.devRef .tc main_arg18) = W (Proc.devRef .tc main_arg18) := by
  after_results_simp
  all_goals (try simp only [StableHlo.TRef.ofBuf, StableHlo.TRef.toBuf, cast_eq])
  all_goals rfl

set_option maxHeartbeats 40000000 in
/-- No operation of stretch 2 writes `main_call0_v71`. -/
theorem h2_keep_v71 : StableHlo.after (hostOps2 (F := F)) W (Proc.devRef .tc main_call0_v71) = W (Proc.devRef .tc main_call0_v71) := by
  after_results_simp
  all_goals (try simp only [StableHlo.TRef.ofBuf, StableHlo.TRef.toBuf, cast_eq])
  all_goals rfl

set_option maxHeartbeats 40000000 in
/-- No operation of stretch 2 writes `main_call0_v8`. -/
theorem h2_keep_v8 : StableHlo.after (hostOps2 (F := F)) W (Proc.devRef .tc main_call0_v8) = W (Proc.devRef .tc main_call0_v8) := by
  after_results_simp
  all_goals (try simp only [StableHlo.TRef.ofBuf, StableHlo.TRef.toBuf, cast_eq])
  all_goals rfl

set_option maxHeartbeats 40000000 in
/-- No operation of stretch 2 writes `main_call0_v17`. -/
theorem h2_keep_v17 : StableHlo.after (hostOps2 (F := F)) W (Proc.devRef .tc main_call0_v17) = W (Proc.devRef .tc main_call0_v17) := by
  after_results_simp
  all_goals (try simp only [StableHlo.TRef.ofBuf, StableHlo.TRef.toBuf, cast_eq])
  all_goals rfl

set_option maxHeartbeats 40000000 in
/-- No operation of stretch 3 writes `main_v0_0`. -/
theorem h3_keep_v0_0 : StableHlo.after (hostOps3 (F := F)) W (Proc.devRef .tc main_v0_0) = W (Proc.devRef .tc main_v0_0) := by
  after_results_simp
  all_goals (try simp only [StableHlo.TRef.ofBuf, StableHlo.TRef.toBuf, cast_eq])
  all_goals rfl

set_option maxHeartbeats 40000000 in
/-- The last stretch writes the constant pair into the second result buffer. -/
theorem h3_out1 : StableHlo.after (hostOps3 (F := F)) W (Proc.devRef .tc main_v0_1)
    = broadcastInDim S2 ![] Cert.KernelIdeal.Facts₀.bcast_S_S2 (constant (F := F) S_ .f32 0x3F000000#32) := by
  after_results_simp
  all_goals (try simp only [StableHlo.TRef.ofBuf, StableHlo.TRef.toBuf, cast_eq])
  all_goals rfl

end Cert.KernelIdeal.Val

end
-- ==== Proof.KReg0.lean ====
/-
  Pallas call 0: layer 0's paper features.

  At every grid point the body multiplies a block of 4000 paper rows, and the two blocks of aggregated rows scaled by
  their reciprocal capped degrees, into three 128 × 128 matrices, adds the bias row and takes the positive part. A row
  of the result depends only on the same row of the row operands, so the 50 blocks written back are the restrictions of
  one whole-array layer function, and they tile the 200000 × 128 output array.
-/
import proofs.«404806_j34548716929227_3_alg».proof.Proof.Gen.KernelIdeal.Frame
import proofs.«404806_j34548716929227_3_alg».proof.Proof.Spec

set_option maxRecDepth 16384

noncomputable section

namespace Cert.KernelIdeal.Val

open Cert.KernelIdeal Cert.KernelIdeal.Gen Idealize.ShloMosaic Idealize.ShloMosaic.TcCoe Idealize.ShloMosaic.ValueIdx
open Idealize.SL.Sem Idealize.ShloMosaic.Pipeline Cert.Spec Cert.Lib

variable (V : (c : Dev nD) → (b : Ref sig .tc) → Buf (Elt Ideal) ((c : Thread nD τ).loc b))

/-- The zero offsets of a whole-block access, however spelt. -/
theorem zero_off0 : (![0, 0] : Fin 2 → Nat) = fun _ => 0 := funext fun a => by fin_cases a <;> rfl

/-- The printed dimension numbers of the body's three products are the plain ones. -/
theorem dot0_plain : dot_S4000x128_S128x128_S4000x128_1_0_0_1_n_n = DotDims.plain 4000 128 128 := rfl

/-- The body's sum of three row products and the bias row, at an entry. -/
theorem k0_pay2_apply (v0 v5 v12 : Vec Ideal S4000x128 .f32) (v1 v8 : Vec Ideal S4000x1 .f32)
    (v16 v21 v27 : Vec Ideal S128x128 .f32) (v32 : Vec Ideal S1x128 .f32) (p : Fin 4000) (q : Fin 128) :
    k0_pay2 (F := Ideal) v0 v1 v5 v8 v12 v16 v21 v27 v32 (ix2 p q)
      = (((∑ k : Fin 128, v0 (ix2 p k) * v16 (ix2 k q))
          + ∑ k : Fin 128, (v5 (ix2 p k) * v1 (ix2 p (0 : Fin 1))) * v21 (ix2 k q))
          + ∑ k : Fin 128, (v12 (ix2 p k) * v8 (ix2 p (0 : Fin 1))) * v27 (ix2 k q)) + v32 (ix2 (0 : Fin 1) q) := by
  unfold k0_pay2
  unfold matmul
  rw [dot0_plain, addf_apply, addf_apply, addf_apply,
    matmul_plain_zero_apply, matmul_plain_zero_apply, matmul_plain_zero_apply]
  simp only [truncf_apply, mulf_apply, shapeCast_self]
  rw [broadcastTo_row_apply]
  show ∑ k : Fin 128, v0 (ix2 p k) * v16 (ix2 k q) +
          ∑ k : Fin 128, v5 (ix2 p k) * broadcastTo S4000x128 v1 broadcasts_S4000x1_S4000x128 (ix2 p k) * v21 (ix2 k q) +
        ∑ k : Fin 128, v12 (ix2 p k) * broadcastTo S4000x128 v8 broadcasts_S4000x1_S4000x128 (ix2 p k) * v27 (ix2 k q) +
      v32 (ix2 (0 : Fin 1) q) = _
  simp only [broadcastTo_a1_ab_apply]

/-- Region 0's body on a block: the three-term layer of the block's rows. -/
theorem out0_9_eq (x0 x1 x2 : Vec Ideal S4000x128 .f32) (x3 x4 : Vec Ideal S4000x1 .f32) (x5 x6 x7 : Vec Ideal S128x128 .f32)
    (x8 : Vec Ideal S1x128 .f32) :
    out0_9 (F := Ideal) x0 x1 x2 x3 x4 x5 x6 x7 x8
      = fused3 x0 x1 x2 x3 x4 x5 x6 x7 x8 (Ideal.ofBits .f32 0x00000000#32) := by
  unfold out0_9
  rw [View.canon_unit_zero zero_off0]
  simp only [View.ld_unit_zero (S := S4000x128) zero_off0, View.ld_unit_zero (S := S4000x1) zero_off0,
    View.ld_unit_zero (S := S128x128) zero_off0, View.ld_unit_zero (S := S1x128) zero_off0]
  funext j
  obtain ⟨p, q, rfl⟩ : ∃ (p : Fin 4000) (q : Fin 128), j = ix2 p q := ⟨j 0, j 1, eq_ix2 j⟩
  rw [fused3_apply]
  unfold k0_pay1 k0_pay3
  rw [truncf_apply, maximumf_apply, broadcast_apply, k0_pay2_apply]
  rfl

/-- The printed index maps over the grid: a row-block window is at block `(t, 0)`, a whole-array window at `(0, 0)`. -/
theorem idx_facts0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0) :=
  (by decide +kernel : ∀ t : Fin grid0.N, _)

/-- A grid point's rows lie in the array. -/
theorem row_lt0 (t : Fin cfg0.N) (p : Fin 4000) : t.val * 4000 + p.val < 200000 := by
  have ht : t.val < 50 := lt_of_lt_of_eq t.isLt N_0
  have hp := p.isLt
  omega

/-- Window 0's block at point `t` holds rows `4000 t …` of its array. -/
theorem iblk0_0_apply (c : Dev nD) (t : Fin cfg0.N) (p : Fin 4000) (k : Fin 128) :
    (iblk0 (F := Ideal) V c 0 t : Vec Ideal S4000x128 .f32) (ix2 p k)
      = (V c main_arg0 : Arr 200000 128) (ix2 (⟨t.val * 4000 + p.val, row_lt0 t p⟩ : Fin 200000) k) := by
  obtain ⟨⟨e0, e1⟩, -⟩ := idx_facts0 t
  unfold iblk0
  show V c main_arg0 (((cfg0.win 0).blk t).view.emb (ix2 p k)) = _
  refine congrArg (V c main_arg0) ?_
  funext a
  apply Fin.ext
  match a with
  | ⟨0, _⟩ => show win0_0.index t (0 : Fin 2) * 4000 + 1 * p.val = t.val * 4000 + p.val; rw [e0]; omega
  | ⟨1, _⟩ => show win0_0.index t (1 : Fin 2) * 128 + 1 * k.val = k.val; rw [e1]; omega

/-- Window 1's block at point `t` holds rows `4000 t …` of its array. -/
theorem iblk0_1_apply (c : Dev nD) (t : Fin cfg0.N) (p : Fin 4000) (k : Fin 128) :
    (iblk0 (F := Ideal) V c 1 t : Vec Ideal S4000x128 .f32) (ix2 p k)
      = (V c main_call0_v39 : Arr 200000 128) (ix2 (⟨t.val * 4000 + p.val, row_lt0 t p⟩ : Fin 200000) k) := by
  obtain ⟨-, ⟨e0, e1⟩, -⟩ := idx_facts0 t
  unfold iblk0
  show V c main_call0_v39 (((cfg0.win 1).blk t).view.emb (ix2 p k)) = _
  refine congrArg (V c main_call0_v39) ?_
  funext a
  apply Fin.ext
  match a with
  | ⟨0, _⟩ => show win0_1.index t (0 : Fin 2) * 4000 + 1 * p.val = t.val * 4000 + p.val; rw [e0]; omega
  | ⟨1, _⟩ => show win0_1.index t (1 : Fin 2) * 128 + 1 * k.val = k.val; rw [e1]; omega

/-- Window 2's block at point `t` holds rows `4000 t …` of its array. -/
theorem iblk0_2_apply (c : Dev nD) (t : Fin cfg0.N) (p : Fin 4000) (k : Fin 128) :
    (iblk0 (F := Ideal) V c 2 t : Vec Ideal S4000x128 .f32) (ix2 p k)
      = (V c main_call0_v50 : Arr 200000 128) (ix2 (⟨t.val * 4000 + p.val, row_lt0 t p⟩ : Fin 200000) k) := by
  obtain ⟨-, -, ⟨e0, e1⟩, -⟩ := idx_facts0 t
  unfold iblk0
  show V c main_call0_v50 (((cfg0.win 2).blk t).view.emb (ix2 p k)) = _
  refine congrArg (V c main_call0_v50) ?_
  funext a
  apply Fin.ext
  match a with
  | ⟨0, _⟩ => show win0_2.index t (0 : Fin 2) * 4000 + 1 * p.val = t.val * 4000 + p.val; rw [e0]; omega
  | ⟨1, _⟩ => show win0_2.index t (1 : Fin 2) * 128 + 1 * k.val = k.val; rw [e1]; omega

/-- Window 3's block at point `t` holds rows `4000 t …` of its column. -/
theorem iblk0_3_apply (c : Dev nD) (t : Fin cfg0.N) (p : Fin 4000) (u : Fin 1) :
    (iblk0 (F := Ideal) V c 3 t : Vec Ideal S4000x1 .f32) (ix2 p u)
      = (V c main_call0_v8 : Arr 200000 1) (ix2 (⟨t.val * 4000 + p.val, row_lt0 t p⟩ : Fin 200000) u) := by
  obtain ⟨-, -, -, ⟨e0, e1⟩, -⟩ := idx_facts0 t
  unfold iblk0
  show V c main_call0_v8 (((cfg0.win 3).blk t).view.emb (ix2 p u)) = _
  refine congrArg (V c main_call0_v8) ?_
  funext a
  apply Fin.ext
  match a with
  | ⟨0, _⟩ => show win0_3.index t (0 : Fin 2) * 4000 + 1 * p.val = t.val * 4000 + p.val; rw [e0]; omega
  | ⟨1, _⟩ => show win0_3.index t (1 : Fin 2) * 1 + 1 * u.val = u.val; rw [e1]; omega

/-- Window 4's block at point `t` holds rows `4000 t …` of its column. -/
theorem iblk0_4_apply (c : Dev nD) (t : Fin cfg0.N) (p : Fin 4000) (u : Fin 1) :
    (iblk0 (F := Ideal) V c 4 t : Vec Ideal S4000x1 .f32) (ix2 p u)
      = (V c main_call0_v17 : Arr 200000 1) (ix2 (⟨t.val * 4000 + p.val, row_lt0 t p⟩ : Fin 200000) u) := by
  obtain ⟨-, -, -, -, ⟨e0, e1⟩, -⟩ := idx_facts0 t
  unfold iblk0
  show V c main_call0_v17 (((cfg0.win 4).blk t).view.emb (ix2 p u)) = _
  refine congrArg (V c main_call0_v17) ?_
  funext a
  apply Fin.ext
  match a with
  | ⟨0, _⟩ => show win0_4.index t (0 : Fin 2) * 4000 + 1 * p.val = t.val * 4000 + p.val; rw [e0]; omega
  | ⟨1, _⟩ => show win0_4.index t (1 : Fin 2) * 1 + 1 * u.val = u.val; rw [e1]; omega

/-- Window 5's block at every point is its whole array. -/
theorem iblk0_5_eq (c : Dev nD) (t : Fin cfg0.N) :
    (iblk0 (F := Ideal) V c 5 t : Vec Ideal S128x128 .f32) = (V c main_call0_v63 : Arr 128 128) := by
  obtain ⟨-, -, -, -, -, ⟨e0, e1⟩, -⟩ := idx_facts0 t
  funext y
  unfold iblk0
  show V c main_call0_v63 (((cfg0.win 5).blk t).view.emb y) = _
  refine congrArg (V c main_call0_v63) ?_
  funext a
  apply Fin.ext
  match a with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega

/-- Window 6's block at every point is its whole array. -/
theorem iblk0_6_eq (c : Dev nD) (t : Fin cfg0.N) :
    (iblk0 (F := Ideal) V c 6 t : Vec Ideal S128x128 .f32) = (V c main_call0_v65 : Arr 128 128) := by
  obtain ⟨-, -, -, -, -, -, ⟨e0, e1⟩, -⟩ := idx_facts0 t
  funext y
  unfold iblk0
  show V c main_call0_v65 (((cfg0.win 6).blk t).view.emb y) = _
  refine congrArg (V c main_call0_v65) ?_
  funext a
  apply Fin.ext
  match a with
  | ⟨0, _⟩ => show win0_6.index t (0 : Fin 2) * 128 + 1 * (y 0).val = (y 0).val; rw [e0]; omega
  | ⟨1, _⟩ => show win0_6.index t (1 : Fin 2) * 128 + 1 * (y 1).val = (y 1).val; rw [e1]; omega

/-- Window 7's block at every point is its whole array. -/
theorem iblk0_7_eq (c : Dev nD) (t : Fin cfg0.N) :
    (iblk0 (F := Ideal) V c 7 t : Vec Ideal S128x128 .f32) = (V c main_call0_v67 : Arr 128 128) := by
  obtain ⟨-, -, -, -, -, -, -, ⟨e0, e1⟩, -⟩ := idx_facts0 t
  funext y
  unfold iblk0
  show V c main_call0_v67 (((cfg0.win 7).blk t).view.emb y) = _
  refine congrArg (V c main_call0_v67) ?_
  funext a
  apply Fin.ext
  match a with
  | ⟨0, _⟩ => show win0_7.index t (0 : Fin 2) * 128 + 1 * (y 0).val = (y 0).val; rw [e0]; omega
  | ⟨1, _⟩ => show win0_7.index t (1 : Fin 2) * 128 + 1 * (y 1).val = (y 1).val; rw [e1]; omega

/-- Window 8's block at every point is its whole array. -/
theorem iblk0_8_eq (c : Dev nD) (t : Fin cfg0.N) :
    (iblk0 (F := Ideal) V c 8 t : Vec Ideal S1x128 .f32) = (V c main_call0_v70 : Arr 1 128) := by
  obtain ⟨-, -, -, -, -, -, -, -, ⟨e0, e1⟩, -⟩ := idx_facts0 t
  funext y
  unfold iblk0
  show V c main_call0_v70 (((cfg0.win 8).blk t).view.emb y) = _
  refine congrArg (V c main_call0_v70) ?_
  funext a
  apply Fin.ext
  match a with
  | ⟨0, _⟩ => show win0_8.index t (0 : Fin 2) * 1 + 1 * (y 0).val = (y 0).val; rw [e0]; omega
  | ⟨1, _⟩ => show win0_8.index t (1 : Fin 2) * 128 + 1 * (y 1).val = (y 1).val; rw [e1]; omega

/-- What point `t` writes back is block `t` of the layer of the whole arrays. -/
theorem flushed0_9_eq (c : Dev nD) (t : Fin cfg0.N) :
    (dat0 (F := Ideal) V c).flushed 9 t
      = ((cfg0.win 9).blk t).view.read (Elt Ideal)
          (fused3 (V c main_arg0) (V c main_call0_v39) (V c main_call0_v50) (V c main_call0_v8) (V c main_call0_v17)
            (V c main_call0_v63) (V c main_call0_v65) (V c main_call0_v67) (V c main_call0_v70) (Ideal.ofBits .f32 0x00000000#32)) := by
  show (cfg0.win 9).cut (grid0.coords t) ((dat0 V c).after 9 t) = _
  rw [after0_9, out0_9_eq, iblk0_5_eq, iblk0_6_eq, iblk0_7_eq, iblk0_8_eq]
  obtain ⟨-, -, -, -, -, -, -, -, -, ⟨e0, e1⟩⟩ := idx_facts0 t
  funext j
  obtain ⟨p, q, rfl⟩ : ∃ (p : Fin 4000) (q : Fin 128), j = ix2 p q := ⟨j 0, j 1, eq_ix2 j⟩
  have he : ((cfg0.win 9).blk t).view.emb (ix2 p q) = ix2 (⟨t.val * 4000 + p.val, row_lt0 t p⟩ : Fin 200000) q := by
    funext a
    apply Fin.ext
    match a with
    | ⟨0, _⟩ => show win0_9.index t (0 : Fin 2) * 4000 + 1 * p.val = t.val * 4000 + p.val; rw [e0]; omega
    | ⟨1, _⟩ => show win0_9.index t (1 : Fin 2) * 128 + 1 * q.val = q.val; rw [e1]; omega
  show fused3 _ _ _ _ _ _ _ _ _ _ (ix2 p q) = fused3 _ _ _ _ _ _ _ _ _ _ (((cfg0.win 9).blk t).view.emb (ix2 p q))
  rw [he]
  exact fused3_row _ _ _ _ _ _ _ _ _ _ _ _ _ _ _ p _ (iblk0_0_apply V c t p) (iblk0_1_apply V c t p) (iblk0_2_apply V c t p)
    (iblk0_3_apply V c t p 0) (iblk0_4_apply V c t p 0) q

/-- An index of the output array is in point `t`'s block iff each coordinate is in the block's range on its axis. -/
theorem mem_blk0_9 (t : Fin cfg0.N) (i : S200000x128.Idx) :
    i ∈ ((cfg0.win 9).blk t).view.set
      ↔ ∀ a : Fin 2, win0_9.index t a * S4000x128.size a ≤ (i a).val
          ∧ (i a).val < win0_9.index t a * S4000x128.size a + S4000x128.size a := by
  show i ∈ ((View.whole main_call0_v71).slice (win0_9.rect t)).set ↔ _
  rw [View.set_slice_whole, Rect.mem_set_unit]
  exact Iff.rfl

/-- Every row of the output array is in the block of the point `row / 4000`, and every point writes back. -/
theorem cover0_arr (i : S200000x128.Idx) :
    ∃ t : Fin cfg0.N, (cfg0.win 9).flush t = true ∧ i ∈ ((cfg0.win 9).blk t).view.set := by
  have hi0 : (i 0).val < 200000 := (i 0).isLt
  have hi1 : (i 1).val < 128 := (i 1).isLt
  have hN : cfg0.N = 50 := N_0
  have ht : (i 0).val / 4000 < cfg0.N := by rw [hN]; omega
  obtain ⟨-, -, -, -, -, -, -, -, -, ⟨e0, e1⟩⟩ := idx_facts0 ⟨(i 0).val / 4000, ht⟩
  refine ⟨⟨(i 0).val / 4000, ht⟩, flush0_9 _, ?_⟩
  rw [mem_blk0_9]
  intro a
  match a with
  | ⟨0, _⟩ =>
    show win0_9.index ⟨(i 0).val / 4000, ht⟩ (0 : Fin 2) * 4000 ≤ (i 0).val
      ∧ (i 0).val < win0_9.index ⟨(i 0).val / 4000, ht⟩ (0 : Fin 2) * 4000 + 4000
    rw [e0]
    show (i 0).val / 4000 * 4000 ≤ (i 0).val ∧ (i 0).val < (i 0).val / 4000 * 4000 + 4000
    omega
  | ⟨1, _⟩ =>
    show win0_9.index ⟨(i 0).val / 4000, ht⟩ (1 : Fin 2) * 128 ≤ (i 1).val
      ∧ (i 1).val < win0_9.index ⟨(i 0).val / 4000, ht⟩ (1 : Fin 2) * 128 + 128
    rw [e1]
    omega

/-- Region 0's output array after the region: the three-term layer of the arrays the region finds. -/
theorem arr0 (c : Dev nD) :
    (dat0 (F := Ideal) V c).arrAt 9 cfg0.N
      = fused3 (V c main_arg0) (V c main_call0_v39) (V c main_call0_v50) (V c main_call0_v8) (V c main_call0_v17)
          (V c main_call0_v63) (V c main_call0_v65) (V c main_call0_v67) (V c main_call0_v70) (Ideal.ofBits .f32 0x00000000#32) :=
  (dat0 (F := Ideal) V c).arrAt_eq_of_cover 9 _ (fun t _ => flushed0_9_eq V c t) cover0_arr

end Cert.KernelIdeal.Val

end
-- ==== Proof.KReg1.lean ====
/-
  Pallas call 1: layer 0's author features.

  At every grid point the body multiplies a block of 4000 author rows, and the block of aggregated rows scaled by its
  reciprocal capped degrees, into two 128 × 128 matrices, adds the bias row and takes the positive part. A row of the
  result depends only on the same row of the row operands, so the 25 blocks written back are the restrictions of one
  whole-array layer function, and they tile the 100000 × 128 output array.
-/
import proofs.«404806_j34548716929227_3_alg».proof.Proof.Gen.KernelIdeal.Frame
import proofs.«404806_j34548716929227_3_alg».proof.Proof.Spec

set_option maxRecDepth 16384

noncomputable section

namespace Cert.KernelIdeal.Val

open Cert.KernelIdeal Cert.KernelIdeal.Gen Idealize.ShloMosaic Idealize.ShloMosaic.TcCoe Idealize.ShloMosaic.ValueIdx
open Idealize.SL.Sem Idealize.ShloMosaic.Pipeline Cert.Spec Cert.Lib

variable (V : (c : Dev nD) → (b : Ref sig .tc) → Buf (Elt Ideal) ((c : Thread nD τ).loc b))

/-- The kernel's matrix product contracts axis 1 of the left operand with axis 0 of the right one, with no batch axis. -/
theorem dot1_plain : dot_S4000x128_S128x128_S4000x128_1_0_0_1_n_n = DotDims.plain 4000 128 128 := rfl

/-- A product of two narrowed operands into the zero accumulator, at `(p, q)`: narrowing changes no extended real. -/
theorem matmul1_apply (a : Vec Ideal S4000x128 .f32) (w : Vec Ideal S128x128 .f32) (p : Fin 4000) (q : Fin 128) :
    matmul (F := Ideal) dot_S4000x128_S128x128_S4000x128_1_0_0_1_n_n none (truncf .bf16 a bitsLt_bf16_f32)
        (truncf .bf16 (shapeCast S128x128 w shapeCasts_S128x128_S128x128) bitsLt_bf16_f32)
        (constant S4000x128 .f32 0x00000000#32) (ix2 p q)
      = ∑ k : Fin 128, a (ix2 p k) * w (ix2 k q) := by
  rw [dot1_plain, shapeCast_self]
  exact matmul_plain_zero_apply 4000 128 128 none _ _ (ix2 p q)

/-- The body's payload at `(p, q)`. -/
theorem pay1_apply (x0 x1 : Vec Ideal S4000x128 .f32) (x2 : Vec Ideal S4000x1 .f32) (x3 x4 : Vec Ideal S128x128 .f32)
    (x5 : Vec Ideal S1x128 .f32) (p : Fin 4000) (q : Fin 128) :
    k1_pay1 (F := Ideal) x0 x2 x1 x3 x4 x5 (ix2 p q)
      = max (((∑ k : Fin 128, x0 (ix2 p k) * x3 (ix2 k q))
          + ∑ k : Fin 128, (x1 (ix2 p k) * x2 (ix2 p (0 : Fin 1))) * x4 (ix2 k q)) + x5 (ix2 (0 : Fin 1) q))
          (Ideal.ofBits .f32 0x00000000#32) := by
  unfold k1_pay1
  rw [truncf_apply, maximumf_apply, addf_apply, addf_apply, broadcast_apply, matmul1_apply, matmul1_apply,
    shapeCast_self, broadcastTo_row_apply, shapeCast_self, shapeCast_self, shapeCast_self]
  simp only [mulf_apply, broadcastTo_a1_ab_apply]
  rfl

/-- Region 1's body on a block: the two-term layer of the block's rows. -/
theorem out1_6_eq (x0 x1 : Vec Ideal S4000x128 .f32) (x2 : Vec Ideal S4000x1 .f32) (x3 x4 : Vec Ideal S128x128 .f32)
    (x5 : Vec Ideal S1x128 .f32) :
    out1_6 (F := Ideal) x0 x1 x2 x3 x4 x5 = fused2 x0 x1 x2 x3 x4 x5 (Ideal.ofBits .f32 0x00000000#32) := by
  have hz : (![0, 0] : Fin 2 → Nat) = fun _ => 0 := funext fun a => by fin_cases a <;> rfl
  unfold out1_6
  rw [View.canon_unit_zero hz]
  simp only [View.ld_unit_zero (S := S4000x128) hz, View.ld_unit_zero (S := S4000x1) hz,
    View.ld_unit_zero (S := S128x128) hz, View.ld_unit_zero (S := S1x128) hz]
  funext j
  obtain ⟨p, q, rfl⟩ : ∃ (p : Fin 4000) (q : Fin 128), j = ix2 p q := ⟨j 0, j 1, eq_ix2 j⟩
  rw [fused2_apply]
  exact pay1_apply x0 x1 x2 x3 x4 x5 p q

/-- The printed index maps over the grid: the row windows sit at block `t` of axis 0 and block 0 of axis 1, the
    whole-array windows at block 0 of both axes. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The grid has 25 points. -/
theorem t_lt1 (t : Fin cfg1.N) : t.val < 25 := lt_of_lt_of_eq t.isLt N_1

/-- Row `p` of point `t`'s block of rows is row `t * 4000 + p` of the array. -/
def arow1 (t : Fin cfg1.N) (p : Fin 4000) : Fin 100000 :=
  ⟨t.val * 4000 + p.val, by have := t_lt1 t; have := p.isLt; omega⟩

/-- Window 0's block at `t`, at `(p, k)`: the array's entry at row `t * 4000 + p`. -/
theorem blk1_0 (c : Dev nD) (t : Fin cfg1.N) (p : Fin 4000) (k : Fin 128) :
    iblk1 V c 0 t (ix2 p k) = V c main_arg1 (ix2 (arow1 t p) k) := by
  obtain ⟨e0, e1, -⟩ := idx_facts1 t
  unfold iblk1
  show V c main_arg1 (((cfg1.win 0).blk t).view.emb (ix2 p k)) = V c main_arg1 (ix2 (arow1 t p) k)
  refine congrArg _ (funext fun a => Fin.ext ?_)
  match a with
  | ⟨0, _⟩ => show win1_0.index t (0 : Fin 2) * 4000 + 1 * p.val = t.val * 4000 + p.val; rw [e0, Nat.one_mul]
  | ⟨1, _⟩ => show win1_0.index t (1 : Fin 2) * 128 + 1 * k.val = k.val; rw [e1, Nat.zero_mul, Nat.zero_add, Nat.one_mul]

/-- Window 1's block at `t`, at `(p, k)`: the array's entry at row `t * 4000 + p`. -/
theorem blk1_1 (c : Dev nD) (t : Fin cfg1.N) (p : Fin 4000) (k : Fin 128) :
    iblk1 V c 1 t (ix2 p k) = V c main_call0_v61 (ix2 (arow1 t p) k) := by
  obtain ⟨-, -, e0, e1, -⟩ := idx_facts1 t
  unfold iblk1
  show V c main_call0_v61 (((cfg1.win 1).blk t).view.emb (ix2 p k)) = V c main_call0_v61 (ix2 (arow1 t p) k)
  refine congrArg _ (funext fun a => Fin.ext ?_)
  match a with
  | ⟨0, _⟩ => show win1_1.index t (0 : Fin 2) * 4000 + 1 * p.val = t.val * 4000 + p.val; rw [e0, Nat.one_mul]
  | ⟨1, _⟩ => show win1_1.index t (1 : Fin 2) * 128 + 1 * k.val = k.val; rw [e1, Nat.zero_mul, Nat.zero_add, Nat.one_mul]

/-- Window 2's block at `t`, at `(p, 0)`: the column's entry at row `t * 4000 + p`. -/
theorem blk1_2 (c : Dev nD) (t : Fin cfg1.N) (p : Fin 4000) :
    iblk1 V c 2 t (ix2 p (0 : Fin 1)) = V c main_call0_v26 (ix2 (arow1 t p) (0 : Fin 1)) := by
  obtain ⟨-, -, -, -, e0, e1, -⟩ := idx_facts1 t
  unfold iblk1
  show V c main_call0_v26 (((cfg1.win 2).blk t).view.emb (ix2 p (0 : Fin 1))) = V c main_call0_v26 (ix2 (arow1 t p) (0 : Fin 1))
  refine congrArg _ (funext fun a => Fin.ext ?_)
  match a with
  | ⟨0, _⟩ => show win1_2.index t (0 : Fin 2) * 4000 + 1 * p.val = t.val * 4000 + p.val; rw [e0, Nat.one_mul]
  | ⟨1, _⟩ => show win1_2.index t (1 : Fin 2) * 1 + 1 * 0 = 0; rw [e1]

/-- Window 3's block at any point is its whole array. -/
theorem blk1_3 (c : Dev nD) (t : Fin cfg1.N) : iblk1 V c 3 t = V c main_call0_v73 := by
  obtain ⟨-, -, -, -, -, -, e0, e1, -⟩ := idx_facts1 t
  funext j
  obtain ⟨a, b, rfl⟩ : ∃ (a : Fin 128) (b : Fin 128), j = ix2 a b := ⟨j 0, j 1, eq_ix2 j⟩
  unfold iblk1
  show V c main_call0_v73 (((cfg1.win 3).blk t).view.emb (ix2 a b)) = V c main_call0_v73 (ix2 a b)
  refine congrArg _ (funext fun ax => Fin.ext ?_)
  match ax with
  | ⟨0, _⟩ => show win1_3.index t (0 : Fin 2) * 128 + 1 * a.val = a.val; rw [e0, Nat.zero_mul, Nat.zero_add, Nat.one_mul]
  | ⟨1, _⟩ => show win1_3.index t (1 : Fin 2) * 128 + 1 * b.val = b.val; rw [e1, Nat.zero_mul, Nat.zero_add, Nat.one_mul]

/-- Window 4's block at any point is its whole array. -/
theorem blk1_4 (c : Dev nD) (t : Fin cfg1.N) : iblk1 V c 4 t = V c main_call0_v75 := by
  obtain ⟨-, -, -, -, -, -, -, -, e0, e1, -⟩ := idx_facts1 t
  funext j
  obtain ⟨a, b, rfl⟩ : ∃ (a : Fin 128) (b : Fin 128), j = ix2 a b := ⟨j 0, j 1, eq_ix2 j⟩
  unfold iblk1
  show V c main_call0_v75 (((cfg1.win 4).blk t).view.emb (ix2 a b)) = V c main_call0_v75 (ix2 a b)
  refine congrArg _ (funext fun ax => Fin.ext ?_)
  match ax with
  | ⟨0, _⟩ => show win1_4.index t (0 : Fin 2) * 128 + 1 * a.val = a.val; rw [e0, Nat.zero_mul, Nat.zero_add, Nat.one_mul]
  | ⟨1, _⟩ => show win1_4.index t (1 : Fin 2) * 128 + 1 * b.val = b.val; rw [e1, Nat.zero_mul, Nat.zero_add, Nat.one_mul]

/-- Window 5's block at any point is its whole array. -/
theorem blk1_5 (c : Dev nD) (t : Fin cfg1.N) : iblk1 V c 5 t = V c main_call0_v78 := by
  obtain ⟨-, -, -, -, -, -, -, -, -, -, e0, e1, -⟩ := idx_facts1 t
  funext j
  obtain ⟨a, b, rfl⟩ : ∃ (a : Fin 1) (b : Fin 128), j = ix2 a b := ⟨j 0, j 1, eq_ix2 j⟩
  unfold iblk1
  show V c main_call0_v78 (((cfg1.win 5).blk t).view.emb (ix2 a b)) = V c main_call0_v78 (ix2 a b)
  refine congrArg _ (funext fun ax => Fin.ext ?_)
  match ax with
  | ⟨0, _⟩ => show win1_5.index t (0 : Fin 2) * 1 + 1 * a.val = a.val; rw [e0, Nat.zero_mul, Nat.zero_add, Nat.one_mul]
  | ⟨1, _⟩ => show win1_5.index t (1 : Fin 2) * 128 + 1 * b.val = b.val; rw [e1, Nat.zero_mul, Nat.zero_add, Nat.one_mul]

/-- Where entry `(p, q)` of the output window's block at `t` sits in the output array. -/
theorem emb1_6 (t : Fin cfg1.N) (p : Fin 4000) (q : Fin 128) :
    ((cfg1.win 6).blk t).view.emb (ix2 p q) = ix2 (arow1 t p) q := by
  obtain ⟨-, -, -, -, -, -, -, -, -, -, -, -, e0, e1⟩ := idx_facts1 t
  refine funext fun a => Fin.ext ?_
  match a with
  | ⟨0, _⟩ => show win1_6.index t (0 : Fin 2) * 4000 + 1 * p.val = t.val * 4000 + p.val; rw [e0, Nat.one_mul]
  | ⟨1, _⟩ => show win1_6.index t (1 : Fin 2) * 128 + 1 * q.val = q.val; rw [e1, Nat.zero_mul, Nat.zero_add, Nat.one_mul]

/-- The layer of point `t`'s blocks, at an entry of the block, is the layer of the arrays at the entry's place in
    the output array: the layer's row `r` reads row `r` of the row arguments only. -/
theorem layer1_blk (c : Dev nD) (t : Fin cfg1.N) (j : S4000x128.Idx) :
    fused2 (iblk1 V c 0 t) (iblk1 V c 1 t) (iblk1 V c 2 t) (iblk1 V c 3 t) (iblk1 V c 4 t) (iblk1 V c 5 t)
        (Ideal.ofBits .f32 0x00000000#32) j
      = fused2 (V c main_arg1) (V c main_call0_v61) (V c main_call0_v26) (V c main_call0_v73) (V c main_call0_v75)
          (V c main_call0_v78) (Ideal.ofBits .f32 0x00000000#32) (((cfg1.win 6).blk t).view.emb j) := by
  obtain ⟨p, q, rfl⟩ : ∃ (p : Fin 4000) (q : Fin 128), j = ix2 p q := ⟨j 0, j 1, eq_ix2 j⟩
  rw [emb1_6, blk1_3, blk1_4, blk1_5]
  exact fused2_row _ _ _ _ _ _ _ _ _ _ p (arow1 t p) (blk1_0 V c t p) (blk1_1 V c t p) (blk1_2 V c t p) q

/-- An index of the output array is in point `t`'s block iff each coordinate is in the block's range on its axis. -/
theorem mem_blk1_6 (t : Fin cfg1.N) (i : S100000x128.Idx) :
    i ∈ ((cfg1.win 6).blk t).view.set ↔ ∀ a : Fin 2, win1_6.index t a * S4000x128.size a ≤ (i a).val
      ∧ (i a).val < win1_6.index t a * S4000x128.size a + S4000x128.size a := by
  show i ∈ ((View.whole main_call0_v79).slice (win1_6.rect t)).set ↔ _
  rw [View.set_slice_whole, Rect.mem_set_unit]
  exact Iff.rfl

/-- The 25 blocks of 4000 rows tile the 100000 rows: row `r` is in the block of point `r / 4000`. -/
theorem cover1_arr (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ : ∃ t : Fin cfg1.N, t.val = (i 0).val / 4000 :=
    ⟨⟨(i 0).val / 4000, lt_of_lt_of_eq (by omega : (i 0).val / 4000 < 25) N_1.symm⟩, rfl⟩
  obtain ⟨-, -, -, -, -, -, -, -, -, -, -, -, e0, e1⟩ := idx_facts1 t
  refine ⟨t, flush1_6 t, ?_⟩
  rw [mem_blk1_6]
  intro a
  match a with
  | ⟨0, _⟩ =>
    show win1_6.index t (0 : Fin 2) * 4000 ≤ (i 0).val ∧ (i 0).val < win1_6.index t (0 : Fin 2) * 4000 + 4000
    rw [e0, ht]
    omega
  | ⟨1, _⟩ =>
    show win1_6.index t (1 : Fin 2) * 128 ≤ (i 1).val ∧ (i 1).val < win1_6.index t (1 : Fin 2) * 128 + 128
    rw [e1]
    omega

/-- Region 1's output array after the region: the two-term layer of the arrays the region finds. -/
theorem arr1 (c : Dev nD) :
    (dat1 (F := Ideal) V c).arrAt 6 cfg1.N
      = fused2 (V c main_arg1) (V c main_call0_v61) (V c main_call0_v26) (V c main_call0_v73) (V c main_call0_v75)
          (V c main_call0_v78) (Ideal.ofBits .f32 0x00000000#32) := by
  refine (dat1 (F := Ideal) V c).arrAt_eq_of_cover 6 _ (fun t _ => ?flushed) ?cover
  case flushed =>
    show (cfg1.win 6).cut (grid1.coords t) ((dat1 V c).after 6 t) = _
    rw [after1_6, out1_6_eq]
    funext j
    exact layer1_blk V c t j
  case cover =>
    intro i
    exact cover1_arr i

end Cert.KernelIdeal.Val

end
-- ==== Proof.KReg2.lean ====
/-
  Pallas call 2: layer 1's paper features and the output head, fused.

  At every grid point the body forms layer 1's features of a block of 4000 paper rows as in layer 0, then multiplies the
  block of layer 0's features and the new features into the two halves of the head matrix and adds the head bias. A row
  of the result depends only on the same row of the row operands, so the 50 blocks written back are the restrictions of
  one whole-array function, and they tile the 200000 × 40 output array.
-/
import proofs.«404806_j34548716929227_3_alg».proof.Proof.Gen.KernelIdeal.Frame
import proofs.«404806_j34548716929227_3_alg».proof.Proof.Spec

set_option maxRecDepth 16384

noncomputable section

namespace Cert.KernelIdeal.Val

open Cert.KernelIdeal Cert.KernelIdeal.Gen Idealize.ShloMosaic Idealize.ShloMosaic.TcCoe Idealize.ShloMosaic.ValueIdx
open Idealize.SL.Sem Idealize.ShloMosaic.Pipeline Cert.Spec Cert.Lib

variable (V : (c : Dev nD) → (b : Ref sig .tc) → Buf (Elt Ideal) ((c : Thread nD τ).loc b))

/-- The zero offsets of a whole-block access, spelt as a constant function. -/
theorem zero_off2 : (![0, 0] : Fin 2 → Nat) = fun _ => 0 := funext fun a => by fin_cases a <;> rfl

/-- The hidden layer's product contracts axis 1 of a 4000 × 128 block with axis 0 of a 128 × 128 matrix. -/
theorem dotHidden_eq : dot_S4000x128_S128x128_S4000x128_1_0_0_1_n_n = DotDims.plain 4000 128 128 := rfl

/-- The head's product contracts axis 1 of a 4000 × 128 block with axis 0 of a 128 × 40 matrix. -/
theorem dotHead_eq : dot_S4000x128_S128x40_S4000x40_1_0_0_1_n_n = DotDims.plain 4000 128 40 := rfl

/-- The second layer's row sums before the positive part, at an entry of the block: the root product, the two relation
    products of the rows scaled by their columns, and the bias row's entry. -/
theorem pay3_apply (x0 : Vec Ideal S4000x128 .bf16) (x3 : Vec Ideal S4000x1 .f32) (x1 : Vec Ideal S4000x128 .f32)
    (x4 : Vec Ideal S4000x1 .f32) (x2 : Vec Ideal S4000x128 .f32) (x5 x6 x7 : Vec Ideal S128x128 .f32)
    (x8 : Vec Ideal S1x128 .f32) (p : Fin 4000) (q : Fin 128) :
    k2_pay3 (F := Ideal) x0 x3 x1 x4 x2 x5 x6 x7 x8 (ix2 p q)
      = (((∑ k : Fin 128, x0 (ix2 p k) * x5 (ix2 k q))
          + ∑ k : Fin 128, (x1 (ix2 p k) * x3 (ix2 p (0 : Fin 1))) * x6 (ix2 k q))
          + ∑ k : Fin 128, (x2 (ix2 p k) * x4 (ix2 p (0 : Fin 1))) * x7 (ix2 k q)) + x8 (ix2 (0 : Fin 1) q) := by
  unfold k2_pay3 k2_pay2
  dsimp only [matmul]
  rw [addf_apply, addf_apply, addf_apply, dotHidden_eq, matmul_plain_zero_apply, matmul_plain_zero_apply,
    matmul_plain_zero_apply, broadcastTo_row_apply]
  simp only [shapeCast_self, truncf_apply, mulf_apply, broadcastTo_a1_ab_apply]

/-- The head at an entry of the block, over any hidden block `h` and its floor `z`: the block's row against the first head
    matrix, the floored hidden row against the second, and the head bias row's entry. -/
theorem k2_pay1_apply (x0 : Vec Ideal S4000x128 .bf16) (h z : FVec Ideal S4000x128 .f32) (x9 x10 : Vec Ideal S128x40 .f32)
    (x11 : Vec Ideal S1x40 .f32) (p : Fin 4000) (q : Fin 40) :
    k2_pay1 (F := Ideal) (k2_pay2 x0) h z x9 x10 x11 (ix2 p q)
      = ((∑ k : Fin 128, x0 (ix2 p k) * x9 (ix2 k q)) + ∑ k : Fin 128, max (h (ix2 p k)) (z (ix2 p k)) * x10 (ix2 k q))
          + x11 (ix2 (0 : Fin 1) q) := by
  unfold k2_pay1 k2_pay2
  dsimp only [matmul]
  rw [addf_apply, addf_apply, dotHead_eq, matmul_plain_zero_apply, matmul_plain_zero_apply, broadcastTo_row_apply]
  simp only [shapeCast_self, truncf_apply, maximumf_apply]

/-- The floor of the positive part, at any entry: the extended real of the zero word. -/
theorem pay4_apply (i : S4000x128.Idx) : k2_pay4 (F := Ideal) i = Ideal.ofBits .f32 0x00000000#32 := rfl

/-- Region 2's body on a block: the head over the block's rows and their three-term layer. -/
theorem out2_12_eq (x0 : Vec Ideal S4000x128 .bf16) (x1 x2 : Vec Ideal S4000x128 .f32) (x3 x4 : Vec Ideal S4000x1 .f32)
    (x5 x6 x7 : Vec Ideal S128x128 .f32) (x8 : Vec Ideal S1x128 .f32) (x9 x10 : Vec Ideal S128x40 .f32) (x11 : Vec Ideal S1x40 .f32) :
    out2_12 (F := Ideal) x0 x1 x2 x3 x4 x5 x6 x7 x8 x9 x10 x11
      = headArr x0 (fused3 x0 x1 x2 x3 x4 x5 x6 x7 x8 (Ideal.ofBits .f32 0x00000000#32)) x9 x10 x11 := by
  unfold out2_12
  rw [View.canon_unit_zero zero_off2]
  simp only [View.ld_unit_zero (S := S4000x128) zero_off2, View.ld_unit_zero (S := S4000x1) zero_off2,
    View.ld_unit_zero (S := S128x128) zero_off2, View.ld_unit_zero (S := S1x128) zero_off2,
    View.ld_unit_zero (S := S128x40) zero_off2, View.ld_unit_zero (S := S1x40) zero_off2]
  funext j
  obtain ⟨p, q, rfl⟩ : ∃ (p : Fin 4000) (q : Fin 40), j = ix2 p q := ⟨j 0, j 1, eq_ix2 j⟩
  rw [k2_pay1_apply, headArr_apply]
  -- the floored hidden row is the layer's row
  have hrow : ∀ k : Fin 128,
      max (k2_pay3 (F := Ideal) x0 x3 x1 x4 x2 x5 x6 x7 x8 (ix2 p k)) (k2_pay4 (F := Ideal) (ix2 p k))
        = fused3 x0 x1 x2 x3 x4 x5 x6 x7 x8 (Ideal.ofBits .f32 0x00000000#32) (ix2 p k) := fun k => by
    rw [pay3_apply, pay4_apply, fused3_apply]
  simp only [hrow]

/-- The printed index maps over the grid: the five row windows and the output window are at block `t` on the row axis
    and block 0 on the column axis; the seven matrix and bias windows are at block 0 on both axes. -/
theorem idx_facts2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0)
    ∧ (win2_4.index t (0 : Fin 2) = t.val ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = 0 ∧ win2_9.index t (1 : Fin 2) = 0)
    ∧ (win2_10.index t (0 : Fin 2) = 0 ∧ win2_10.index t (1 : Fin 2) = 0)
    ∧ (win2_11.index t (0 : Fin 2) = 0 ∧ win2_11.index t (1 : Fin 2) = 0)
    ∧ (win2_12.index t (0 : Fin 2) = t.val ∧ win2_12.index t (1 : Fin 2) = 0) :=
  (by decide +kernel : ∀ t : Fin grid2.N, _)

/-- Window 0's block at point `t`: row `p` of the block is row `4000 t + p` of its array. -/
theorem blk0_apply (c : Dev nD) (t : Fin cfg2.N) (p : Fin 4000) (k : Fin 128) (r : Fin 200000)
    (hr : r.val = t.val * 4000 + p.val) :
    iblk2 (F := Ideal) V c 0 t (ix2 p k) = V c main_call0_v71 (ix2 r k) := by
  obtain ⟨e0, e1⟩ := (idx_facts2 t).1
  unfold iblk2
  show V c main_call0_v71 (((cfg2.win 0).blk t).view.emb (ix2 p k)) = V c main_call0_v71 (ix2 r k)
  refine congrArg _ (funext fun a => Fin.ext ?_)
  match a with
  | ⟨0, _⟩ => show win2_0.index t (0 : Fin 2) * 4000 + 1 * p.val = r.val; rw [e0, hr]; omega
  | ⟨1, _⟩ => show win2_0.index t (1 : Fin 2) * 128 + 1 * k.val = k.val; rw [e1]; omega

/-- Window 1's block at point `t`: row `p` of the block is row `4000 t + p` of its array. -/
theorem blk1_apply (c : Dev nD) (t : Fin cfg2.N) (p : Fin 4000) (k : Fin 128) (r : Fin 200000)
    (hr : r.val = t.val * 4000 + p.val) :
    iblk2 (F := Ideal) V c 1 t (ix2 p k) = V c main_call0_v90 (ix2 r k) := by
  obtain ⟨e0, e1⟩ := (idx_facts2 t).2.1
  unfold iblk2
  show V c main_call0_v90 (((cfg2.win 1).blk t).view.emb (ix2 p k)) = V c main_call0_v90 (ix2 r k)
  refine congrArg _ (funext fun a => Fin.ext ?_)
  match a with
  | ⟨0, _⟩ => show win2_1.index t (0 : Fin 2) * 4000 + 1 * p.val = r.val; rw [e0, hr]; omega
  | ⟨1, _⟩ => show win2_1.index t (1 : Fin 2) * 128 + 1 * k.val = k.val; rw [e1]; omega

/-- Window 2's block at point `t`: row `p` of the block is row `4000 t + p` of its array. -/
theorem blk2_apply (c : Dev nD) (t : Fin cfg2.N) (p : Fin 4000) (k : Fin 128) (r : Fin 200000)
    (hr : r.val = t.val * 4000 + p.val) :
    iblk2 (F := Ideal) V c 2 t (ix2 p k) = V c main_call0_v101 (ix2 r k) := by
  obtain ⟨e0, e1⟩ := (idx_facts2 t).2.2.1
  unfold iblk2
  show V c main_call0_v101 (((cfg2.win 2).blk t).view.emb (ix2 p k)) = V c main_call0_v101 (ix2 r k)
  refine congrArg _ (funext fun a => Fin.ext ?_)
  match a with
  | ⟨0, _⟩ => show win2_2.index t (0 : Fin 2) * 4000 + 1 * p.val = r.val; rw [e0, hr]; omega
  | ⟨1, _⟩ => show win2_2.index t (1 : Fin 2) * 128 + 1 * k.val = k.val; rw [e1]; omega

/-- Window 3's block at point `t`: row `p` of the block is row `4000 t + p` of its array. -/
theorem blk3_apply (c : Dev nD) (t : Fin cfg2.N) (p : Fin 4000) (k : Fin 1) (r : Fin 200000)
    (hr : r.val = t.val * 4000 + p.val) :
    iblk2 (F := Ideal) V c 3 t (ix2 p k) = V c main_call0_v8 (ix2 r k) := by
  obtain ⟨e0, e1⟩ := (idx_facts2 t).2.2.2.1
  unfold iblk2
  show V c main_call0_v8 (((cfg2.win 3).blk t).view.emb (ix2 p k)) = V c main_call0_v8 (ix2 r k)
  refine congrArg _ (funext fun a => Fin.ext ?_)
  match a with
  | ⟨0, _⟩ => show win2_3.index t (0 : Fin 2) * 4000 + 1 * p.val = r.val; rw [e0, hr]; omega
  | ⟨1, _⟩ => show win2_3.index t (1 : Fin 2) * 1 + 1 * k.val = k.val; rw [e1]; omega

/-- Window 4's block at point `t`: row `p` of the block is row `4000 t + p` of its array. -/
theorem blk4_apply (c : Dev nD) (t : Fin cfg2.N) (p : Fin 4000) (k : Fin 1) (r : Fin 200000)
    (hr : r.val = t.val * 4000 + p.val) :
    iblk2 (F := Ideal) V c 4 t (ix2 p k) = V c main_call0_v17 (ix2 r k) := by
  obtain ⟨e0, e1⟩ := (idx_facts2 t).2.2.2.2.1
  unfold iblk2
  show V c main_call0_v17 (((cfg2.win 4).blk t).view.emb (ix2 p k)) = V c main_call0_v17 (ix2 r k)
  refine congrArg _ (funext fun a => Fin.ext ?_)
  match a with
  | ⟨0, _⟩ => show win2_4.index t (0 : Fin 2) * 4000 + 1 * p.val = r.val; rw [e0, hr]; omega
  | ⟨1, _⟩ => show win2_4.index t (1 : Fin 2) * 1 + 1 * k.val = k.val; rw [e1]; omega

/-- Window 5's block at every point is its whole array. -/
theorem blk5_eq (c : Dev nD) (t : Fin cfg2.N) :
    (iblk2 (F := Ideal) V c 5 t : Vec Ideal S128x128 .f32) = V c main_call0_v105 := by
  obtain ⟨e0, e1⟩ := (idx_facts2 t).2.2.2.2.2.1
  funext j
  unfold iblk2
  show V c main_call0_v105 (((cfg2.win 5).blk t).view.emb j) = V c main_call0_v105 j
  refine congrArg _ (funext fun a => Fin.ext ?_)
  match a with
  | ⟨0, _⟩ => show win2_5.index t (0 : Fin 2) * 128 + 1 * (j 0).val = (j 0).val; rw [e0]; omega
  | ⟨1, _⟩ => show win2_5.index t (1 : Fin 2) * 128 + 1 * (j 1).val = (j 1).val; rw [e1]; omega

/-- Window 6's block at every point is its whole array. -/
theorem blk6_eq (c : Dev nD) (t : Fin cfg2.N) :
    (iblk2 (F := Ideal) V c 6 t : Vec Ideal S128x128 .f32) = V c main_call0_v107 := by
  obtain ⟨e0, e1⟩ := (idx_facts2 t).2.2.2.2.2.2.1
  funext j
  unfold iblk2
  show V c main_call0_v107 (((cfg2.win 6).blk t).view.emb j) = V c main_call0_v107 j
  refine congrArg _ (funext fun a => Fin.ext ?_)
  match a with
  | ⟨0, _⟩ => show win2_6.index t (0 : Fin 2) * 128 + 1 * (j 0).val = (j 0).val; rw [e0]; omega
  | ⟨1, _⟩ => show win2_6.index t (1 : Fin 2) * 128 + 1 * (j 1).val = (j 1).val; rw [e1]; omega

/-- Window 7's block at every point is its whole array. -/
theorem blk7_eq (c : Dev nD) (t : Fin cfg2.N) :
    (iblk2 (F := Ideal) V c 7 t : Vec Ideal S128x128 .f32) = V c main_call0_v109 := by
  obtain ⟨e0, e1⟩ := (idx_facts2 t).2.2.2.2.2.2.2.1
  funext j
  unfold iblk2
  show V c main_call0_v109 (((cfg2.win 7).blk t).view.emb j) = V c main_call0_v109 j
  refine congrArg _ (funext fun a => Fin.ext ?_)
  match a with
  | ⟨0, _⟩ => show win2_7.index t (0 : Fin 2) * 128 + 1 * (j 0).val = (j 0).val; rw [e0]; omega
  | ⟨1, _⟩ => show win2_7.index t (1 : Fin 2) * 128 + 1 * (j 1).val = (j 1).val; rw [e1]; omega

/-- Window 8's block at every point is its whole array. -/
theorem blk8_eq (c : Dev nD) (t : Fin cfg2.N) :
    (iblk2 (F := Ideal) V c 8 t : Vec Ideal S1x128 .f32) = V c main_call0_v112 := by
  obtain ⟨e0, e1⟩ := (idx_facts2 t).2.2.2.2.2.2.2.2.1
  funext j
  unfold iblk2
  show V c main_call0_v112 (((cfg2.win 8).blk t).view.emb j) = V c main_call0_v112 j
  refine congrArg _ (funext fun a => Fin.ext ?_)
  match a with
  | ⟨0, _⟩ => show win2_8.index t (0 : Fin 2) * 1 + 1 * (j 0).val = (j 0).val; rw [e0]; omega
  | ⟨1, _⟩ => show win2_8.index t (1 : Fin 2) * 128 + 1 * (j 1).val = (j 1).val; rw [e1]; omega

/-- Window 9's block at every point is its whole array. -/
theorem blk9_eq (c : Dev nD) (t : Fin cfg2.N) :
    (iblk2 (F := Ideal) V c 9 t : Vec Ideal S128x40 .f32) = V c main_call0_v102 := by
  obtain ⟨e0, e1⟩ := (idx_facts2 t).2.2.2.2.2.2.2.2.2.1
  funext j
  unfold iblk2
  show V c main_call0_v102 (((cfg2.win 9).blk t).view.emb j) = V c main_call0_v102 j
  refine congrArg _ (funext fun a => Fin.ext ?_)
  match a with
  | ⟨0, _⟩ => show win2_9.index t (0 : Fin 2) * 128 + 1 * (j 0).val = (j 0).val; rw [e0]; omega
  | ⟨1, _⟩ => show win2_9.index t (1 : Fin 2) * 40 + 1 * (j 1).val = (j 1).val; rw [e1]; omega

/-- Window 10's block at every point is its whole array. -/
theorem blk10_eq (c : Dev nD) (t : Fin cfg2.N) :
    (iblk2 (F := Ideal) V c 10 t : Vec Ideal S128x40 .f32) = V c main_call0_v103 := by
  obtain ⟨e0, e1⟩ := (idx_facts2 t).2.2.2.2.2.2.2.2.2.2.1
  funext j
  unfold iblk2
  show V c main_call0_v103 (((cfg2.win 10).blk t).view.emb j) = V c main_call0_v103 j
  refine congrArg _ (funext fun a => Fin.ext ?_)
  match a with
  | ⟨0, _⟩ => show win2_10.index t (0 : Fin 2) * 128 + 1 * (j 0).val = (j 0).val; rw [e0]; omega
  | ⟨1, _⟩ => show win2_10.index t (1 : Fin 2) * 40 + 1 * (j 1).val = (j 1).val; rw [e1]; omega

/-- Window 11's block at every point is its whole array. -/
theorem blk11_eq (c : Dev nD) (t : Fin cfg2.N) :
    (iblk2 (F := Ideal) V c 11 t : Vec Ideal S1x40 .f32) = V c main_call0_v113 := by
  obtain ⟨e0, e1⟩ := (idx_facts2 t).2.2.2.2.2.2.2.2.2.2.2.1
  funext j
  unfold iblk2
  show V c main_call0_v113 (((cfg2.win 11).blk t).view.emb j) = V c main_call0_v113 j
  refine congrArg _ (funext fun a => Fin.ext ?_)
  match a with
  | ⟨0, _⟩ => show win2_11.index t (0 : Fin 2) * 1 + 1 * (j 0).val = (j 0).val; rw [e0]; omega
  | ⟨1, _⟩ => show win2_11.index t (1 : Fin 2) * 40 + 1 * (j 1).val = (j 1).val; rw [e1]; omega

/-- What point `t` writes back is block `t` of the head over the whole arrays: the layer acts row by row, and the rows of
    the point's blocks are rows `4000 t … 4000 t + 3999` of the arrays. -/
theorem flushed2_12_eq (c : Dev nD) (t : Fin cfg2.N) :
    (dat2 (F := Ideal) V c).flushed 12 t
      = ((cfg2.win 12).blk t).view.read (Elt Ideal)
          (headArr (V c main_call0_v71)
            (fused3 (V c main_call0_v71) (V c main_call0_v90) (V c main_call0_v101) (V c main_call0_v8) (V c main_call0_v17)
              (V c main_call0_v105) (V c main_call0_v107) (V c main_call0_v109) (V c main_call0_v112) (Ideal.ofBits .f32 0x00000000#32))
            (V c main_call0_v102) (V c main_call0_v103) (V c main_call0_v113)) := by
  show (cfg2.win 12).cut (grid2.coords t) ((dat2 V c).after 12 t) = _
  rw [after2_12, out2_12_eq, blk5_eq, blk6_eq, blk7_eq, blk8_eq, blk9_eq, blk10_eq, blk11_eq]
  funext j
  obtain ⟨p, q, rfl⟩ : ∃ (p : Fin 4000) (q : Fin 40), j = ix2 p q := ⟨j 0, j 1, eq_ix2 j⟩
  -- the array row under block row `p`
  have ht : t.val < 50 := lt_of_lt_of_eq t.isLt N_2
  have hp : p.val < 4000 := p.isLt
  have hr : t.val * 4000 + p.val < 200000 := by omega
  have hemb : ((cfg2.win 12).blk t).view.emb (ix2 p q) = ix2 (⟨t.val * 4000 + p.val, hr⟩ : Fin 200000) q := by
    obtain ⟨e0, e1⟩ := (idx_facts2 t).2.2.2.2.2.2.2.2.2.2.2.2
    funext a
    apply Fin.ext
    match a with
    | ⟨0, _⟩ => show win2_12.index t (0 : Fin 2) * 4000 + 1 * p.val = t.val * 4000 + p.val; rw [e0]; omega
    | ⟨1, _⟩ => show win2_12.index t (1 : Fin 2) * 40 + 1 * q.val = q.val; rw [e1]; omega
  show headArr (iblk2 V c 0 t)
        (fused3 (iblk2 V c 0 t) (iblk2 V c 1 t) (iblk2 V c 2 t) (iblk2 V c 3 t) (iblk2 V c 4 t) (V c main_call0_v105)
          (V c main_call0_v107) (V c main_call0_v109) (V c main_call0_v112) (Ideal.ofBits .f32 0x00000000#32))
        (V c main_call0_v102) (V c main_call0_v103) (V c main_call0_v113) (ix2 p q)
      = headArr (V c main_call0_v71)
        (fused3 (V c main_call0_v71) (V c main_call0_v90) (V c main_call0_v101) (V c main_call0_v8) (V c main_call0_v17)
          (V c main_call0_v105) (V c main_call0_v107) (V c main_call0_v109) (V c main_call0_v112)
          (Ideal.ofBits .f32 0x00000000#32))
        (V c main_call0_v102) (V c main_call0_v103) (V c main_call0_v113) (((cfg2.win 12).blk t).view.emb (ix2 p q))
  rw [hemb]
  exact headArr_row _ _ _ _ _ _ _ p ⟨t.val * 4000 + p.val, hr⟩ (fun k => blk0_apply V c t p k _ rfl)
    (fun k => fused3_row _ _ _ _ _ _ _ _ _ _ _ _ _ _ _ p ⟨t.val * 4000 + p.val, hr⟩
      (fun k' => blk0_apply V c t p k' _ rfl) (fun k' => blk1_apply V c t p k' _ rfl) (fun k' => blk2_apply V c t p k' _ rfl)
      (blk3_apply V c t p 0 _ rfl) (blk4_apply V c t p 0 _ rfl) k) q

/-- Every row of the output array is in the block of the point `row / 4000`, which writes back. -/
theorem rows_covered (i : S200000x40.Idx) :
    ∃ t : Fin cfg2.N, (cfg2.win 12).flush t = true ∧ i ∈ ((cfg2.win 12).blk t).view.set := by
  have hi0 : (i 0).val < 200000 := (i 0).isLt
  have hi1 : (i 1).val < 40 := (i 1).isLt
  have hN : cfg2.N = 50 := N_2
  have hq : (i 0).val / 4000 < cfg2.N := by rw [hN]; omega
  refine ⟨⟨(i 0).val / 4000, hq⟩, flush2_12 _, ?_⟩
  obtain ⟨e0, e1⟩ := (idx_facts2 ⟨(i 0).val / 4000, hq⟩).2.2.2.2.2.2.2.2.2.2.2.2
  show i ∈ ((View.whole main_v0_0).slice (win2_12.rect ⟨(i 0).val / 4000, hq⟩)).set
  rw [View.set_slice_whole, Rect.mem_set_unit]
  intro a
  match a with
  | ⟨0, _⟩ =>
    show win2_12.index ⟨(i 0).val / 4000, hq⟩ (0 : Fin 2) * 4000 ≤ (i 0).val
      ∧ (i 0).val < win2_12.index ⟨(i 0).val / 4000, hq⟩ (0 : Fin 2) * 4000 + 4000
    rw [e0]
    show (i 0).val / 4000 * 4000 ≤ (i 0).val ∧ (i 0).val < (i 0).val / 4000 * 4000 + 4000
    omega
  | ⟨1, _⟩ =>
    show win2_12.index ⟨(i 0).val / 4000, hq⟩ (1 : Fin 2) * 40 ≤ (i 1).val
      ∧ (i 1).val < win2_12.index ⟨(i 0).val / 4000, hq⟩ (1 : Fin 2) * 40 + 40
    rw [e1]
    omega

/-- Region 2's output array after the region: the head over the arrays the region finds. -/
theorem arr2 (c : Dev nD) :
    (dat2 (F := Ideal) V c).arrAt 12 cfg2.N
      = headArr (V c main_call0_v71)
          (fused3 (V c main_call0_v71) (V c main_call0_v90) (V c main_call0_v101) (V c main_call0_v8) (V c main_call0_v17)
            (V c main_call0_v105) (V c main_call0_v107) (V c main_call0_v109) (V c main_call0_v112) (Ideal.ofBits .f32 0x00000000#32))
          (V c main_call0_v102) (V c main_call0_v103) (V c main_call0_v113) :=
  (dat2 (F := Ideal) V c).arrAt_eq_of_cover 12 _ (fun t _ => flushed2_12_eq V c t) rows_covered

end Cert.KernelIdeal.Val

end
-- ==== Proof.KValue.lean ====
/-
  The two result buffers at the last boundary of the program, as functions of the launch contents of the arguments.

  The contents of the buffers are followed through the program's segments. A stretch of host operations leaves each
  buffer it writes at a named host-side function of what it finds and every other buffer as found; a kernel region
  leaves its output array at the layer function of the arrays it finds, its input arrays and every buffer it does not
  hold as found. No segment writes an argument array, so every read of one is a read of its launch contents. Region 0's
  output is then layer 0's paper features, region 1's is layer 0's author features, and region 2's is the head over
  layer 0's paper features and layer 1's, which is the program's result function.
-/
import proofs.«404806_j34548716929227_3_alg».proof.Proof.Gen.KernelIdeal.Frame
import proofs.«404806_j34548716929227_3_alg».proof.Proof.KOut
import proofs.«404806_j34548716929227_3_alg».proof.Proof.KHost
import proofs.«404806_j34548716929227_3_alg».proof.Proof.KReg0
import proofs.«404806_j34548716929227_3_alg».proof.Proof.KReg1
import proofs.«404806_j34548716929227_3_alg».proof.Proof.KReg2
import Idealize.ShloMosaic.Lib.StableHlo.Run

set_option maxRecDepth 16384

noncomputable section

namespace Cert.KernelIdeal.Val

open Cert.KernelIdeal Cert.KernelIdeal.Gen Idealize.ShloMosaic Idealize.ShloMosaic.TcCoe
open Idealize.SL.Sem Idealize.ShloMosaic.Pipeline Cert.Spec
open Cert.KernelIdeal.Facts₀

variable (m : (ℓ : Loc nD τ sig) → Buf (Elt Ideal) ℓ) (ρ : Dev nD → PrngReg)

/-! ## The argument arrays' contents, and the two layer-0 feature arrays, of one core's launch memory -/

/-- Layer 0's paper features of core `c`'s argument arrays as launched. -/
abbrev hsL (c : Dev nD) : Arr 200000 128 :=
  hs0 (m ((c : Thread nD τ).loc main_arg0)) (m ((c : Thread nD τ).loc main_arg1)) (m ((c : Thread nD τ).loc main_arg3)) (m ((c : Thread nD τ).loc main_arg4)) (m ((c : Thread nD τ).loc main_arg7)) (m ((c : Thread nD τ).loc main_arg10)) (m ((c : Thread nD τ).loc main_arg15)) (m ((c : Thread nD τ).loc main_arg16)) (m ((c : Thread nD τ).loc main_arg17)) (m ((c : Thread nD τ).loc main_arg18))

/-- Layer 0's author features of core `c`'s argument arrays as launched. -/
abbrev xaL (c : Dev nD) : Arr 100000 128 :=
  xa1 (m ((c : Thread nD τ).loc main_arg0)) (m ((c : Thread nD τ).loc main_arg1)) (m ((c : Thread nD τ).loc main_arg5)) (m ((c : Thread nD τ).loc main_arg8)) (m ((c : Thread nD τ).loc main_arg11)) (m ((c : Thread nD τ).loc main_arg19)) (m ((c : Thread nD τ).loc main_arg20))

/-! ## The argument arrays keep their launch contents up to the boundary where they are read -/

theorem W1_arg0 (c : Dev nD) : W1 (F := Ideal) m ρ c (Proc.devRef .tc main_arg0) = m ((c : Thread nD τ).loc main_arg0) := h0_keep_arg0 (W0 m ρ c)

theorem W2_arg5 (c : Dev nD) : W2 (F := Ideal) m ρ c (Proc.devRef .tc main_arg5) = m ((c : Thread nD τ).loc main_arg5) :=
  (W2_of_ne m ρ c main_arg5 (by decide)).trans (h0_keep_arg5 (W0 m ρ c))

theorem W2_arg8 (c : Dev nD) : W2 (F := Ideal) m ρ c (Proc.devRef .tc main_arg8) = m ((c : Thread nD τ).loc main_arg8) :=
  (W2_of_ne m ρ c main_arg8 (by decide)).trans (h0_keep_arg8 (W0 m ρ c))

theorem W2_arg11 (c : Dev nD) : W2 (F := Ideal) m ρ c (Proc.devRef .tc main_arg11) = m ((c : Thread nD τ).loc main_arg11) :=
  (W2_of_ne m ρ c main_arg11 (by decide)).trans (h0_keep_arg11 (W0 m ρ c))

theorem W3_arg1 (c : Dev nD) : W3 (F := Ideal) m ρ c (Proc.devRef .tc main_arg1) = m ((c : Thread nD τ).loc main_arg1) :=
  (h1_keep_arg1 (W2 m ρ c)).trans ((W2_of_ne m ρ c main_arg1 (by decide)).trans (h0_keep_arg1 (W0 m ρ c)))

theorem W4_arg3 (c : Dev nD) : W4 (F := Ideal) m ρ c (Proc.devRef .tc main_arg3) = m ((c : Thread nD τ).loc main_arg3) :=
  (W4_of_ne m ρ c main_arg3 (by decide)).trans ((h1_keep_arg3 (W2 m ρ c)).trans
    ((W2_of_ne m ρ c main_arg3 (by decide)).trans (h0_keep_arg3 (W0 m ρ c))))

theorem W4_arg4 (c : Dev nD) : W4 (F := Ideal) m ρ c (Proc.devRef .tc main_arg4) = m ((c : Thread nD τ).loc main_arg4) :=
  (W4_of_ne m ρ c main_arg4 (by decide)).trans ((h1_keep_arg4 (W2 m ρ c)).trans
    ((W2_of_ne m ρ c main_arg4 (by decide)).trans (h0_keep_arg4 (W0 m ρ c))))

theorem W4_arg7 (c : Dev nD) : W4 (F := Ideal) m ρ c (Proc.devRef .tc main_arg7) = m ((c : Thread nD τ).loc main_arg7) :=
  (W4_of_ne m ρ c main_arg7 (by decide)).trans ((h1_keep_arg7 (W2 m ρ c)).trans
    ((W2_of_ne m ρ c main_arg7 (by decide)).trans (h0_keep_arg7 (W0 m ρ c))))

theorem W4_arg10 (c : Dev nD) : W4 (F := Ideal) m ρ c (Proc.devRef .tc main_arg10) = m ((c : Thread nD τ).loc main_arg10) :=
  (W4_of_ne m ρ c main_arg10 (by decide)).trans ((h1_keep_arg10 (W2 m ρ c)).trans
    ((W2_of_ne m ρ c main_arg10 (by decide)).trans (h0_keep_arg10 (W0 m ρ c))))

theorem W4_arg13 (c : Dev nD) : W4 (F := Ideal) m ρ c (Proc.devRef .tc main_arg13) = m ((c : Thread nD τ).loc main_arg13) :=
  (W4_of_ne m ρ c main_arg13 (by decide)).trans ((h1_keep_arg13 (W2 m ρ c)).trans
    ((W2_of_ne m ρ c main_arg13 (by decide)).trans (h0_keep_arg13 (W0 m ρ c))))

theorem W4_arg14 (c : Dev nD) : W4 (F := Ideal) m ρ c (Proc.devRef .tc main_arg14) = m ((c : Thread nD τ).loc main_arg14) :=
  (W4_of_ne m ρ c main_arg14 (by decide)).trans ((h1_keep_arg14 (W2 m ρ c)).trans
    ((W2_of_ne m ρ c main_arg14 (by decide)).trans (h0_keep_arg14 (W0 m ρ c))))

theorem W4_arg15 (c : Dev nD) : W4 (F := Ideal) m ρ c (Proc.devRef .tc main_arg15) = m ((c : Thread nD τ).loc main_arg15) :=
  (W4_of_ne m ρ c main_arg15 (by decide)).trans ((h1_keep_arg15 (W2 m ρ c)).trans
    ((W2_of_ne m ρ c main_arg15 (by decide)).trans (h0_keep_arg15 (W0 m ρ c))))

theorem W4_arg16 (c : Dev nD) : W4 (F := Ideal) m ρ c (Proc.devRef .tc main_arg16) = m ((c : Thread nD τ).loc main_arg16) :=
  (W4_of_ne m ρ c main_arg16 (by decide)).trans ((h1_keep_arg16 (W2 m ρ c)).trans
    ((W2_of_ne m ρ c main_arg16 (by decide)).trans (h0_keep_arg16 (W0 m ρ c))))

theorem W4_arg17 (c : Dev nD) : W4 (F := Ideal) m ρ c (Proc.devRef .tc main_arg17) = m ((c : Thread nD τ).loc main_arg17) :=
  (W4_of_ne m ρ c main_arg17 (by decide)).trans ((h1_keep_arg17 (W2 m ρ c)).trans
    ((W2_of_ne m ρ c main_arg17 (by decide)).trans (h0_keep_arg17 (W0 m ρ c))))

theorem W4_arg18 (c : Dev nD) : W4 (F := Ideal) m ρ c (Proc.devRef .tc main_arg18) = m ((c : Thread nD τ).loc main_arg18) :=
  (W4_of_ne m ρ c main_arg18 (by decide)).trans ((h1_keep_arg18 (W2 m ρ c)).trans
    ((W2_of_ne m ρ c main_arg18 (by decide)).trans (h0_keep_arg18 (W0 m ρ c))))

/-! ## Region 0's entry: the first stretch's results -/

theorem W1_v8 (c : Dev nD) : W1 (F := Ideal) m ρ c (Proc.devRef .tc main_call0_v8) = invP (F := Ideal) (capPP (F := Ideal) (m ((c : Thread nD τ).loc main_arg16))) := h0_v8 (W0 m ρ c)

theorem W1_v17 (c : Dev nD) : W1 (F := Ideal) m ρ c (Proc.devRef .tc main_call0_v17) = invP (F := Ideal) (capAP (F := Ideal) (m ((c : Thread nD τ).loc main_arg18))) := h0_v17 (W0 m ρ c)

theorem W1_v26 (c : Dev nD) : W1 (F := Ideal) m ρ c (Proc.devRef .tc main_call0_v26) = invA (F := Ideal) (capPA (F := Ideal) (m ((c : Thread nD τ).loc main_arg20))) := h0_v26 (W0 m ρ c)

theorem W1_v39 (c : Dev nD) : W1 (F := Ideal) m ρ c (Proc.devRef .tc main_call0_v39) = aggPP (F := Ideal) (m ((c : Thread nD τ).loc main_arg15)) (m ((c : Thread nD τ).loc main_arg16)) (truncf (F := Ideal) .bf16 (m ((c : Thread nD τ).loc main_arg0)) Cert.KernelIdeal.Facts₀.bitsLt_bf16_f32) := h0_v39 (W0 m ρ c)

theorem W1_v50 (c : Dev nD) : W1 (F := Ideal) m ρ c (Proc.devRef .tc main_call0_v50) = aggAP (F := Ideal) (m ((c : Thread nD τ).loc main_arg17)) (m ((c : Thread nD τ).loc main_arg18)) (truncf (F := Ideal) .bf16 (m ((c : Thread nD τ).loc main_arg1)) Cert.KernelIdeal.Facts₀.bitsLt_bf16_f32) := h0_v50 (W0 m ρ c)

theorem W1_v61 (c : Dev nD) : W1 (F := Ideal) m ρ c (Proc.devRef .tc main_call0_v61) = aggPA (F := Ideal) (m ((c : Thread nD τ).loc main_arg19)) (m ((c : Thread nD τ).loc main_arg20)) (truncf (F := Ideal) .bf16 (m ((c : Thread nD τ).loc main_arg0)) Cert.KernelIdeal.Facts₀.bitsLt_bf16_f32) := h0_v61 (W0 m ρ c)

theorem W1_v63 (c : Dev nD) : W1 (F := Ideal) m ρ c (Proc.devRef .tc main_call0_v63) = wmat0 (F := Ideal) (m ((c : Thread nD τ).loc main_arg7)) := h0_v63 (W0 m ρ c)

theorem W1_v65 (c : Dev nD) : W1 (F := Ideal) m ρ c (Proc.devRef .tc main_call0_v65) = wmat0 (F := Ideal) (m ((c : Thread nD τ).loc main_arg3)) := h0_v65 (W0 m ρ c)

theorem W1_v67 (c : Dev nD) : W1 (F := Ideal) m ρ c (Proc.devRef .tc main_call0_v67) = wmat0 (F := Ideal) (m ((c : Thread nD τ).loc main_arg4)) := h0_v67 (W0 m ρ c)

theorem W1_v70 (c : Dev nD) : W1 (F := Ideal) m ρ c (Proc.devRef .tc main_call0_v70) = brow (F := Ideal) (bvec0 (F := Ideal) (m ((c : Thread nD τ).loc main_arg10))) := h0_v70 (W0 m ρ c)

/-! ## Region 0's exit: its output is layer 0's paper features; its two degree columns and the buffers it does not hold are as entered -/

theorem W2_v71 (c : Dev nD) : W2 (F := Ideal) m ρ c (Proc.devRef .tc main_call0_v71) = hsL m c := by
  have e0 : V1 (F := Ideal) m ρ c main_arg0 = m ((c : Thread nD τ).loc main_arg0) := W1_arg0 m ρ c
  have e_v39 : V1 (F := Ideal) m ρ c main_call0_v39 = aggPP (F := Ideal) (m ((c : Thread nD τ).loc main_arg15)) (m ((c : Thread nD τ).loc main_arg16)) (truncf (F := Ideal) .bf16 (m ((c : Thread nD τ).loc main_arg0)) Cert.KernelIdeal.Facts₀.bitsLt_bf16_f32) := W1_v39 m ρ c
  have e_v50 : V1 (F := Ideal) m ρ c main_call0_v50 = aggAP (F := Ideal) (m ((c : Thread nD τ).loc main_arg17)) (m ((c : Thread nD τ).loc main_arg18)) (truncf (F := Ideal) .bf16 (m ((c : Thread nD τ).loc main_arg1)) Cert.KernelIdeal.Facts₀.bitsLt_bf16_f32) := W1_v50 m ρ c
  have e_v8 : V1 (F := Ideal) m ρ c main_call0_v8 = invP (F := Ideal) (capPP (F := Ideal) (m ((c : Thread nD τ).loc main_arg16))) := W1_v8 m ρ c
  have e_v17 : V1 (F := Ideal) m ρ c main_call0_v17 = invP (F := Ideal) (capAP (F := Ideal) (m ((c : Thread nD τ).loc main_arg18))) := W1_v17 m ρ c
  have e_v63 : V1 (F := Ideal) m ρ c main_call0_v63 = wmat0 (F := Ideal) (m ((c : Thread nD τ).loc main_arg7)) := W1_v63 m ρ c
  have e_v65 : V1 (F := Ideal) m ρ c main_call0_v65 = wmat0 (F := Ideal) (m ((c : Thread nD τ).loc main_arg3)) := W1_v65 m ρ c
  have e_v67 : V1 (F := Ideal) m ρ c main_call0_v67 = wmat0 (F := Ideal) (m ((c : Thread nD τ).loc main_arg4)) := W1_v67 m ρ c
  have e_v70 : V1 (F := Ideal) m ρ c main_call0_v70 = brow (F := Ideal) (bvec0 (F := Ideal) (m ((c : Thread nD τ).loc main_arg10))) := W1_v70 m ρ c
  refine (W2_arr m ρ c 9).trans ((arr0 (V1 m ρ) c).trans ?_)
  rw [e0, e_v39, e_v50, e_v8, e_v17, e_v63, e_v65, e_v67, e_v70]
  rfl

theorem W2_v8 (c : Dev nD) : W2 (F := Ideal) m ρ c (Proc.devRef .tc main_call0_v8) = invP (F := Ideal) (capPP (F := Ideal) (m ((c : Thread nD τ).loc main_arg16))) :=
  (W2_arr m ρ c 3).trans ((((dat0 (V1 m ρ) c).arrAt_in 3 rfl _).trans (A_eq0 (V1 m ρ) c 3)).trans (W1_v8 m ρ c))

theorem W2_v17 (c : Dev nD) : W2 (F := Ideal) m ρ c (Proc.devRef .tc main_call0_v17) = invP (F := Ideal) (capAP (F := Ideal) (m ((c : Thread nD τ).loc main_arg18))) :=
  (W2_arr m ρ c 4).trans ((((dat0 (V1 m ρ) c).arrAt_in 4 rfl _).trans (A_eq0 (V1 m ρ) c 4)).trans (W1_v17 m ρ c))

theorem W2_v61 (c : Dev nD) : W2 (F := Ideal) m ρ c (Proc.devRef .tc main_call0_v61) = aggPA (F := Ideal) (m ((c : Thread nD τ).loc main_arg19)) (m ((c : Thread nD τ).loc main_arg20)) (truncf (F := Ideal) .bf16 (m ((c : Thread nD τ).loc main_arg0)) Cert.KernelIdeal.Facts₀.bitsLt_bf16_f32) :=
  (W2_of_ne m ρ c main_call0_v61 (by decide)).trans (W1_v61 m ρ c)

theorem W2_v26 (c : Dev nD) : W2 (F := Ideal) m ρ c (Proc.devRef .tc main_call0_v26) = invA (F := Ideal) (capPA (F := Ideal) (m ((c : Thread nD τ).loc main_arg20))) :=
  (W2_of_ne m ρ c main_call0_v26 (by decide)).trans (W1_v26 m ρ c)

/-! ## Region 1's entry: the second stretch's results, and what it keeps -/

theorem W3_v73 (c : Dev nD) : W3 (F := Ideal) m ρ c (Proc.devRef .tc main_call0_v73) = wmat0 (F := Ideal) (m ((c : Thread nD τ).loc main_arg8)) :=
  (h1_v73 (W2 m ρ c)).trans (by rw [W2_arg8 m ρ c])

theorem W3_v75 (c : Dev nD) : W3 (F := Ideal) m ρ c (Proc.devRef .tc main_call0_v75) = wmat0 (F := Ideal) (m ((c : Thread nD τ).loc main_arg5)) :=
  (h1_v75 (W2 m ρ c)).trans (by rw [W2_arg5 m ρ c])

theorem W3_v78 (c : Dev nD) : W3 (F := Ideal) m ρ c (Proc.devRef .tc main_call0_v78) = brow (F := Ideal) (bvec0 (F := Ideal) (m ((c : Thread nD τ).loc main_arg11))) :=
  (h1_v78 (W2 m ρ c)).trans (by rw [W2_arg11 m ρ c])

theorem W3_v71 (c : Dev nD) : W3 (F := Ideal) m ρ c (Proc.devRef .tc main_call0_v71) = hsL m c :=
  (h1_keep_v71 (W2 m ρ c)).trans (W2_v71 m ρ c)

theorem W3_v8 (c : Dev nD) : W3 (F := Ideal) m ρ c (Proc.devRef .tc main_call0_v8) = invP (F := Ideal) (capPP (F := Ideal) (m ((c : Thread nD τ).loc main_arg16))) :=
  (h1_keep_v8 (W2 m ρ c)).trans (W2_v8 m ρ c)

theorem W3_v17 (c : Dev nD) : W3 (F := Ideal) m ρ c (Proc.devRef .tc main_call0_v17) = invP (F := Ideal) (capAP (F := Ideal) (m ((c : Thread nD τ).loc main_arg18))) :=
  (h1_keep_v17 (W2 m ρ c)).trans (W2_v17 m ρ c)

theorem W3_v61 (c : Dev nD) : W3 (F := Ideal) m ρ c (Proc.devRef .tc main_call0_v61) = aggPA (F := Ideal) (m ((c : Thread nD τ).loc main_arg19)) (m ((c : Thread nD τ).loc main_arg20)) (truncf (F := Ideal) .bf16 (m ((c : Thread nD τ).loc main_arg0)) Cert.KernelIdeal.Facts₀.bitsLt_bf16_f32) :=
  (h1_keep_v61 (W2 m ρ c)).trans (W2_v61 m ρ c)

theorem W3_v26 (c : Dev nD) : W3 (F := Ideal) m ρ c (Proc.devRef .tc main_call0_v26) = invA (F := Ideal) (capPA (F := Ideal) (m ((c : Thread nD τ).loc main_arg20))) :=
  (h1_keep_v26 (W2 m ρ c)).trans (W2_v26 m ρ c)

/-! ## Region 1's exit: its output is layer 0's author features; the buffers it does not hold are as entered -/

theorem W4_v79 (c : Dev nD) : W4 (F := Ideal) m ρ c (Proc.devRef .tc main_call0_v79) = xaL m c := by
  have e1 : V3 (F := Ideal) m ρ c main_arg1 = m ((c : Thread nD τ).loc main_arg1) := W3_arg1 m ρ c
  have e_v61 : V3 (F := Ideal) m ρ c main_call0_v61 = aggPA (F := Ideal) (m ((c : Thread nD τ).loc main_arg19)) (m ((c : Thread nD τ).loc main_arg20)) (truncf (F := Ideal) .bf16 (m ((c : Thread nD τ).loc main_arg0)) Cert.KernelIdeal.Facts₀.bitsLt_bf16_f32) := W3_v61 m ρ c
  have e_v26 : V3 (F := Ideal) m ρ c main_call0_v26 = invA (F := Ideal) (capPA (F := Ideal) (m ((c : Thread nD τ).loc main_arg20))) := W3_v26 m ρ c
  have e_v73 : V3 (F := Ideal) m ρ c main_call0_v73 = wmat0 (F := Ideal) (m ((c : Thread nD τ).loc main_arg8)) := W3_v73 m ρ c
  have e_v75 : V3 (F := Ideal) m ρ c main_call0_v75 = wmat0 (F := Ideal) (m ((c : Thread nD τ).loc main_arg5)) := W3_v75 m ρ c
  have e_v78 : V3 (F := Ideal) m ρ c main_call0_v78 = brow (F := Ideal) (bvec0 (F := Ideal) (m ((c : Thread nD τ).loc main_arg11))) := W3_v78 m ρ c
  refine (W4_arr m ρ c 6).trans ((arr1 (V3 m ρ) c).trans ?_)
  rw [e1, e_v61, e_v26, e_v73, e_v75, e_v78]
  rfl

theorem W4_v71 (c : Dev nD) : W4 (F := Ideal) m ρ c (Proc.devRef .tc main_call0_v71) = hsL m c :=
  (W4_of_ne m ρ c main_call0_v71 (by decide)).trans (W3_v71 m ρ c)

theorem W4_v8 (c : Dev nD) : W4 (F := Ideal) m ρ c (Proc.devRef .tc main_call0_v8) = invP (F := Ideal) (capPP (F := Ideal) (m ((c : Thread nD τ).loc main_arg16))) :=
  (W4_of_ne m ρ c main_call0_v8 (by decide)).trans (W3_v8 m ρ c)

theorem W4_v17 (c : Dev nD) : W4 (F := Ideal) m ρ c (Proc.devRef .tc main_call0_v17) = invP (F := Ideal) (capAP (F := Ideal) (m ((c : Thread nD τ).loc main_arg18))) :=
  (W4_of_ne m ρ c main_call0_v17 (by decide)).trans (W3_v17 m ρ c)

/-! ## Region 2's entry: the third stretch's results, and what it keeps -/

theorem W5_v90 (c : Dev nD) : W5 (F := Ideal) m ρ c (Proc.devRef .tc main_call0_v90) = aggPP (F := Ideal) (m ((c : Thread nD τ).loc main_arg15)) (m ((c : Thread nD τ).loc main_arg16)) (hsL m c) :=
  (h2_v90 (W4 m ρ c)).trans (by rw [W4_arg15 m ρ c, W4_arg16 m ρ c, W4_v71 m ρ c])

theorem W5_v101 (c : Dev nD) : W5 (F := Ideal) m ρ c (Proc.devRef .tc main_call0_v101) = aggAP (F := Ideal) (m ((c : Thread nD τ).loc main_arg17)) (m ((c : Thread nD τ).loc main_arg18)) (xaL m c) :=
  (h2_v101 (W4 m ρ c)).trans (by rw [W4_arg17 m ρ c, W4_arg18 m ρ c, W4_v79 m ρ c])

theorem W5_v105 (c : Dev nD) : W5 (F := Ideal) m ρ c (Proc.devRef .tc main_call0_v105) = wmat1 (F := Ideal) (m ((c : Thread nD τ).loc main_arg7)) :=
  (h2_v105 (W4 m ρ c)).trans (by rw [W4_arg7 m ρ c])

theorem W5_v107 (c : Dev nD) : W5 (F := Ideal) m ρ c (Proc.devRef .tc main_call0_v107) = wmat1 (F := Ideal) (m ((c : Thread nD τ).loc main_arg3)) :=
  (h2_v107 (W4 m ρ c)).trans (by rw [W4_arg3 m ρ c])

theorem W5_v109 (c : Dev nD) : W5 (F := Ideal) m ρ c (Proc.devRef .tc main_call0_v109) = wmat1 (F := Ideal) (m ((c : Thread nD τ).loc main_arg4)) :=
  (h2_v109 (W4 m ρ c)).trans (by rw [W4_arg4 m ρ c])

theorem W5_v112 (c : Dev nD) : W5 (F := Ideal) m ρ c (Proc.devRef .tc main_call0_v112) = brow (F := Ideal) (bvec1 (F := Ideal) (m ((c : Thread nD τ).loc main_arg10))) :=
  (h2_v112 (W4 m ρ c)).trans (by rw [W4_arg10 m ρ c])

theorem W5_v102 (c : Dev nD) : W5 (F := Ideal) m ρ c (Proc.devRef .tc main_call0_v102) = headW0 (F := Ideal) (m ((c : Thread nD τ).loc main_arg13)) :=
  (h2_v102 (W4 m ρ c)).trans (by rw [W4_arg13 m ρ c])

theorem W5_v103 (c : Dev nD) : W5 (F := Ideal) m ρ c (Proc.devRef .tc main_call0_v103) = headW1 (F := Ideal) (m ((c : Thread nD τ).loc main_arg13)) :=
  (h2_v103 (W4 m ρ c)).trans (by rw [W4_arg13 m ρ c])

theorem W5_v113 (c : Dev nD) : W5 (F := Ideal) m ρ c (Proc.devRef .tc main_call0_v113) = headB (F := Ideal) (m ((c : Thread nD τ).loc main_arg14)) :=
  (h2_v113 (W4 m ρ c)).trans (by rw [W4_arg14 m ρ c])

theorem W5_v71 (c : Dev nD) : W5 (F := Ideal) m ρ c (Proc.devRef .tc main_call0_v71) = hsL m c :=
  (h2_keep_v71 (W4 m ρ c)).trans (W4_v71 m ρ c)

theorem W5_v8 (c : Dev nD) : W5 (F := Ideal) m ρ c (Proc.devRef .tc main_call0_v8) = invP (F := Ideal) (capPP (F := Ideal) (m ((c : Thread nD τ).loc main_arg16))) :=
  (h2_keep_v8 (W4 m ρ c)).trans (W4_v8 m ρ c)

theorem W5_v17 (c : Dev nD) : W5 (F := Ideal) m ρ c (Proc.devRef .tc main_call0_v17) = invP (F := Ideal) (capAP (F := Ideal) (m ((c : Thread nD τ).loc main_arg18))) :=
  (h2_keep_v17 (W4 m ρ c)).trans (W4_v17 m ρ c)

/-! ## The return: region 2's output is the head over layer 0's and layer 1's paper features -/

/-- The first result buffer at the last boundary: the program's result function of the launch contents of the arguments. -/
theorem W7_out0 (c : Dev nD) :
    W7 (F := Ideal) m ρ c (Proc.devRef .tc main_v0_0)
      = Kout (m ((c : Thread nD τ).loc main_arg0)) (m ((c : Thread nD τ).loc main_arg1)) (m ((c : Thread nD τ).loc main_arg3))
          (m ((c : Thread nD τ).loc main_arg4)) (m ((c : Thread nD τ).loc main_arg5)) (m ((c : Thread nD τ).loc main_arg7))
          (m ((c : Thread nD τ).loc main_arg8)) (m ((c : Thread nD τ).loc main_arg10)) (m ((c : Thread nD τ).loc main_arg11))
          (m ((c : Thread nD τ).loc main_arg13)) (m ((c : Thread nD τ).loc main_arg14)) (m ((c : Thread nD τ).loc main_arg15))
          (m ((c : Thread nD τ).loc main_arg16)) (m ((c : Thread nD τ).loc main_arg17)) (m ((c : Thread nD τ).loc main_arg18))
          (m ((c : Thread nD τ).loc main_arg19)) (m ((c : Thread nD τ).loc main_arg20)) := by
  have e_v71 : V5 (F := Ideal) m ρ c main_call0_v71 = hsL m c := W5_v71 m ρ c
  have e_v90 : V5 (F := Ideal) m ρ c main_call0_v90 = aggPP (F := Ideal) (m ((c : Thread nD τ).loc main_arg15)) (m ((c : Thread nD τ).loc main_arg16)) (hsL m c) := W5_v90 m ρ c
  have e_v101 : V5 (F := Ideal) m ρ c main_call0_v101 = aggAP (F := Ideal) (m ((c : Thread nD τ).loc main_arg17)) (m ((c : Thread nD τ).loc main_arg18)) (xaL m c) := W5_v101 m ρ c
  have e_v8 : V5 (F := Ideal) m ρ c main_call0_v8 = invP (F := Ideal) (capPP (F := Ideal) (m ((c : Thread nD τ).loc main_arg16))) := W5_v8 m ρ c
  have e_v17 : V5 (F := Ideal) m ρ c main_call0_v17 = invP (F := Ideal) (capAP (F := Ideal) (m ((c : Thread nD τ).loc main_arg18))) := W5_v17 m ρ c
  have e_v105 : V5 (F := Ideal) m ρ c main_call0_v105 = wmat1 (F := Ideal) (m ((c : Thread nD τ).loc main_arg7)) := W5_v105 m ρ c
  have e_v107 : V5 (F := Ideal) m ρ c main_call0_v107 = wmat1 (F := Ideal) (m ((c : Thread nD τ).loc main_arg3)) := W5_v107 m ρ c
  have e_v109 : V5 (F := Ideal) m ρ c main_call0_v109 = wmat1 (F := Ideal) (m ((c : Thread nD τ).loc main_arg4)) := W5_v109 m ρ c
  have e_v112 : V5 (F := Ideal) m ρ c main_call0_v112 = brow (F := Ideal) (bvec1 (F := Ideal) (m ((c : Thread nD τ).loc main_arg10))) := W5_v112 m ρ c
  have e_v102 : V5 (F := Ideal) m ρ c main_call0_v102 = headW0 (F := Ideal) (m ((c : Thread nD τ).loc main_arg13)) := W5_v102 m ρ c
  have e_v103 : V5 (F := Ideal) m ρ c main_call0_v103 = headW1 (F := Ideal) (m ((c : Thread nD τ).loc main_arg13)) := W5_v103 m ρ c
  have e_v113 : V5 (F := Ideal) m ρ c main_call0_v113 = headB (F := Ideal) (m ((c : Thread nD τ).loc main_arg14)) := W5_v113 m ρ c
  refine (h3_keep_v0_0 (W6 m ρ c)).trans ((W6_arr m ρ c 12).trans ((arr2 (V5 m ρ) c).trans ?_))
  rw [e_v71, e_v90, e_v101, e_v8, e_v17, e_v105, e_v107, e_v109, e_v112, e_v102, e_v103, e_v113]
  rfl

/-- The second result buffer at the last boundary: the constant one half, twice. -/
theorem W7_out1 (c : Dev nD) :
    W7 (F := Ideal) m ρ c (Proc.devRef .tc main_v0_1)
      = broadcastInDim S2 ![] Cert.KernelIdeal.Facts₀.bcast_S_S2 (constant (F := Ideal) S_ .f32 0x3F000000#32) :=
  h3_out1 (W6 m ρ c)

end Cert.KernelIdeal.Val

end
-- ==== Proof.lean ====
/-
  A two-layer message-passing network over papers, authors and institutions, against its reference.

  The kernel program computes only what reaches the result: layer 0's paper and author features, layer 1's paper
  features, and the output head over the two paper feature arrays. Each layer is a Pallas call over blocks of 4000 rows:
  the node's own row against a root matrix, plus each relation's aggregated row, scaled by the reciprocal of the capped
  in-degree, against the relation's matrix, plus a bias row, then the positive part. The reference divides each aggregate
  by the capped in-degree, adds the bias first, computes the institution branch as well (which feeds nothing), joins the
  two paper feature arrays side by side and multiplies them into the whole head matrix.

  Over the extended reals the two results are one function of the arguments: a block of rows of a layer is the layer of
  the blocks of rows, so each Pallas call's output array is the layer function of the whole arrays; the quotient by a
  capped degree `max d 1`, never zero, is the product with its reciprocal; the bf16 round trips are the identity; sums
  of extended reals may be reordered and a sum over the 256 joined columns is the sum over its two halves. No
  finiteness of the inputs is used.
-/
import proofs.«404806_j34548716929227_3_alg».proof.Defs
import proofs.«404806_j34548716929227_3_alg».proof.Proof.Gen.Kernel
import proofs.«404806_j34548716929227_3_alg».proof.Proof.Gen.Kernel.Frame
import proofs.«404806_j34548716929227_3_alg».proof.Proof.Gen.KernelIdeal
import proofs.«404806_j34548716929227_3_alg».proof.Proof.Gen.KernelIdeal.Frame
import proofs.«404806_j34548716929227_3_alg».proof.Proof.Gen.ReferenceIdeal
import proofs.«404806_j34548716929227_3_alg».proof.Proof.Gen.Pre_finite_inputs
import proofs.«404806_j34548716929227_3_alg».proof.Proof.RefRun
import proofs.«404806_j34548716929227_3_alg».proof.Proof.RefRead
import proofs.«404806_j34548716929227_3_alg».proof.Proof.RefValue
import proofs.«404806_j34548716929227_3_alg».proof.Proof.KRun
import proofs.«404806_j34548716929227_3_alg».proof.Proof.KValue
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The idealized reference runs and keeps its arguments: its run with the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The ideal pass rewrote nothing. -/
theorem preserves : Cert.preserves_Kernel_KernelIdeal := trivial

/-- Both idealized programs end with the network's result function of the arguments and with the constant pair. -/
theorem algebraic : Cert.algebraic_KernelIdeal_ReferenceIdeal := by
  intro m ρ m' ρ' _ hagree
  refine ⟨fun c => Cert.KernelIdeal.Val.Kout
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg13))
        (m ((c.tc : Thread Cert.KernelIdeal.nD Cert.KernelIdeal.τ).loc Cert.KernelIdeal.main_arg14))
        (m ((c.tc : Thread Cert.KernelIdeal.nD Cert.KernelIdeal.τ).loc Cert.KernelIdeal.main_arg15))
        (m ((c.tc : Thread Cert.KernelIdeal.nD Cert.KernelIdeal.τ).loc Cert.KernelIdeal.main_arg16))
        (m ((c.tc : Thread Cert.KernelIdeal.nD Cert.KernelIdeal.τ).loc Cert.KernelIdeal.main_arg17))
        (m ((c.tc : Thread Cert.KernelIdeal.nD Cert.KernelIdeal.τ).loc Cert.KernelIdeal.main_arg18))
        (m ((c.tc : Thread Cert.KernelIdeal.nD Cert.KernelIdeal.τ).loc Cert.KernelIdeal.main_arg19))
        (m ((c.tc : Thread Cert.KernelIdeal.nD Cert.KernelIdeal.τ).loc Cert.KernelIdeal.main_arg20)),
    fun _ => broadcastInDim Cert.KernelIdeal.S2 ![] Cert.KernelIdeal.Facts₀.bcast_S_S2
        (constant (F := Ideal) Cert.KernelIdeal.S_ .f32 0x3F000000#32), ?_, ?_⟩
  · refine (θ_run Cert.KernelIdeal.defs _ _).mono (fun r h c => ?_) (Cert.KernelIdeal.Val.run_vals (F := Ideal) m ρ)
    obtain ⟨h0, h1, hargs⟩ := h c
    exact ⟨h0.trans (Cert.KernelIdeal.Val.W7_out0 m ρ c), h1.trans (Cert.KernelIdeal.Val.W7_out1 m ρ c), hargs⟩
  · refine (θ_run Cert.ReferenceIdeal.defs _ _).mono (fun r h c => ?_) (Cert.ReferenceIdeal.ValueP.run (F := Ideal) m' ρ')
    obtain ⟨h0, h1, hargs⟩ := h c
    obtain ⟨a0, a1, a2, a3, a4, a5, a6, a7, a8, a9, a10, a11, a12, a13, a14, a15, a16, a17, a18, a19, a20, a21, a22⟩ := hagree c
    refine ⟨?_, h1, hargs⟩
    rw [h0, Cert.ReferenceIdeal.ReadP.val_main_v242_eq, Cert.ReferenceIdeal.RefValue.ref_value,
      a0, a1, a3, a4, a5, a7, a8, a10, a11, a13, a14, a15, a16, a17, a18, a19, a20]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
